-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S8192x1024 : Shape := ⟨2, ![8192, 1024]⟩
abbrev S10 : Shape := ⟨1, ![10]⟩
abbrev S11 : Shape := ⟨1, ![11]⟩
abbrev S_ : Shape := ⟨0, ![]⟩
abbrev S1 : Shape := ⟨1, ![1]⟩
abbrev S128x1024 : Shape := ⟨2, ![128, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | _, _ => ⟨S4096x1024, .f32⟩

abbrev bufScoped : (cs : CoreSpace) → Fin (nBuf (.core cs)) → Bool
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v17 : BitVec 32 := Scalar.muli v9 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_18 : BitVec 32 := 2#32
  let v27 : BitVec 32 := Scalar.muli v11 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_mult1 (d0 : Dev nD) : BitVec 32 :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32 : BitVec 32 := 1024#32
  let v45 : BitVec 32 := Scalar.muli v32 c1024_i32
  let c0_i32_29 : BitVec 32 := 0#32
  let v46 : BitVec 32 := Scalar.addi v45 c0_i32_29
  v46
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_30 : BitVec 32 := 4096#32
  let v48 : BitVec 32 := Scalar.muli v8 c4096_i32_30
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_31 : BitVec 32 := 1024#32
  let v49 : BitVec 32 := Scalar.muli v32 c1024_i32_31
  let v50 : BitVec 32 := Scalar.addi v48 v49
  let c0_i32_32 : BitVec 32 := 0#32
  let v51 : BitVec 32 := Scalar.addi v50 c0_i32_32
  v51
def k0_off1 (d0 : Dev nD) (c0_i32_32 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_30 : BitVec 32 := 4096#32
  let v48 : BitVec 32 := Scalar.muli v8 c4096_i32_30
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_31 : BitVec 32 := 1024#32
  let v49 : BitVec 32 := Scalar.muli v32 c1024_i32_31
  let v50 : BitVec 32 := Scalar.addi v48 v49
  let v51 : BitVec 32 := Scalar.addi v50 c0_i32_32
  let v52 : BitVec 32 := v51
  let c0_i32_39 : BitVec 32 := 0#32
  ![v52.toNat, 0]
def k0_off2 (d0 : Dev nD) (c0_i32_29 : BitVec 32) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32 : BitVec 32 := 1024#32
  let v45 : BitVec 32 := Scalar.muli v32 c1024_i32
  let v46 : BitVec 32 := Scalar.addi v45 c0_i32_29
  let v47 : BitVec 32 := v46
  let c0_i32_40 : BitVec 32 := 0#32
  ![v47.toNat, 0]
def k0_dev4 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v53 : BitVec 32 := Scalar.muli v2 c4_i32_35
  let v54 : BitVec 32 := Scalar.addi c0_i32_36 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v55 : BitVec 32 := Scalar.muli v5 c2_i32_37
  let v56 : BitVec 32 := Scalar.addi v54 v55
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_38 : BitVec 32 := 1#32
  let v57 : BitVec 32 := Scalar.muli v9 c1_i32_38
  let v58 : BitVec 32 := Scalar.addi v56 v57
  v58.toNat
def k0_mult3 (d0 : Dev nD) : BitVec 32 :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_41 : BitVec 32 := 1024#32
  let v65 : BitVec 32 := Scalar.muli v32 c1024_i32_41
  let c128_i32 : BitVec 32 := 128#32
  let v66 : BitVec 32 := Scalar.addi v65 c128_i32
  v66
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_42 : BitVec 32 := 4096#32
  let v68 : BitVec 32 := Scalar.muli v8 c4096_i32_42
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_43 : BitVec 32 := 1024#32
  let v69 : BitVec 32 := Scalar.muli v32 c1024_i32_43
  let v70 : BitVec 32 := Scalar.addi v68 v69
  let c128_i32_44 : BitVec 32 := 128#32
  let v71 : BitVec 32 := Scalar.addi v70 c128_i32_44
  v71
def k0_dev5 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v73 : BitVec 32 := Scalar.muli v2 c4_i32_47
  let v74 : BitVec 32 := Scalar.addi c0_i32_48 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v75 : BitVec 32 := Scalar.muli v5 c2_i32_49
  let v76 : BitVec 32 := Scalar.addi v74 v75
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_50 : BitVec 32 := 1#32
  let v77 : BitVec 32 := Scalar.muli v9 c1_i32_50
  let v78 : BitVec 32 := Scalar.addi v76 v77
  v78.toNat
def k0_mult5 (d0 : Dev nD) : BitVec 32 :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_53 : BitVec 32 := 1024#32
  let v85 : BitVec 32 := Scalar.muli v32 c1024_i32_53
  let c256_i32 : BitVec 32 := 256#32
  let v86 : BitVec 32 := Scalar.addi v85 c256_i32
  v86
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_54 : BitVec 32 := 4096#32
  let v88 : BitVec 32 := Scalar.muli v8 c4096_i32_54
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_55 : BitVec 32 := 1024#32
  let v89 : BitVec 32 := Scalar.muli v32 c1024_i32_55
  let v90 : BitVec 32 := Scalar.addi v88 v89
  let c256_i32_56 : BitVec 32 := 256#32
  let v91 : BitVec 32 := Scalar.addi v90 c256_i32_56
  v91
def k0_dev6 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v93 : BitVec 32 := Scalar.muli v2 c4_i32_59
  let v94 : BitVec 32 := Scalar.addi c0_i32_60 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v95 : BitVec 32 := Scalar.muli v5 c2_i32_61
  let v96 : BitVec 32 := Scalar.addi v94 v95
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_62 : BitVec 32 := 1#32
  let v97 : BitVec 32 := Scalar.muli v9 c1_i32_62
  let v98 : BitVec 32 := Scalar.addi v96 v97
  v98.toNat
def k0_mult7 (d0 : Dev nD) : BitVec 32 :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_65 : BitVec 32 := 1024#32
  let v105 : BitVec 32 := Scalar.muli v32 c1024_i32_65
  let c384_i32 : BitVec 32 := 384#32
  let v106 : BitVec 32 := Scalar.addi v105 c384_i32
  v106
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_66 : BitVec 32 := 4096#32
  let v108 : BitVec 32 := Scalar.muli v8 c4096_i32_66
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_67 : BitVec 32 := 1024#32
  let v109 : BitVec 32 := Scalar.muli v32 c1024_i32_67
  let v110 : BitVec 32 := Scalar.addi v108 v109
  let c384_i32_68 : BitVec 32 := 384#32
  let v111 : BitVec 32 := Scalar.addi v110 c384_i32_68
  v111
def k0_dev7 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v113 : BitVec 32 := Scalar.muli v2 c4_i32_71
  let v114 : BitVec 32 := Scalar.addi c0_i32_72 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v115 : BitVec 32 := Scalar.muli v5 c2_i32_73
  let v116 : BitVec 32 := Scalar.addi v114 v115
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_74 : BitVec 32 := 1#32
  let v117 : BitVec 32 := Scalar.muli v9 c1_i32_74
  let v118 : BitVec 32 := Scalar.addi v116 v117
  v118.toNat
def k0_mult9 (d0 : Dev nD) : BitVec 32 :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_77 : BitVec 32 := 1024#32
  let v125 : BitVec 32 := Scalar.muli v32 c1024_i32_77
  let c512_i32 : BitVec 32 := 512#32
  let v126 : BitVec 32 := Scalar.addi v125 c512_i32
  v126
def k0_mult10 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_78 : BitVec 32 := 4096#32
  let v128 : BitVec 32 := Scalar.muli v8 c4096_i32_78
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_79 : BitVec 32 := 1024#32
  let v129 : BitVec 32 := Scalar.muli v32 c1024_i32_79
  let v130 : BitVec 32 := Scalar.addi v128 v129
  let c512_i32_80 : BitVec 32 := 512#32
  let v131 : BitVec 32 := Scalar.addi v130 c512_i32_80
  v131
def k0_dev8 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v133 : BitVec 32 := Scalar.muli v2 c4_i32_83
  let v134 : BitVec 32 := Scalar.addi c0_i32_84 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v135 : BitVec 32 := Scalar.muli v5 c2_i32_85
  let v136 : BitVec 32 := Scalar.addi v134 v135
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v137 : BitVec 32 := Scalar.muli v9 c1_i32_86
  let v138 : BitVec 32 := Scalar.addi v136 v137
  v138.toNat
def k0_mult11 (d0 : Dev nD) : BitVec 32 :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_89 : BitVec 32 := 1024#32
  let v145 : BitVec 32 := Scalar.muli v32 c1024_i32_89
  let c640_i32 : BitVec 32 := 640#32
  let v146 : BitVec 32 := Scalar.addi v145 c640_i32
  v146
def k0_mult12 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_90 : BitVec 32 := 4096#32
  let v148 : BitVec 32 := Scalar.muli v8 c4096_i32_90
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_91 : BitVec 32 := 1024#32
  let v149 : BitVec 32 := Scalar.muli v32 c1024_i32_91
  let v150 : BitVec 32 := Scalar.addi v148 v149
  let c640_i32_92 : BitVec 32 := 640#32
  let v151 : BitVec 32 := Scalar.addi v150 c640_i32_92
  v151
def k0_dev9 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v153 : BitVec 32 := Scalar.muli v2 c4_i32_94
  let v154 : BitVec 32 := Scalar.addi c0_i32_95 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v155 : BitVec 32 := Scalar.muli v5 c2_i32_96
  let v156 : BitVec 32 := Scalar.addi v154 v155
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_97 : BitVec 32 := 1#32
  let v157 : BitVec 32 := Scalar.muli v9 c1_i32_97
  let v158 : BitVec 32 := Scalar.addi v156 v157
  v158.toNat
def k0_mult13 (d0 : Dev nD) : BitVec 32 :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_100 : BitVec 32 := 1024#32
  let v165 : BitVec 32 := Scalar.muli v32 c1024_i32_100
  let c768_i32 : BitVec 32 := 768#32
  let v166 : BitVec 32 := Scalar.addi v165 c768_i32
  v166
def k0_mult14 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_101 : BitVec 32 := 4096#32
  let v168 : BitVec 32 := Scalar.muli v8 c4096_i32_101
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_102 : BitVec 32 := 1024#32
  let v169 : BitVec 32 := Scalar.muli v32 c1024_i32_102
  let v170 : BitVec 32 := Scalar.addi v168 v169
  let c768_i32_103 : BitVec 32 := 768#32
  let v171 : BitVec 32 := Scalar.addi v170 c768_i32_103
  v171
def k0_dev10 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v173 : BitVec 32 := Scalar.muli v2 c4_i32_105
  let v174 : BitVec 32 := Scalar.addi c0_i32_106 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v175 : BitVec 32 := Scalar.muli v5 c2_i32_107
  let v176 : BitVec 32 := Scalar.addi v174 v175
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_108 : BitVec 32 := 1#32
  let v177 : BitVec 32 := Scalar.muli v9 c1_i32_108
  let v178 : BitVec 32 := Scalar.addi v176 v177
  v178.toNat
def k0_mult15 (d0 : Dev nD) : BitVec 32 :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_111 : BitVec 32 := 1024#32
  let v185 : BitVec 32 := Scalar.muli v32 c1024_i32_111
  let c896_i32 : BitVec 32 := 896#32
  let v186 : BitVec 32 := Scalar.addi v185 c896_i32
  v186
def k0_mult16 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_112 : BitVec 32 := 4096#32
  let v188 : BitVec 32 := Scalar.muli v8 c4096_i32_112
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_113 : BitVec 32 := 1024#32
  let v189 : BitVec 32 := Scalar.muli v32 c1024_i32_113
  let v190 : BitVec 32 := Scalar.addi v188 v189
  let c896_i32_114 : BitVec 32 := 896#32
  let v191 : BitVec 32 := Scalar.addi v190 c896_i32_114
  v191
def k0_dev11 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_116 : BitVec 32 := 4#32
  let v193 : BitVec 32 := Scalar.muli v2 c4_i32_116
  let v194 : BitVec 32 := Scalar.addi c0_i32_117 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v195 : BitVec 32 := Scalar.muli v5 c2_i32_118
  let v196 : BitVec 32 := Scalar.addi v194 v195
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_119 : BitVec 32 := 1#32
  let v197 : BitVec 32 := Scalar.muli v9 c1_i32_119
  let v198 : BitVec 32 := Scalar.addi v196 v197
  v198.toNat
def k0_mult17 (d0 : Dev nD) : BitVec 32 :=
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_27 v5
  let v42 : BitVec 32 := Scalar.addi v40 v41
  let c1024_i32_122 : BitVec 32 := 1024#32
  let v205 : BitVec 32 := Scalar.muli v42 c1024_i32_122
  let c768_i32_123 : BitVec 32 := 768#32
  let v206 : BitVec 32 := Scalar.addi v205 c768_i32_123
  v206
def k0_mult18 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_124 : BitVec 32 := 4096#32
  let v208 : BitVec 32 := Scalar.muli v8 c4096_i32_124
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_27 v5
  let v42 : BitVec 32 := Scalar.addi v40 v41
  let c1024_i32_125 : BitVec 32 := 1024#32
  let v209 : BitVec 32 := Scalar.muli v42 c1024_i32_125
  let v210 : BitVec 32 := Scalar.addi v208 v209
  let c768_i32_126 : BitVec 32 := 768#32
  let v211 : BitVec 32 := Scalar.addi v210 c768_i32_126
  v211
def k0_off3 (d0 : Dev nD) (c768_i32_126 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_124 : BitVec 32 := 4096#32
  let v208 : BitVec 32 := Scalar.muli v8 c4096_i32_124
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_27 v5
  let v42 : BitVec 32 := Scalar.addi v40 v41
  let c1024_i32_125 : BitVec 32 := 1024#32
  let v209 : BitVec 32 := Scalar.muli v42 c1024_i32_125
  let v210 : BitVec 32 := Scalar.addi v208 v209
  let v211 : BitVec 32 := Scalar.addi v210 c768_i32_126
  let v212 : BitVec 32 := v211
  let c0_i32_132 : BitVec 32 := 0#32
  ![v212.toNat, 0]
def k0_off4 (d0 : Dev nD) (c768_i32_123 : BitVec 32) : Fin 2 → Nat :=
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_27 v5
  let v42 : BitVec 32 := Scalar.addi v40 v41
  let c1024_i32_122 : BitVec 32 := 1024#32
  let v205 : BitVec 32 := Scalar.muli v42 c1024_i32_122
  let v206 : BitVec 32 := Scalar.addi v205 c768_i32_123
  let v207 : BitVec 32 := v206
  let c0_i32_133 : BitVec 32 := 0#32
  ![v207.toNat, 0]
def k0_dev12 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v213 : BitVec 32 := Scalar.muli v2 c4_i32_128
  let v214 : BitVec 32 := Scalar.addi c0_i32_129 v213
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v215 : BitVec 32 := Scalar.muli v5 c2_i32_130
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_131 : BitVec 32 := 1#32
  let v217 : BitVec 32 := Scalar.muli v9 c1_i32_131
  let v218 : BitVec 32 := Scalar.addi v216 v217
  v218.toNat
def k0_mult19 (d0 : Dev nD) : BitVec 32 :=
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_27 v5
  let v42 : BitVec 32 := Scalar.addi v40 v41
  let c1024_i32_134 : BitVec 32 := 1024#32
  let v225 : BitVec 32 := Scalar.muli v42 c1024_i32_134
  let c896_i32_135 : BitVec 32 := 896#32
  let v226 : BitVec 32 := Scalar.addi v225 c896_i32_135
  v226
def k0_mult20 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_136 : BitVec 32 := 4096#32
  let v228 : BitVec 32 := Scalar.muli v8 c4096_i32_136
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_27 v5
  let v42 : BitVec 32 := Scalar.addi v40 v41
  let c1024_i32_137 : BitVec 32 := 1024#32
  let v229 : BitVec 32 := Scalar.muli v42 c1024_i32_137
  let v230 : BitVec 32 := Scalar.addi v228 v229
  let c896_i32_138 : BitVec 32 := 896#32
  let v231 : BitVec 32 := Scalar.addi v230 c896_i32_138
  v231
def k0_dev13 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v233 : BitVec 32 := Scalar.muli v2 c4_i32_140
  let v234 : BitVec 32 := Scalar.addi c0_i32_141 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v235 : BitVec 32 := Scalar.muli v5 c2_i32_142
  let v236 : BitVec 32 := Scalar.addi v234 v235
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_143 : BitVec 32 := 1#32
  let v237 : BitVec 32 := Scalar.muli v9 c1_i32_143
  let v238 : BitVec 32 := Scalar.addi v236 v237
  v238.toNat
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_146 : BitVec 32 := 4096#32
  let v245 : BitVec 32 := Scalar.muli v8 c4096_i32_146
  let c0_i32_147 : BitVec 32 := 0#32
  ![v245.toNat, 0]
def k0_mult21 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_156 : BitVec 32 := 1024#32
  let v257 : BitVec 32 := Scalar.muli v32 c1024_i32_156
  let v258 : BitVec 32 := Scalar.addi v44 v257
  let c0_i32_157 : BitVec 32 := 0#32
  let v259 : BitVec 32 := Scalar.addi v258 c0_i32_157
  v259
def k0_off6 (d0 : Dev nD) (c0_i32_157 : BitVec 32) : Fin 2 → Nat :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_156 : BitVec 32 := 1024#32
  let v257 : BitVec 32 := Scalar.muli v32 c1024_i32_156
  let v258 : BitVec 32 := Scalar.addi v44 v257
  let v259 : BitVec 32 := Scalar.addi v258 c0_i32_157
  let v260 : BitVec 32 := v259
  let c0_i32_164 : BitVec 32 := 0#32
  ![v260.toNat, 0]
def k0_dev14 (d0 : Dev nD) : Nat :=
  let c0_i32_161 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_160 : BitVec 32 := 4#32
  let v261 : BitVec 32 := Scalar.muli v10 c4_i32_160
  let v262 : BitVec 32 := Scalar.addi c0_i32_161 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v263 : BitVec 32 := Scalar.muli v5 c2_i32_162
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v265 : BitVec 32 := Scalar.muli v8 c1_i32_163
  let v266 : BitVec 32 := Scalar.addi v264 v265
  v266.toNat
def k0_mult22 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_166 : BitVec 32 := 1024#32
  let v273 : BitVec 32 := Scalar.muli v32 c1024_i32_166
  let v274 : BitVec 32 := Scalar.addi v44 v273
  let c0_i32_167 : BitVec 32 := 0#32
  let v275 : BitVec 32 := Scalar.addi v274 c0_i32_167
  v275
def k0_dev15 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v277 : BitVec 32 := Scalar.muli v2 c4_i32_170
  let v278 : BitVec 32 := Scalar.addi c0_i32_171 v277
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_172 : BitVec 32 := 2#32
  let v279 : BitVec 32 := Scalar.muli v11 c2_i32_172
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v281 : BitVec 32 := Scalar.muli v8 c1_i32_173
  let v282 : BitVec 32 := Scalar.addi v280 v281
  v282.toNat
def k0_mult23 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_184 : BitVec 32 := 1024#32
  let v299 : BitVec 32 := Scalar.muli v32 c1024_i32_184
  let v300 : BitVec 32 := Scalar.addi v44 v299
  let c128_i32_185 : BitVec 32 := 128#32
  let v301 : BitVec 32 := Scalar.addi v300 c128_i32_185
  v301
def k0_dev16 (d0 : Dev nD) : Nat :=
  let c0_i32_189 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_188 : BitVec 32 := 4#32
  let v303 : BitVec 32 := Scalar.muli v10 c4_i32_188
  let v304 : BitVec 32 := Scalar.addi c0_i32_189 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v305 : BitVec 32 := Scalar.muli v5 c2_i32_190
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v307 : BitVec 32 := Scalar.muli v8 c1_i32_191
  let v308 : BitVec 32 := Scalar.addi v306 v307
  v308.toNat
def k0_mult24 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_194 : BitVec 32 := 1024#32
  let v315 : BitVec 32 := Scalar.muli v32 c1024_i32_194
  let v316 : BitVec 32 := Scalar.addi v44 v315
  let c128_i32_195 : BitVec 32 := 128#32
  let v317 : BitVec 32 := Scalar.addi v316 c128_i32_195
  v317
def k0_dev17 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_198 : BitVec 32 := 4#32
  let v319 : BitVec 32 := Scalar.muli v2 c4_i32_198
  let v320 : BitVec 32 := Scalar.addi c0_i32_199 v319
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_200 : BitVec 32 := 2#32
  let v321 : BitVec 32 := Scalar.muli v11 c2_i32_200
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v323 : BitVec 32 := Scalar.muli v8 c1_i32_201
  let v324 : BitVec 32 := Scalar.addi v322 v323
  v324.toNat
def k0_mult25 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_212 : BitVec 32 := 1024#32
  let v341 : BitVec 32 := Scalar.muli v32 c1024_i32_212
  let v342 : BitVec 32 := Scalar.addi v44 v341
  let c256_i32_213 : BitVec 32 := 256#32
  let v343 : BitVec 32 := Scalar.addi v342 c256_i32_213
  v343
def k0_dev18 (d0 : Dev nD) : Nat :=
  let c0_i32_217 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_216 : BitVec 32 := 4#32
  let v345 : BitVec 32 := Scalar.muli v10 c4_i32_216
  let v346 : BitVec 32 := Scalar.addi c0_i32_217 v345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v347 : BitVec 32 := Scalar.muli v5 c2_i32_218
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v349 : BitVec 32 := Scalar.muli v8 c1_i32_219
  let v350 : BitVec 32 := Scalar.addi v348 v349
  v350.toNat
def k0_mult26 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_222 : BitVec 32 := 1024#32
  let v357 : BitVec 32 := Scalar.muli v32 c1024_i32_222
  let v358 : BitVec 32 := Scalar.addi v44 v357
  let c256_i32_223 : BitVec 32 := 256#32
  let v359 : BitVec 32 := Scalar.addi v358 c256_i32_223
  v359
def k0_dev19 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v361 : BitVec 32 := Scalar.muli v2 c4_i32_226
  let v362 : BitVec 32 := Scalar.addi c0_i32_227 v361
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_228 : BitVec 32 := 2#32
  let v363 : BitVec 32 := Scalar.muli v11 c2_i32_228
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v365 : BitVec 32 := Scalar.muli v8 c1_i32_229
  let v366 : BitVec 32 := Scalar.addi v364 v365
  v366.toNat
def k0_mult27 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_240 : BitVec 32 := 1024#32
  let v383 : BitVec 32 := Scalar.muli v32 c1024_i32_240
  let v384 : BitVec 32 := Scalar.addi v44 v383
  let c384_i32_241 : BitVec 32 := 384#32
  let v385 : BitVec 32 := Scalar.addi v384 c384_i32_241
  v385
def k0_dev20 (d0 : Dev nD) : Nat :=
  let c0_i32_245 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_244 : BitVec 32 := 4#32
  let v387 : BitVec 32 := Scalar.muli v10 c4_i32_244
  let v388 : BitVec 32 := Scalar.addi c0_i32_245 v387
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v389 : BitVec 32 := Scalar.muli v5 c2_i32_246
  let v390 : BitVec 32 := Scalar.addi v388 v389
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v391 : BitVec 32 := Scalar.muli v8 c1_i32_247
  let v392 : BitVec 32 := Scalar.addi v390 v391
  v392.toNat
def k0_mult28 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_250 : BitVec 32 := 1024#32
  let v399 : BitVec 32 := Scalar.muli v32 c1024_i32_250
  let v400 : BitVec 32 := Scalar.addi v44 v399
  let c384_i32_251 : BitVec 32 := 384#32
  let v401 : BitVec 32 := Scalar.addi v400 c384_i32_251
  v401
def k0_dev21 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v403 : BitVec 32 := Scalar.muli v2 c4_i32_254
  let v404 : BitVec 32 := Scalar.addi c0_i32_255 v403
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_256 : BitVec 32 := 2#32
  let v405 : BitVec 32 := Scalar.muli v11 c2_i32_256
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v407 : BitVec 32 := Scalar.muli v8 c1_i32_257
  let v408 : BitVec 32 := Scalar.addi v406 v407
  v408.toNat
def k0_mult29 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_268 : BitVec 32 := 1024#32
  let v425 : BitVec 32 := Scalar.muli v32 c1024_i32_268
  let v426 : BitVec 32 := Scalar.addi v44 v425
  let c512_i32_269 : BitVec 32 := 512#32
  let v427 : BitVec 32 := Scalar.addi v426 c512_i32_269
  v427
def k0_dev22 (d0 : Dev nD) : Nat :=
  let c0_i32_273 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_272 : BitVec 32 := 4#32
  let v429 : BitVec 32 := Scalar.muli v10 c4_i32_272
  let v430 : BitVec 32 := Scalar.addi c0_i32_273 v429
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v431 : BitVec 32 := Scalar.muli v5 c2_i32_274
  let v432 : BitVec 32 := Scalar.addi v430 v431
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_275 : BitVec 32 := 1#32
  let v433 : BitVec 32 := Scalar.muli v8 c1_i32_275
  let v434 : BitVec 32 := Scalar.addi v432 v433
  v434.toNat
def k0_mult30 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_278 : BitVec 32 := 1024#32
  let v441 : BitVec 32 := Scalar.muli v32 c1024_i32_278
  let v442 : BitVec 32 := Scalar.addi v44 v441
  let c512_i32_279 : BitVec 32 := 512#32
  let v443 : BitVec 32 := Scalar.addi v442 c512_i32_279
  v443
def k0_dev23 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v445 : BitVec 32 := Scalar.muli v2 c4_i32_282
  let v446 : BitVec 32 := Scalar.addi c0_i32_283 v445
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_284 : BitVec 32 := 2#32
  let v447 : BitVec 32 := Scalar.muli v11 c2_i32_284
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v449 : BitVec 32 := Scalar.muli v8 c1_i32_285
  let v450 : BitVec 32 := Scalar.addi v448 v449
  v450.toNat
def k0_mult31 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_296 : BitVec 32 := 1024#32
  let v467 : BitVec 32 := Scalar.muli v32 c1024_i32_296
  let v468 : BitVec 32 := Scalar.addi v44 v467
  let c640_i32_297 : BitVec 32 := 640#32
  let v469 : BitVec 32 := Scalar.addi v468 c640_i32_297
  v469
def k0_dev24 (d0 : Dev nD) : Nat :=
  let c0_i32_301 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_300 : BitVec 32 := 4#32
  let v471 : BitVec 32 := Scalar.muli v10 c4_i32_300
  let v472 : BitVec 32 := Scalar.addi c0_i32_301 v471
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v473 : BitVec 32 := Scalar.muli v5 c2_i32_302
  let v474 : BitVec 32 := Scalar.addi v472 v473
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v475 : BitVec 32 := Scalar.muli v8 c1_i32_303
  let v476 : BitVec 32 := Scalar.addi v474 v475
  v476.toNat
def k0_mult32 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_306 : BitVec 32 := 1024#32
  let v483 : BitVec 32 := Scalar.muli v32 c1024_i32_306
  let v484 : BitVec 32 := Scalar.addi v44 v483
  let c640_i32_307 : BitVec 32 := 640#32
  let v485 : BitVec 32 := Scalar.addi v484 c640_i32_307
  v485
def k0_dev25 (d0 : Dev nD) : Nat :=
  let c0_i32_311 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_310 : BitVec 32 := 4#32
  let v487 : BitVec 32 := Scalar.muli v2 c4_i32_310
  let v488 : BitVec 32 := Scalar.addi c0_i32_311 v487
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_312 : BitVec 32 := 2#32
  let v489 : BitVec 32 := Scalar.muli v11 c2_i32_312
  let v490 : BitVec 32 := Scalar.addi v488 v489
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_313 : BitVec 32 := 1#32
  let v491 : BitVec 32 := Scalar.muli v8 c1_i32_313
  let v492 : BitVec 32 := Scalar.addi v490 v491
  v492.toNat
def k0_mult33 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_324 : BitVec 32 := 1024#32
  let v509 : BitVec 32 := Scalar.muli v32 c1024_i32_324
  let v510 : BitVec 32 := Scalar.addi v44 v509
  let c768_i32_325 : BitVec 32 := 768#32
  let v511 : BitVec 32 := Scalar.addi v510 c768_i32_325
  v511
def k0_dev26 (d0 : Dev nD) : Nat :=
  let c0_i32_329 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_328 : BitVec 32 := 4#32
  let v513 : BitVec 32 := Scalar.muli v10 c4_i32_328
  let v514 : BitVec 32 := Scalar.addi c0_i32_329 v513
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v515 : BitVec 32 := Scalar.muli v5 c2_i32_330
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_331 : BitVec 32 := 1#32
  let v517 : BitVec 32 := Scalar.muli v8 c1_i32_331
  let v518 : BitVec 32 := Scalar.addi v516 v517
  v518.toNat
def k0_mult34 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_334 : BitVec 32 := 1024#32
  let v525 : BitVec 32 := Scalar.muli v32 c1024_i32_334
  let v526 : BitVec 32 := Scalar.addi v44 v525
  let c768_i32_335 : BitVec 32 := 768#32
  let v527 : BitVec 32 := Scalar.addi v526 c768_i32_335
  v527
def k0_dev27 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v529 : BitVec 32 := Scalar.muli v2 c4_i32_338
  let v530 : BitVec 32 := Scalar.addi c0_i32_339 v529
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_340 : BitVec 32 := 2#32
  let v531 : BitVec 32 := Scalar.muli v11 c2_i32_340
  let v532 : BitVec 32 := Scalar.addi v530 v531
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_341 : BitVec 32 := 1#32
  let v533 : BitVec 32 := Scalar.muli v8 c1_i32_341
  let v534 : BitVec 32 := Scalar.addi v532 v533
  v534.toNat
def k0_mult35 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_352 : BitVec 32 := 1024#32
  let v551 : BitVec 32 := Scalar.muli v32 c1024_i32_352
  let v552 : BitVec 32 := Scalar.addi v44 v551
  let c896_i32_353 : BitVec 32 := 896#32
  let v553 : BitVec 32 := Scalar.addi v552 c896_i32_353
  v553
def k0_dev28 (d0 : Dev nD) : Nat :=
  let c0_i32_357 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_356 : BitVec 32 := 4#32
  let v555 : BitVec 32 := Scalar.muli v10 c4_i32_356
  let v556 : BitVec 32 := Scalar.addi c0_i32_357 v555
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v557 : BitVec 32 := Scalar.muli v5 c2_i32_358
  let v558 : BitVec 32 := Scalar.addi v556 v557
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v559 : BitVec 32 := Scalar.muli v8 c1_i32_359
  let v560 : BitVec 32 := Scalar.addi v558 v559
  v560.toNat
def k0_mult36 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c1024_i32_362 : BitVec 32 := 1024#32
  let v567 : BitVec 32 := Scalar.muli v32 c1024_i32_362
  let v568 : BitVec 32 := Scalar.addi v44 v567
  let c896_i32_363 : BitVec 32 := 896#32
  let v569 : BitVec 32 := Scalar.addi v568 c896_i32_363
  v569
def k0_dev29 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v571 : BitVec 32 := Scalar.muli v2 c4_i32_366
  let v572 : BitVec 32 := Scalar.addi c0_i32_367 v571
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_368 : BitVec 32 := 2#32
  let v573 : BitVec 32 := Scalar.muli v11 c2_i32_368
  let v574 : BitVec 32 := Scalar.addi v572 v573
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_369 : BitVec 32 := 1#32
  let v575 : BitVec 32 := Scalar.muli v8 c1_i32_369
  let v576 : BitVec 32 := Scalar.addi v574 v575
  v576.toNat
def k0_mult37 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_24 v5
  let v38 : BitVec 32 := Scalar.addi v36 v37
  let c1024_i32_380 : BitVec 32 := 1024#32
  let v593 : BitVec 32 := Scalar.muli v38 c1024_i32_380
  let v594 : BitVec 32 := Scalar.addi v44 v593
  let c0_i32_381 : BitVec 32 := 0#32
  let v595 : BitVec 32 := Scalar.addi v594 c0_i32_381
  v595
def k0_off7 (d0 : Dev nD) (c0_i32_381 : BitVec 32) : Fin 2 → Nat :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_24 v5
  let v38 : BitVec 32 := Scalar.addi v36 v37
  let c1024_i32_380 : BitVec 32 := 1024#32
  let v593 : BitVec 32 := Scalar.muli v38 c1024_i32_380
  let v594 : BitVec 32 := Scalar.addi v44 v593
  let v595 : BitVec 32 := Scalar.addi v594 c0_i32_381
  let v596 : BitVec 32 := v595
  let c0_i32_388 : BitVec 32 := 0#32
  ![v596.toNat, 0]
def k0_dev30 (d0 : Dev nD) : Nat :=
  let c0_i32_385 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_384 : BitVec 32 := 4#32
  let v597 : BitVec 32 := Scalar.muli v10 c4_i32_384
  let v598 : BitVec 32 := Scalar.addi c0_i32_385 v597
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v599 : BitVec 32 := Scalar.muli v5 c2_i32_386
  let v600 : BitVec 32 := Scalar.addi v598 v599
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v601 : BitVec 32 := Scalar.muli v8 c1_i32_387
  let v602 : BitVec 32 := Scalar.addi v600 v601
  v602.toNat
def k0_mult38 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_24 v5
  let v38 : BitVec 32 := Scalar.addi v36 v37
  let c1024_i32_398 : BitVec 32 := 1024#32
  let v619 : BitVec 32 := Scalar.muli v38 c1024_i32_398
  let v620 : BitVec 32 := Scalar.addi v44 v619
  let c128_i32_399 : BitVec 32 := 128#32
  let v621 : BitVec 32 := Scalar.addi v620 c128_i32_399
  v621
def k0_dev31 (d0 : Dev nD) : Nat :=
  let c0_i32_403 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_402 : BitVec 32 := 4#32
  let v623 : BitVec 32 := Scalar.muli v10 c4_i32_402
  let v624 : BitVec 32 := Scalar.addi c0_i32_403 v623
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_404 : BitVec 32 := 2#32
  let v625 : BitVec 32 := Scalar.muli v5 c2_i32_404
  let v626 : BitVec 32 := Scalar.addi v624 v625
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_405 : BitVec 32 := 1#32
  let v627 : BitVec 32 := Scalar.muli v8 c1_i32_405
  let v628 : BitVec 32 := Scalar.addi v626 v627
  v628.toNat
def k0_mult39 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_24 v5
  let v38 : BitVec 32 := Scalar.addi v36 v37
  let c1024_i32_416 : BitVec 32 := 1024#32
  let v645 : BitVec 32 := Scalar.muli v38 c1024_i32_416
  let v646 : BitVec 32 := Scalar.addi v44 v645
  let c256_i32_417 : BitVec 32 := 256#32
  let v647 : BitVec 32 := Scalar.addi v646 c256_i32_417
  v647
def k0_dev32 (d0 : Dev nD) : Nat :=
  let c0_i32_420 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_419 : BitVec 32 := 4#32
  let v649 : BitVec 32 := Scalar.muli v10 c4_i32_419
  let v650 : BitVec 32 := Scalar.addi c0_i32_420 v649
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_421 : BitVec 32 := 2#32
  let v651 : BitVec 32 := Scalar.muli v5 c2_i32_421
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_422 : BitVec 32 := 1#32
  let v653 : BitVec 32 := Scalar.muli v8 c1_i32_422
  let v654 : BitVec 32 := Scalar.addi v652 v653
  v654.toNat
def k0_mult40 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.addi v34 v5
  let c1024_i32_457 : BitVec 32 := 1024#32
  let v701 : BitVec 32 := Scalar.muli v35 c1024_i32_457
  let v702 : BitVec 32 := Scalar.addi v44 v701
  let c384_i32_458 : BitVec 32 := 384#32
  let v703 : BitVec 32 := Scalar.addi v702 c384_i32_458
  v703
def k0_off8 (d0 : Dev nD) (c384_i32_458 : BitVec 32) : Fin 2 → Nat :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.addi v34 v5
  let c1024_i32_457 : BitVec 32 := 1024#32
  let v701 : BitVec 32 := Scalar.muli v35 c1024_i32_457
  let v702 : BitVec 32 := Scalar.addi v44 v701
  let v703 : BitVec 32 := Scalar.addi v702 c384_i32_458
  let v704 : BitVec 32 := v703
  let c0_i32_465 : BitVec 32 := 0#32
  ![v704.toNat, 0]
def k0_dev33 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_461 : BitVec 32 := 4#32
  let v705 : BitVec 32 := Scalar.muli v2 c4_i32_461
  let v706 : BitVec 32 := Scalar.addi c0_i32_462 v705
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_463 : BitVec 32 := 2#32
  let v707 : BitVec 32 := Scalar.muli v11 c2_i32_463
  let v708 : BitVec 32 := Scalar.addi v706 v707
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_464 : BitVec 32 := 1#32
  let v709 : BitVec 32 := Scalar.muli v8 c1_i32_464
  let v710 : BitVec 32 := Scalar.addi v708 v709
  v710.toNat
def k0_mult41 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.addi v34 v5
  let c1024_i32_475 : BitVec 32 := 1024#32
  let v727 : BitVec 32 := Scalar.muli v35 c1024_i32_475
  let v728 : BitVec 32 := Scalar.addi v44 v727
  let c512_i32_476 : BitVec 32 := 512#32
  let v729 : BitVec 32 := Scalar.addi v728 c512_i32_476
  v729
def k0_dev34 (d0 : Dev nD) : Nat :=
  let c0_i32_480 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_479 : BitVec 32 := 4#32
  let v731 : BitVec 32 := Scalar.muli v2 c4_i32_479
  let v732 : BitVec 32 := Scalar.addi c0_i32_480 v731
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_481 : BitVec 32 := 2#32
  let v733 : BitVec 32 := Scalar.muli v11 c2_i32_481
  let v734 : BitVec 32 := Scalar.addi v732 v733
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_482 : BitVec 32 := 1#32
  let v735 : BitVec 32 := Scalar.muli v8 c1_i32_482
  let v736 : BitVec 32 := Scalar.addi v734 v735
  v736.toNat
def k0_mult42 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c4096_i32 : BitVec 32 := 4096#32
  let v44 : BitVec 32 := Scalar.muli v43 c4096_i32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.addi v34 v5
  let c1024_i32_493 : BitVec 32 := 1024#32
  let v753 : BitVec 32 := Scalar.muli v35 c1024_i32_493
  let v754 : BitVec 32 := Scalar.addi v44 v753
  let c640_i32_494 : BitVec 32 := 640#32
  let v755 : BitVec 32 := Scalar.addi v754 c640_i32_494
  v755
def k0_dev35 (d0 : Dev nD) : Nat :=
  let c0_i32_498 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_497 : BitVec 32 := 4#32
  let v757 : BitVec 32 := Scalar.muli v2 c4_i32_497
  let v758 : BitVec 32 := Scalar.addi c0_i32_498 v757
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_499 : BitVec 32 := 2#32
  let v759 : BitVec 32 := Scalar.muli v11 c2_i32_499
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_500 : BitVec 32 := 1#32
  let v761 : BitVec 32 := Scalar.muli v8 c1_i32_500
  let v762 : BitVec 32 := Scalar.addi v760 v761
  v762.toNat

class Facts₀ : Prop where
  hamt_1 : (1#32 : BitVec 32).msb = false
  hamt_3 : (3#32 : BitVec 32).msb = false
  inb_S10_S1_0 : ∀ a, (![0] : Fin 1 → Nat) a + S1.size a ≤ S10.size a
  squeezes_S1_S_ : S1.Squeezes S_
  inb_S10_S1_1 : ∀ a, (![1] : Fin 1 → Nat) a + S1.size a ≤ S10.size a
  inb_S10_S1_2 : ∀ a, (![2] : Fin 1 → Nat) a + S1.size a ≤ S10.size a
  inb_S10_S1_3 : ∀ a, (![3] : Fin 1 → Nat) a + S1.size a ≤ S10.size a
  inb_S10_S1_4 : ∀ a, (![4] : Fin 1 → Nat) a + S1.size a ≤ S10.size a
  inb_S10_S1_5 : ∀ a, (![5] : Fin 1 → Nat) a + S1.size a ≤ S10.size a
  inb_S10_S1_6 : ∀ a, (![6] : Fin 1 → Nat) a + S1.size a ≤ S10.size a
  inb_S10_S1_7 : ∀ a, (![7] : Fin 1 → Nat) a + S1.size a ≤ S10.size a
  inb_S10_S1_8 : ∀ a, (![8] : Fin 1 → Nat) a + S1.size a ≤ S10.size a
  inb_S10_S1_9 : ∀ a, (![9] : Fin 1 → Nat) a + S1.size a ≤ S10.size a
  inb_S11_S1_0 : ∀ a, (![0] : Fin 1 → Nat) a + S1.size a ≤ S11.size a
  inb_S11_S1_1 : ∀ a, (![1] : Fin 1 → Nat) a + S1.size a ≤ S11.size a
  inb_S11_S1_2 : ∀ a, (![2] : Fin 1 → Nat) a + S1.size a ≤ S11.size a
  inb_S11_S1_3 : ∀ a, (![3] : Fin 1 → Nat) a + S1.size a ≤ S11.size a
  inb_S11_S1_4 : ∀ a, (![4] : Fin 1 → Nat) a + S1.size a ≤ S11.size a
  inb_S11_S1_5 : ∀ a, (![5] : Fin 1 → Nat) a + S1.size a ≤ S11.size a
  inb_S11_S1_6 : ∀ a, (![6] : Fin 1 → Nat) a + S1.size a ≤ S11.size a
  inb_S11_S1_7 : ∀ a, (![7] : Fin 1 → Nat) a + S1.size a ≤ S11.size a
  inb_S11_S1_8 : ∀ a, (![8] : Fin 1 → Nat) a + S1.size a ≤ S11.size a
  inb_S11_S1_9 : ∀ a, (![9] : Fin 1 → Nat) a + S1.size a ≤ S11.size a
  inb_S11_S1_10 : ∀ a, (![10] : Fin 1 → Nat) a + S1.size a ≤ S11.size a
  hcc0_scratch0 : 0 + S10.numel ≤ 65
  hcc0_scratch1 : 10 + S10.numel ≤ 65
  hcc0_scratch2 : 20 + S11.numel ≤ 65
  hcc0_scratch3 : 31 + S11.numel ≤ 65
  hcc0_scratch4 : 42 + S11.numel ≤ 65
  hcc0_scratch5 : 53 + S11.numel ≤ 65
  hcc0_scratch6 : 64 + S_.numel ≤ 65
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_mult1_dvd : ∀ d0 : Dev nD, 8 ∣ (k0_mult1 d0).toNat
  k0_mult2_dvd : ∀ d0 : Dev nD, 8 ∣ (k0_mult2 d0).toNat
  k0_off1_inb : ∀ d0 : Dev nD, ∀ (r : Fin 8), ∀ a, (k0_off1 d0 (BitVec.ofNat 32 (128 * r.val))) a + S128x1024.size a ≤ S8192x1024.size a
  k0_off2_inb : ∀ d0 : Dev nD, ∀ (r : Fin 8), ∀ a, (k0_off2 d0 (BitVec.ofNat 32 (128 * r.val))) a + S128x1024.size a ≤ S4096x1024.size a
  k0_dev4_lt : ∀ d0 : Dev nD, (k0_dev4 d0) < nD
  k0_mult3_dvd : ∀ d0 : Dev nD, 8 ∣ (k0_mult3 d0).toNat
  k0_mult4_dvd : ∀ d0 : Dev nD, 8 ∣ (k0_mult4 d0).toNat
  k0_dev5_lt : ∀ d0 : Dev nD, (k0_dev5 d0) < nD
  k0_mult5_dvd : ∀ d0 : Dev nD, 8 ∣ (k0_mult5 d0).toNat
  k0_mult6_dvd : ∀ d0 : Dev nD, 8 ∣ (k0_mult6 d0).toNat
  k0_dev6_lt : ∀ d0 : Dev nD, (k0_dev6 d0) < nD
  k0_mult7_dvd : ∀ d0 : Dev nD, 8 ∣ (k0_mult7 d0).toNat
  k0_mult8_dvd : ∀ d0 : Dev nD, 8 ∣ (k0_mult8 d0).toNat
  k0_dev7_lt : ∀ d0 : Dev nD, (k0_dev7 d0) < nD
  k0_mult9_dvd : ∀ d0 : Dev nD, 8 ∣ (k0_mult9 d0).toNat
  k0_mult10_dvd : ∀ d0 : Dev nD, 8 ∣ (k0_mult10 d0).toNat
  k0_dev8_lt : ∀ d0 : Dev nD, (k0_dev8 d0) < nD
  k0_mult11_dvd : ∀ d0 : Dev nD, 8 ∣ (k0_mult11 d0).toNat
  k0_mult12_dvd : ∀ d0 : Dev nD, 8 ∣ (k0_mult12 d0).toNat
  k0_dev9_lt : ∀ d0 : Dev nD, (k0_dev9 d0) < nD
  k0_mult13_dvd : ∀ d0 : Dev nD, 8 ∣ (k0_mult13 d0).toNat
  k0_mult14_dvd : ∀ d0 : Dev nD, 8 ∣ (k0_mult14 d0).toNat
  k0_dev10_lt : ∀ d0 : Dev nD, (k0_dev10 d0) < nD
  k0_mult15_dvd : ∀ d0 : Dev nD, 8 ∣ (k0_mult15 d0).toNat
  k0_mult16_dvd : ∀ d0 : Dev nD, 8 ∣ (k0_mult16 d0).toNat
  k0_dev11_lt : ∀ d0 : Dev nD, (k0_dev11 d0) < nD
  k0_mult17_dvd : ∀ d0 : Dev nD, 8 ∣ (k0_mult17 d0).toNat
  k0_mult18_dvd : ∀ d0 : Dev nD, 8 ∣ (k0_mult18 d0).toNat
  k0_off3_inb : ∀ d0 : Dev nD, ∀ (r : Fin 2), ∀ a, (k0_off3 d0 (BitVec.ofNat 32 (768 + 128 * r.val))) a + S128x1024.size a ≤ S8192x1024.size a
  k0_off4_inb : ∀ d0 : Dev nD, ∀ (r : Fin 2), ∀ a, (k0_off4 d0 (BitVec.ofNat 32 (768 + 128 * r.val))) a + S128x1024.size a ≤ S4096x1024.size a
  k0_dev12_lt : ∀ d0 : Dev nD, (k0_dev12 d0) < nD
  k0_mult19_dvd : ∀ d0 : Dev nD, 8 ∣ (k0_mult19 d0).toNat
  k0_mult20_dvd : ∀ d0 : Dev nD, 8 ∣ (k0_mult20 d0).toNat
  k0_dev13_lt : ∀ d0 : Dev nD, (k0_dev13 d0) < nD
  k0_off5_inb : ∀ d0 : Dev nD, ∀ a, (k0_off5 d0) a + S4096x1024.size a ≤ S8192x1024.size a
  k0_mult21_dvd : ∀ d0 : Dev nD, 8 ∣ (k0_mult21 d0).toNat
  k0_off6_inb : ∀ d0 : Dev nD, ∀ (r : Fin 8), ∀ a, (k0_off6 d0 (BitVec.ofNat 32 (128 * r.val))) a + S128x1024.size a ≤ S8192x1024.size a
  k0_dev14_lt : ∀ d0 : Dev nD, (k0_dev14 d0) < nD
  k0_mult22_dvd : ∀ d0 : Dev nD, 8 ∣ (k0_mult22 d0).toNat
  k0_dev15_lt : ∀ d0 : Dev nD, (k0_dev15 d0) < nD
  k0_mult23_dvd : ∀ d0 : Dev nD, 8 ∣ (k0_mult23 d0).toNat
  k0_dev16_lt : ∀ d0 : Dev nD, (k0_dev16 d0) < nD
  k0_mult24_dvd : ∀ d0 : Dev nD, 8 ∣ (k0_mult24 d0).toNat
  k0_dev17_lt : ∀ d0 : Dev nD, (k0_dev17 d0) < nD
  k0_mult25_dvd : ∀ d0 : Dev nD, 8 ∣ (k0_mult25 d0).toNat
  k0_dev18_lt : ∀ d0 : Dev nD, (k0_dev18 d0) < nD
  k0_mult26_dvd : ∀ d0 : Dev nD, 8 ∣ (k0_mult26 d0).toNat
  k0_dev19_lt : ∀ d0 : Dev nD, (k0_dev19 d0) < nD
  k0_mult27_dvd : ∀ d0 : Dev nD, 8 ∣ (k0_mult27 d0).toNat
  k0_dev20_lt : ∀ d0 : Dev nD, (k0_dev20 d0) < nD
  k0_mult28_dvd : ∀ d0 : Dev nD, 8 ∣ (k0_mult28 d0).toNat
  k0_dev21_lt : ∀ d0 : Dev nD, (k0_dev21 d0) < nD
  k0_mult29_dvd : ∀ d0 : Dev nD, 8 ∣ (k0_mult29 d0).toNat
  k0_dev22_lt : ∀ d0 : Dev nD, (k0_dev22 d0) < nD
  k0_mult30_dvd : ∀ d0 : Dev nD, 8 ∣ (k0_mult30 d0).toNat
  k0_dev23_lt : ∀ d0 : Dev nD, (k0_dev23 d0) < nD
  k0_mult31_dvd : ∀ d0 : Dev nD, 8 ∣ (k0_mult31 d0).toNat
  k0_dev24_lt : ∀ d0 : Dev nD, (k0_dev24 d0) < nD
  k0_mult32_dvd : ∀ d0 : Dev nD, 8 ∣ (k0_mult32 d0).toNat
  k0_dev25_lt : ∀ d0 : Dev nD, (k0_dev25 d0) < nD
  k0_mult33_dvd : ∀ d0 : Dev nD, 8 ∣ (k0_mult33 d0).toNat
  k0_dev26_lt : ∀ d0 : Dev nD, (k0_dev26 d0) < nD
  k0_mult34_dvd : ∀ d0 : Dev nD, 8 ∣ (k0_mult34 d0).toNat
  k0_dev27_lt : ∀ d0 : Dev nD, (k0_dev27 d0) < nD
  k0_mult35_dvd : ∀ d0 : Dev nD, 8 ∣ (k0_mult35 d0).toNat
  k0_dev28_lt : ∀ d0 : Dev nD, (k0_dev28 d0) < nD
  k0_mult36_dvd : ∀ d0 : Dev nD, 8 ∣ (k0_mult36 d0).toNat
  k0_dev29_lt : ∀ d0 : Dev nD, (k0_dev29 d0) < nD
  k0_mult37_dvd : ∀ d0 : Dev nD, 8 ∣ (k0_mult37 d0).toNat
  k0_off7_inb : ∀ d0 : Dev nD, ∀ (r : Fin 3), ∀ a, (k0_off7 d0 (BitVec.ofNat 32 (128 * r.val))) a + S128x1024.size a ≤ S8192x1024.size a
  k0_dev30_lt : ∀ d0 : Dev nD, (k0_dev30 d0) < nD
  k0_mult38_dvd : ∀ d0 : Dev nD, 8 ∣ (k0_mult38 d0).toNat
  k0_dev31_lt : ∀ d0 : Dev nD, (k0_dev31 d0) < nD
  k0_mult39_dvd : ∀ d0 : Dev nD, 8 ∣ (k0_mult39 d0).toNat
  k0_dev32_lt : ∀ d0 : Dev nD, (k0_dev32 d0) < nD
  k0_mult40_dvd : ∀ d0 : Dev nD, 8 ∣ (k0_mult40 d0).toNat
  k0_off8_inb : ∀ d0 : Dev nD, ∀ (r : Fin 3), ∀ a, (k0_off8 d0 (BitVec.ofNat 32 (384 + 128 * r.val))) a + S128x1024.size a ≤ S8192x1024.size a
  k0_dev33_lt : ∀ d0 : Dev nD, (k0_dev33 d0) < nD
  k0_mult41_dvd : ∀ d0 : Dev nD, 8 ∣ (k0_mult41 d0).toNat
  k0_dev34_lt : ∀ d0 : Dev nD, (k0_dev34 d0) < nD
  k0_mult42_dvd : ∀ d0 : Dev nD, 8 ∣ (k0_mult42 d0).toNat
  k0_dev35_lt : ∀ d0 : Dev nD, (k0_dev35 d0) < nD

variable [Facts₀]

abbrev cc0_scratch0 : DmaSems sig S10 := SemArray.consecutive 0 S10 hcc0_scratch0
abbrev cc0_scratch1 : DmaSems sig S10 := SemArray.consecutive 10 S10 hcc0_scratch1
abbrev cc0_scratch2 : DmaSems sig S11 := SemArray.consecutive 20 S11 hcc0_scratch2
abbrev cc0_scratch3 : DmaSems sig S11 := SemArray.consecutive 31 S11 hcc0_scratch3
abbrev cc0_scratch4 : DmaSems sig S11 := SemArray.consecutive 42 S11 hcc0_scratch4
abbrev cc0_scratch5 : DmaSems sig S11 := SemArray.consecutive 53 S11 hcc0_scratch5
abbrev cc0_scratch6 : DmaSems sig S_ := SemArray.consecutive 64 S_ hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelIdealAG.Mesh.lean ====
/-
  The mesh of the all-gather and the plan of its transfers.

  Device `c` of the 2 × 2 × 2 mesh sits at `(x, y, z) = (c / 4, c / 2 % 2, c % 2)`; its neighbour along an axis flips
  that coordinate. The input is cut along `z` only, so the two devices of a `z`-pair hold the two halves of the
  whole array, and each device's result is the whole array: its own half (a local copy) and the other half, which
  arrives in 32 row chunks of 128 rows — chunk `j = 8 q + k` is rows `128 j … 128 j + 127` of that half, `q` the
  quarter and `k` the chunk inside it.

  Each device makes 32 addressed transfers, numbered `i : Fin 32`: `0 … 9` to its `z`-neighbour (its own quarter's
  eight chunks and chunks 6, 7 of the diagonal quarter, out of its input block), `10 … 20` to its `x`-neighbour and
  `21 … 31` to its `y`-neighbour (the eight chunks it received from its `z`-neighbour, forwarded, and three chunks
  it received from the other neighbour). `tileOf c i` is the chunk transfer `i` of device `c` carries;
  `origin c j` the device out of whose input block chunk `j` of `c`'s result comes.
-/
import proofs.«900674_g7700000000000675_dist_ag_v7x_xyz2x2x2_z_m4096_n1024_f32_1_alg».proof.Proof.Gen.KernelIdeal

namespace Cert.KernelIdeal.AG

open Cert.KernelIdeal Cert.KernelIdeal.Gen Idealize.ShloMosaic

/-- The neighbour of `c` along an axis: `0` the `z` axis, `1` the `x` axis, `2` the `y` axis. -/
def peer (a : Fin 3) (c : Dev nD) : Dev nD :=
  match a with
  | 0 => ⟨c.val + 1 - 2 * (c.val % 2), by have : c.val < 8 := c.isLt; show _ < 8; omega⟩
  | 1 => ⟨c.val + 4 - 8 * (c.val / 4), by have : c.val < 8 := c.isLt; show _ < 8; omega⟩
  | 2 => ⟨c.val + 2 - 4 * (c.val / 2 % 2), by have : c.val < 8 := c.isLt; show _ < 8; omega⟩

theorem peer_peer : ∀ (a : Fin 3) (c : Dev nD), peer a (peer a c) = c := by decide
theorem peer_ne : ∀ (a : Fin 3) (c : Dev nD), peer a c ≠ c := by decide
theorem peer_inj : ∀ (a b : Fin 3) (c : Dev nD), peer a c = peer b c → a = b := by decide

/-- The axis transfer `i` goes along. -/
def ax (i : Fin 32) : Fin 3 := if i.val < 10 then 0 else if i.val < 21 then 1 else 2

/-- The transfers along axis `a`. -/
def sends (a : Fin 3) : Finset (Fin 32) := Finset.univ.filter fun i => ax i = a

/-- The chunk (of the receiver's other half) that transfer `i` of device `c` carries. -/
def tileOf (c : Dev nD) (i : Fin 32) : Fin 32 :=
  let qm := c.val / 2
  ⟨(if i.val < 8 then 8 * qm + i.val                                   -- z: own quarter, chunk i
    else if i.val < 10 then 8 * (3 - qm) + 6 + (i.val - 8)             -- z: diagonal quarter, chunks 6, 7
    else if i.val < 18 then 8 * qm + (i.val - 10)                      -- x: own quarter, forwarded
    else if i.val < 21 then 8 * (qm + 1 - 2 * (qm % 2)) + (i.val - 18) -- x: the y-neighbour's quarter, chunks 0 … 2
    else if i.val < 29 then 8 * qm + (i.val - 21)                      -- y: own quarter, forwarded
    else 8 * ((qm + 2) % 4) + 3 + (i.val - 29)) % 32,                  -- y: the x-neighbour's quarter, chunks 3 … 5
   Nat.mod_lt _ (by decide)⟩

/-- The chunk of the sender's INPUT block a `z` transfer (`i < 10`) reads: the same number (quarter and chunk). -/
abbrev xtileOf (c : Dev nD) (i : Fin 32) : Fin 32 := tileOf c i

/-- The transfer of the neighbour that fills chunk `j` of device `c`'s other half, with its axis. -/
theorem filled : ∀ (c : Dev nD) (j : Fin 32), ∃ i : Fin 32, tileOf (peer (ax i) c) i = j := by decide

/-- Each chunk is filled once: a device's incoming transfers carry different chunks. -/
theorem tileOf_in_inj : ∀ (c : Dev nD) (i i' : Fin 32), tileOf (peer (ax i) c) i = tileOf (peer (ax i') c) i' → i = i' := by decide

/-- A device's outgoing transfers along one axis carry different chunks. -/
theorem tileOf_out_inj : ∀ (c : Dev nD) (i i' : Fin 32), ax i = ax i' → tileOf c i = tileOf c i' → i = i' := by decide

/-- The device out of whose input block chunk `j` of device `c`'s other half comes: by the quarter `j / 8` relative to
    `c`'s own — its own quarter straight from the `z`-neighbour; the `y`- (the `x`-) neighbour's quarter from that
    neighbour's `z`-neighbour; the diagonal quarter's chunks 0 … 5 from the diagonal device's `z`-neighbour, its chunks
    6, 7 straight from the `z`-neighbour. -/
def origin (c : Dev nD) (j : Fin 32) : Dev nD :=
  let ρ := (j.val / 8) ^^^ (c.val / 2)
  if ρ = 0 then peer 0 c
  else if ρ = 1 then peer 0 (peer 2 c)
  else if ρ = 2 then peer 0 (peer 1 c)
  else if j.val % 8 < 6 then peer 0 (peer 1 (peer 2 c)) else peer 0 c

/-- A `z` transfer reads the sender's own input block. -/
theorem origin_z : ∀ (c : Dev nD) (i : Fin 32), ax i = 0 → origin (peer 0 c) (tileOf c i) = c := by decide
/-- A forwarded chunk keeps its origin. -/
theorem origin_fwd : ∀ (c : Dev nD) (i : Fin 32), ax i ≠ 0 → origin (peer (ax i) c) (tileOf c i) = origin c (tileOf c i) := by decide
/-- Every chunk of the other half comes out of a block of the other `z`. -/
theorem origin_z_coord : ∀ (c : Dev nD) (j : Fin 32), (origin c j).val % 2 = 1 - c.val % 2 := by decide
/-- The `z`-neighbour has the other `z`, the `x`- and `y`-neighbours the same. -/
theorem peer_z_coord : ∀ (a : Fin 3) (c : Dev nD), (peer a c).val % 2 = if a = 0 then 1 - c.val % 2 else c.val % 2 := by decide

end Cert.KernelIdeal.AG
-- ==== Proof.KernelIdealAG.Region.lean ====
/-
  The buffers of one device cut into the pieces the transfers move, and what the result holds.

  The result array `main_v1` (8192 rows) of device `c` is its own half — rows `4096 z … 4096 z + 4095`, the local copy's
  destination — and the 32 chunks of 128 rows of the other half, chunk `j` at rows `4096 (1 - z) + 128 j …`. The input
  block `main_arg0` (4096 rows) is 32 chunks of 128 rows. `W c` is what device `c`'s result holds at the end: on its
  own half its input block, on chunk `j` of the other half rows `128 j …` of the input block of `origin c j`.
-/
import proofs.«900674_g7700000000000675_dist_ag_v7x_xyz2x2x2_z_m4096_n1024_f32_1_alg».proof.Proof.KernelIdealAG.Mesh
import Idealize.ShloMosaic.Lib.Pipeline.Launch
import Idealize.ShloMosaic.Lib.Pipeline.Kit
import Idealize.ShloMosaic.Lib.Pipeline.Value
import Idealize.ShloMosaic.Lib.ValueIdx

noncomputable section

namespace Cert.KernelIdeal.AG

open Cert.KernelIdeal Cert.KernelIdeal.Gen
open Idealize.ShloMosaic Idealize.ShloMosaic.TcCoe
open Idealize.SL Idealize.SL.Sem

variable {F : FTy → Type} [FloatOps F]

/-- The two arrays, whole. -/
abbrev xinM : Memref sig .tc .hbm S4096x1024 .f32 := Memref.whole main_arg0
abbrev outM : Memref sig .tc .hbm S8192x1024 .f32 := Memref.whole main_v1

/-- First row and column of chunk `j` of an input block; of chunk `j` of device `c`'s other half; of its own half. -/
def xOff (j : Fin 32) : Fin 2 → Nat := ![128 * j.val, 0]
def oOff (c : Dev nD) (j : Fin 32) : Fin 2 → Nat := ![4096 * (1 - c.val % 2) + 128 * j.val, 0]
def hOff (c : Dev nD) : Fin 2 → Nat := ![4096 * (c.val % 2), 0]

theorem xOff_inb (j : Fin 32) : ∀ a, xOff j a + S128x1024.size a ≤ S4096x1024.size a := by
  intro a; have := j.isLt; fin_cases a <;> simp [xOff, Shape.size] <;> omega
theorem oOff_inb (c : Dev nD) (j : Fin 32) : ∀ a, oOff c j a + S128x1024.size a ≤ S8192x1024.size a := by
  intro a; have := j.isLt; fin_cases a <;> simp [oOff, Shape.size] <;> omega
theorem hOff_inb (c : Dev nD) : ∀ a, hOff c a + S4096x1024.size a ≤ S8192x1024.size a := by
  intro a; fin_cases a <;> simp [hOff, Shape.size] <;> omega

/-- Chunk `j` of the input block; chunk `j` of device `c`'s other half; its own half: as memrefs. -/
abbrev xS (j : Fin 32) : Memref sig .tc .hbm S128x1024 .f32 :=
  xinM.slice (Rect.unit (s := S4096x1024) (xOff j) S128x1024.size (xOff_inb j)) (fun _ => rfl)
abbrev oS (c : Dev nD) (j : Fin 32) : Memref sig .tc .hbm S128x1024 .f32 :=
  outM.slice (Rect.unit (s := S8192x1024) (oOff c j) S128x1024.size (oOff_inb c j)) (fun _ => rfl)
abbrev oH (c : Dev nD) : Memref sig .tc .hbm S4096x1024 .f32 :=
  outM.slice (Rect.unit (s := S8192x1024) (hOff c) S4096x1024.size (hOff_inb c)) (fun _ => rfl)

/-- The elements under them. -/
abbrev xK (j : Fin 32) : Finset S4096x1024.Idx := (xS j).view.set
abbrev oK (c : Dev nD) (j : Fin 32) : Finset S8192x1024.Idx := (oS c j).view.set
abbrev hK (c : Dev nD) : Finset S8192x1024.Idx := (oH c).view.set

variable (m : (ℓ : Loc nD τ sig) → Buf (Elt F) ℓ)

/-- Device `c`'s input block and result array as launched. -/
abbrev X (c : Dev nD) : Buf (Elt F) ((c : Thread nD τ).loc main_arg0) := m ((c : Thread nD τ).loc main_arg0)
abbrev V0 (c : Dev nD) : Buf (Elt F) ((c : Thread nD τ).loc main_v1) := m ((c : Thread nD τ).loc main_v1)

/-- Row `r` of the result array as a row of an input block: the row within its half. -/
def lo (i : S8192x1024.Idx) : S4096x1024.Idx :=
  ValueIdx.ix2 (⟨(i 0).val % 4096, Nat.mod_lt _ (by decide)⟩ : Fin 4096) (⟨(i 1).val, (i 1).isLt⟩ : Fin 1024)

/-- The chunk (of its half) a row of the result array lies in. -/
def chunkOf (i : S8192x1024.Idx) : Fin 32 := ⟨(i 0).val % 4096 / 128, by have := Nat.mod_lt (i 0).val (show 0 < 4096 by decide); omega⟩

/-- What device `c`'s result array holds at the end. -/
def W (c : Dev nD) : Buf (Elt F) ((c : Thread nD τ).loc main_v1) := fun i =>
  if (i 0).val / 4096 = c.val % 2 then X m c (lo i) else X m (origin c (chunkOf i)) (lo i)

end Cert.KernelIdeal.AG

end
-- ==== Proof.KernelIdealAG.Sched.lean ====
/-
  The protocol of the all-gather as a schedule of rounds (one round per semaphore cell).

  Every device has one barrier cell (the runtime's barrier semaphore), with three duties at round 0 — one unit from each
  of its three neighbours, whose signal hands over the chunks of the NEIGHBOUR's result array this device will write —
  and 65 DMA cells with one duty each: the send cell and the receive cell of each of its 32 addressed transfers and of
  the 32 transfers addressed to it, and the cell of its local copy. A receive cell's duty hands its owner the chunk
  that landed, holding what the result holds there at the end (`W`); a send cell's duty hands back the share of the
  source that was read; the local copy's the device's own half and the share of the input block it read.
-/
import proofs.«900674_g7700000000000675_dist_ag_v7x_xyz2x2x2_z_m4096_n1024_f32_1_alg».proof.Proof.KernelIdealAG.Region
import Idealize.ShloMosaic.Lib.Tactic

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The runtime's barrier semaphore of collective id 0. -/
abbrev barS : Sem sig := (SemArray.scalar (sig.barrier 0 rfl) : Sems sig S_).sem

/-- The send and the receive semaphore of transfer `i` (on the sender, on the receiver), and the local copy's. -/
def sndSem (i : Fin 32) : DmaSem sig :=
  ⟨if i.val < 10 then i.val else if i.val < 21 then i.val + 10 else i.val + 21, by have := i.isLt; show _ < 65; split_ifs <;> omega⟩
def rcvSem (i : Fin 32) : DmaSem sig :=
  ⟨if i.val < 10 then i.val + 10 else if i.val < 21 then i.val + 21 else i.val + 32, by have := i.isLt; show _ < 65; split_ifs <;> omega⟩
def locSem : DmaSem sig := ⟨64, by show _ < 65; omega⟩

abbrev barCell (c : Dev nD) : GSem nD τ sig := ((c : Thread nD τ), .reg barS)
abbrev dCell (c : Dev nD) (q : DmaSem sig) : GSem nD τ sig := ((c : Thread nD τ), .dma q)

/-- What a DMA semaphore is for. -/
inductive Role where
  | snd (i : Fin 32)
  | rcv (i : Fin 32)
  | loc
deriving DecidableEq

def roleOf (q : DmaSem sig) : Role :=
  if h0 : q.val < 10 then .snd ⟨q.val, by omega⟩
  else if h1 : q.val < 20 then .rcv ⟨q.val - 10, by omega⟩
  else if h2 : q.val < 31 then .snd ⟨q.val - 10, by omega⟩
  else if h3 : q.val < 42 then .rcv ⟨q.val - 21, by omega⟩
  else if h4 : q.val < 53 then .snd ⟨q.val - 21, by omega⟩
  else if h5 : q.val < 64 then .rcv ⟨q.val - 32, by omega⟩
  else .loc

theorem roleOf_snd : ∀ i : Fin 32, roleOf (sndSem i) = .snd i := by decide
theorem roleOf_rcv : ∀ i : Fin 32, roleOf (rcvSem i) = .rcv i := by decide
theorem roleOf_loc : roleOf locSem = .loc := by decide

/-- The credit of a chunk transfer and of the local copy. -/
abbrev NC : ℕ := (oS (0 : Dev nD) (0 : Fin 32)).view.dmaCredit
abbrev NL : ℕ := (oH (0 : Dev nD)).view.dmaCredit
theorem NC_pos : 0 < NC := View.dmaCredit_pos _ (by decide)
theorem NL_pos : 0 < NL := View.dmaCredit_pos _ (by decide)

/-! ## The payloads -/

/-- The share of its source a forwarding transfer reads: a chunk forwarded to both plane neighbours is read at a half
    share by each, a chunk forwarded once whole. -/
def shr (i : Fin 32) : PosShare TreeShare :=
  if i.val < 18 then fullShare.left else if i.val < 21 then fullShare else if i.val < 29 then fullShare.right else fullShare

/-- Chunk `t` of the other half of device `p`'s result, at share `q` and contents `f`; chunk `t` of its input block; its
    own half; its input block whole. (Spelt through the memrefs' views, as the transfer rules spell their ends.) -/
def chunkAt (p : Dev nD) (t : Fin 32) (q : PosShare TreeShare) (f : Buf (Elt F) ((p : Thread nD τ).loc main_v1)) : sProp 𝕄 :=
  ((oS p t).view.loc (p : Thread nD τ) ↦[(oS p t).view.set]{q} f)
def xchunkAt (p : Dev nD) (t : Fin 32) (q : PosShare TreeShare) (f : Buf (Elt F) ((p : Thread nD τ).loc main_arg0)) : sProp 𝕄 :=
  ((xS t).view.loc (p : Thread nD τ) ↦[(xS t).view.set]{q} f)
def halfAt (p : Dev nD) (q : PosShare TreeShare) (f : Buf (Elt F) ((p : Thread nD τ).loc main_v1)) : sProp 𝕄 :=
  ((oH p).view.loc (p : Thread nD τ) ↦[(oH p).view.set]{q} f)
def xinAt (p : Dev nD) (q : PosShare TreeShare) (f : Buf (Elt F) ((p : Thread nD τ).loc main_arg0)) : sProp 𝕄 :=
  ((xinM).view.loc (p : Thread nD τ) ↦[(xinM).view.set]{q} f)

/-- What transfer `i`'s send cell hands its owner `c`: the share of the source it read. -/
def sndPay (c : Dev nD) (i : Fin 32) : sProp 𝕄 :=
  if i.val < 10 then xchunkAt c (tileOf c i) fullShare.right (X m c) else chunkAt c (tileOf c i) (shr i) (W m c)

/-- What transfer `i`'s receive cell hands its owner `c`: the chunk its neighbour wrote, holding the result's values. -/
def rcvPay (c : Dev nD) (i : Fin 32) : sProp 𝕄 := chunkAt c (tileOf (peer (ax i) c) i) fullShare (W m c)

/-- What the local copy's cell hands its owner: its own half, written, and the share of the input block it read. -/
def locPay (c : Dev nD) : sProp 𝕄 := iprop(halfAt c fullShare (W m c) ∗ xinAt c fullShare.left (X m c))

/-- What the neighbour along axis `a` hands `c` with its barrier signal: the chunks of ITS result array `c` will write. -/
def barPay (c : Dev nD) (a : Fin 3) : sProp 𝕄 :=
  bigSep (sends a) fun i => chunkAt (peer a c) (tileOf c i) fullShare (V0 m (peer a c))

/-! ## The schedule -/

def agRd : Rounds.Schedule (GSem nD τ sig) (Fin 3) 𝕄 where
  duties g r :=
    if r = 0 ∧ g.1.2 = .tc then
      (match g.2 with
        | .reg _ => Finset.univ
        | .dma _ => {0})
    else ∅
  unitless _ := False
  amount g _ _ :=
    match g.2 with
    | .reg _ => 1
    | .dma q => if q = locSem then NL else NC
  payload g _ d :=
    match g.2 with
    | .reg _ => barPay m g.1.1 d
    | .dma q =>
      match roleOf q with
      | .snd i => sndPay m g.1.1 i
      | .rcv i => rcvPay m g.1.1 i
      | .loc => locPay m g.1.1
  amount_pos g _ _ _ := by
    cases g.2 with
    | reg _ => exact Nat.one_pos
    | dma q => dsimp only; split_ifs; exact NL_pos; exact NC_pos

/-! ## What each device owes at launch, in the order it pays; the levels -/

/-- The order in which a device starts its 32 addressed transfers. -/
def payOrder : List (Fin 32) := [0, 1, 2, 3, 4, 5, 6, 7, 8, 9, 10, 21, 11, 22, 12, 23, 13, 24, 14, 25, 15, 26, 16, 27, 17, 28, 18, 19, 20, 29, 30, 31]

/-- The cells a device pays, in program order, with the amounts: its three neighbours' barrier cells, then the
    receive cells of its transfers. -/
def pays (c : Dev nD) : List (GSem nD τ sig × ℕ) :=
  (barCell (peer 0 c), 1) :: (barCell (peer 1 c), 1) :: (barCell (peer 2 c), 1) ::
    payOrder.map fun i => (dCell (peer (ax i) c) (rcvSem i), NC)

/-- What is owed for a list of payments still to make: summed so that the next payment is the last summand. -/
def owedL : List (GSem nD τ sig × ℕ) → CellTallies nD τ sig Unit
  | [] => 0
  | p :: ps => owedL ps + tallyAt p.1 () p.2

/-- What device `c` still owes after its first `n` payments. -/
def owedAfter (c : Dev nD) (n : ℕ) : CellTallies nD τ sig Unit := owedL ((pays c).drop n)

def O₀ (c : Dev nD) : CellTallies nD τ sig Unit := owedAfter c 0

def Lv (g : GSem nD τ sig) : Finset Unit := if g.1.2 = .tc then {()} else ∅

/-- The level of transfer `i`'s receive cell: the `z` receive cells lowest, then the `y` and the `x` receive cells of the
    forwarded own-quarter chunks, the receive cells of the last three transfers of each plane axis highest. -/
def lvR (i : Fin 32) : ℕ :=
  if i.val < 10 then 2 else if i.val < 18 then 4 else if i.val < 21 then 5 else if i.val < 29 then 3 else 5

/-- The barrier cells at 1; receive cells by `lvR`; send cells and the local copy's cell at 0. -/
def lv (g : GSem nD τ sig) (_ : Unit) : ℕ :=
  match g.2 with
  | .reg _ => 1
  | .dma q => match roleOf q with | .rcv i => lvR i | _ => 0

/-! ## The ghost state and the body's invariant -/

/-- Every cell of every device, as the launch names their invariants: the barrier cell (`none`) and the DMA cells. -/
abbrev CellIx : Type := Dev nD × Option (DmaSem sig)
abbrev csem : Option (DmaSem sig) → SemLoc sig | none => .reg barS | some q => .dma q
abbrev kcell (ck : CellIx) : GSem nD τ sig := ((ck.1 : Thread nD τ), csem ck.2)

/-- The persistent part: every cell's invariant, and that every cell has reached round 0. -/
def records (K : CellIx → ℕ) : sProp 𝕄 :=
  iprop((bigSep Finset.univ fun ck : CellIx => cellInv ER (agRd m) (K ck) (kcell ck))
    ∗ bigSep Finset.univ fun ck : CellIx => reached ER (kcell ck) 0)

instance records_persistent (K : CellIx → ℕ) : BI.Persistent (records m K) := by unfold records; infer_instance

/-- The tokens of the duties device `c` pays: its neighbours' barrier duties, its transfers' send and receive duties,
    its local copy's. -/
def payToks (c : Dev nD) : sProp 𝕄 :=
  iprop((bigSep Finset.univ fun a : Fin 3 => dutyTok ER (barCell (peer a c)) 0 a)
    ∗ (bigSep Finset.univ fun i : Fin 32 => iprop(dutyTok ER (dCell c (sndSem i)) 0 (0 : Fin 3) ∗ dutyTok ER (dCell (peer (ax i) c) (rcvSem i)) 0 (0 : Fin 3)))
    ∗ dutyTok ER (dCell c locSem) 0 (0 : Fin 3))

/-- Its positions: at round 0 of each of its cells. -/
def positions (c : Dev nD) : sProp 𝕄 :=
  iprop(atPos ER (barCell c) 0 ∅ 0 ∗ bigSep Finset.univ fun q : DmaSem sig => atPos ER (dCell c q) 0 ∅ 0)

/-- The credit the launch deals device `c`: three units on its barrier cell, a chunk's credit on each receive cell. -/
def launchCreds (c : Dev nD) : sProp 𝕄 :=
  iprop(cred (tallyAt (barCell c) () 3) ∗ bigSep Finset.univ fun i : Fin 32 => cred (tallyAt (dCell c (rcvSem i)) () NC))

/-- What device `c`'s body starts from, beside its two arrays. -/
def start (c : Dev nD) : sProp 𝕄 :=
  iprop((∃ K, iprop(records m K ∗ positions c ∗ payToks c)) ∗ launchCreds c ∗ levAts Lv lv)

/-- Before the body: that and the two arrays whole, as launched. -/
def Φ₀ (c : Dev nD) : sProp 𝕄 :=
  iprop(start m c
    ∗ (((c : Thread nD τ).loc main_arg0) ↦{fullShare} X m c)
    ∗ (((c : Thread nD τ).loc main_v1) ↦{fullShare} V0 m c))

/-- After it: the input block as it was, the result at `W`, the 65 own DMA semaphores at zero (their cells closed). -/
def Φ₁ (c : Dev nD) : sProp 𝕄 :=
  iprop((((c : Thread nD τ).loc main_arg0) ↦{fullShare} X m c)
    ∗ (((c : Thread nD τ).loc main_v1) ↦{fullShare} W m c)
    ∗ bigSep Finset.univ fun q : DmaSem sig => semVal (dCell c q) 0)

/-- The pipeline's proof data: no window; the invariant before and after the one point; what is owed. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.KernelIdealAG.Tables.lean ====
/-
  The schedule's tables read entry by entry, and the level facts each wait needs.
-/
import proofs.«900674_g7700000000000675_dist_ag_v7x_xyz2x2x2_z_m4096_n1024_f32_1_alg».proof.Proof.KernelIdealAG.Sched

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Duties, amounts, expected totals, payloads -/

/-- A send or a receive semaphore is not the local copy's: their roles differ. -/
theorem sndSem_ne_loc (i : Fin 32) : sndSem i ≠ locSem := fun h => by
  have e := roleOf_snd i; rw [h, roleOf_loc] at e; cases e
theorem rcvSem_ne_loc (i : Fin 32) : rcvSem i ≠ locSem := fun h => by
  have e := roleOf_rcv i; rw [h, roleOf_loc] at e; cases e

omit [FloatOps F] in
theorem duties_bar (c : Dev nD) : (agRd (F := F) m).duties (barCell c) 0 = Finset.univ := by
  dsimp only [agRd]; exact if_pos ⟨rfl, rfl⟩
omit [FloatOps F] in
theorem duties_dma (c : Dev nD) (q : DmaSem sig) : (agRd (F := F) m).duties (dCell c q) 0 = {0} := by
  dsimp only [agRd]; exact if_pos ⟨rfl, rfl⟩
omit [FloatOps F] in
theorem duties_later (g : GSem nD τ sig) : ∀ r, 1 ≤ r → (agRd (F := F) m).duties g r = ∅ :=
  fun r hr => by dsimp only [agRd]; exact if_neg fun h => by omega

omit [FloatOps F] in
theorem amount_bar (c : Dev nD) (d : Fin 3) : (agRd (F := F) m).amount (barCell c) 0 d = 1 := rfl
omit [FloatOps F] in
theorem amount_snd (c : Dev nD) (i : Fin 32) (d : Fin 3) : (agRd (F := F) m).amount (dCell c (sndSem i)) 0 d = NC := by
  dsimp only [agRd]; exact if_neg (sndSem_ne_loc i)
omit [FloatOps F] in
theorem amount_rcv (c : Dev nD) (i : Fin 32) (d : Fin 3) : (agRd (F := F) m).amount (dCell c (rcvSem i)) 0 d = NC := by
  dsimp only [agRd]; exact if_neg (rcvSem_ne_loc i)
omit [FloatOps F] in
theorem amount_loc (c : Dev nD) (d : Fin 3) : (agRd (F := F) m).amount (dCell c locSem) 0 d = NL := by
  dsimp only [agRd]; exact if_pos rfl

omit [FloatOps F] in
theorem expect_bar (c : Dev nD) : (agRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_snd (c : Dev nD) (i : Fin 32) : (agRd (F := F) m).expect (dCell c (sndSem i)) 0 = NC := by
  unfold Schedule.expect Schedule.amountOf; rw [duties_dma, Finset.sum_singleton, amount_snd]
omit [FloatOps F] in
theorem expect_rcv (c : Dev nD) (i : Fin 32) : (agRd (F := F) m).expect (dCell c (rcvSem i)) 0 = NC := by
  unfold Schedule.expect Schedule.amountOf; rw [duties_dma, Finset.sum_singleton, amount_rcv]
omit [FloatOps F] in
/-- A DMA cell's one duty makes its whole round. -/
theorem expect_dma (c : Dev nD) (q : DmaSem sig) : (agRd (F := F) m).expect (dCell c q) 0 = (agRd (F := F) m).amount (dCell c q) 0 0 := by
  unfold Schedule.expect Schedule.amountOf; rw [duties_dma, Finset.sum_singleton]
omit [FloatOps F] in
theorem expect_loc (c : Dev nD) : (agRd (F := F) m).expect (dCell c locSem) 0 = NL :=
  (expect_dma m c locSem).trans (amount_loc m c 0)

omit [FloatOps F] in
theorem payload_bar (c : Dev nD) (a : Fin 3) : (agRd (F := F) m).payload (barCell c) 0 a = barPay m c a := rfl
omit [FloatOps F] in
theorem payload_snd (c : Dev nD) (i : Fin 32) (d : Fin 3) : (agRd (F := F) m).payload (dCell c (sndSem i)) 0 d = sndPay m c i := by
  dsimp only [agRd]; rw [roleOf_snd]
omit [FloatOps F] in
theorem payload_rcv (c : Dev nD) (i : Fin 32) (d : Fin 3) : (agRd (F := F) m).payload (dCell c (rcvSem i)) 0 d = rcvPay m c i := by
  dsimp only [agRd]; rw [roleOf_rcv]
omit [FloatOps F] in
theorem payload_loc (c : Dev nD) (d : Fin 3) : (agRd (F := F) m).payload (dCell c locSem) 0 d = locPay m c := by
  dsimp only [agRd]; rw [roleOf_loc]

/-! The four kinds of piece are points-tos, hence storable; so are the payloads made of them. -/

omit [FloatOps F] in
instance chunkAt_storable (p : Dev nD) (t : Fin 32) (q : PosShare TreeShare) (f : Buf (Elt F) ((p : Thread nD τ).loc main_v1)) :
    BI.Storable (upEmb : UEmb _ 𝕄) (chunkAt (F := F) p t q f) := by unfold chunkAt; infer_instance
omit [FloatOps F] in
instance xchunkAt_storable (p : Dev nD) (t : Fin 32) (q : PosShare TreeShare) (f : Buf (Elt F) ((p : Thread nD τ).loc main_arg0)) :
    BI.Storable (upEmb : UEmb _ 𝕄) (xchunkAt (F := F) p t q f) := by unfold xchunkAt; infer_instance
omit [FloatOps F] in
instance halfAt_storable (p : Dev nD) (q : PosShare TreeShare) (f : Buf (Elt F) ((p : Thread nD τ).loc main_v1)) :
    BI.Storable (upEmb : UEmb _ 𝕄) (halfAt (F := F) p q f) := by unfold halfAt; infer_instance
omit [FloatOps F] in
instance xinAt_storable (p : Dev nD) (q : PosShare TreeShare) (f : Buf (Elt F) ((p : Thread nD τ).loc main_arg0)) :
    BI.Storable (upEmb : UEmb _ 𝕄) (xinAt (F := F) p q f) := by unfold xinAt; infer_instance

omit [FloatOps F] in
instance sndPay_storable (c : Dev nD) (i : Fin 32) : BI.Storable (upEmb : UEmb _ 𝕄) (sndPay (F := F) m c i) := by
  unfold sndPay; split <;> infer_instance
omit [FloatOps F] in
instance rcvPay_storable (c : Dev nD) (i : Fin 32) : BI.Storable (upEmb : UEmb _ 𝕄) (rcvPay (F := F) m c i) := by
  unfold rcvPay; infer_instance
omit [FloatOps F] in
instance locPay_storable (c : Dev nD) : BI.Storable (upEmb : UEmb _ 𝕄) (locPay (F := F) m c) := by
  unfold locPay; infer_instance
omit [FloatOps F] in
instance barPay_storable (c : Dev nD) (a : Fin 3) : BI.Storable (upEmb : UEmb _ 𝕄) (barPay (F := F) m c a) := by
  unfold barPay; infer_instance

/-- Every payload is storable (the rounds library's cell invariant keeps landed payloads). -/
instance agRd_payload_storable (g : GSem nD τ sig) (r : ℕ) (d : Fin 3) :
    BI.Storable (upEmb : UEmb _ 𝕄) ((agRd (F := F) m).payload g r d) := by
  obtain ⟨⟨dv, p⟩, sm⟩ := g
  cases sm with
  | reg s => exact barPay_storable m dv d
  | dma q =>
    dsimp only [agRd]
    split
    · exact sndPay_storable m dv _
    · exact rcvPay_storable m dv _
    · exact locPay_storable m dv

omit [FloatOps F] in
/-- The rest of a cell's one round with no duty taken yet: the three neighbours' chunks; the one payload. -/
theorem rest_bar (c : Dev nD) :
    bigSep ((agRd (F := F) m).duties (barCell c) 0 \ ∅) (fun d => (agRd (F := F) m).payload (barCell c) 0 d)
      = iprop(barPay m c 0 ∗ barPay m c 1 ∗ barPay m c 2) := by
  rw [Finset.sdiff_empty, duties_bar, bigSep_univ_eq_bigSepL ([0, 1, 2] : List (Fin 3)) (by decide) (by decide), bigSepL_cons_cons, bigSepL_cons_cons,
    bigSepL_singleton, payload_bar, payload_bar, payload_bar]
  rfl
omit [FloatOps F] in
theorem rest_snd (c : Dev nD) (i : Fin 32) :
    bigSep ((agRd (F := F) m).duties (dCell c (sndSem i)) 0 \ ∅) (fun d => (agRd (F := F) m).payload (dCell c (sndSem i)) 0 d) = sndPay m c i := by
  rw [Finset.sdiff_empty, duties_dma, bigSep_singleton, payload_snd]
omit [FloatOps F] in
theorem rest_rcv (c : Dev nD) (i : Fin 32) :
    bigSep ((agRd (F := F) m).duties (dCell c (rcvSem i)) 0 \ ∅) (fun d => (agRd (F := F) m).payload (dCell c (rcvSem i)) 0 d) = rcvPay m c i := by
  rw [Finset.sdiff_empty, duties_dma, bigSep_singleton, payload_rcv]
omit [FloatOps F] in
theorem rest_loc (c : Dev nD) :
    bigSep ((agRd (F := F) m).duties (dCell c locSem) 0 \ ∅) (fun d => (agRd (F := F) m).payload (dCell c locSem) 0 d) = locPay m c := by
  rw [Finset.sdiff_empty, duties_dma, bigSep_singleton, payload_loc]

/-! ## Levels -/

omit [FloatOps F] in
theorem Lv_of_ne (g : GSem nD τ sig) (h : g.1.2 ≠ .tc) : Lv g = ∅ := if_neg h
omit [FloatOps F] in
theorem Lv_tc (c : Dev nD) (sm : SemLoc sig) : Lv ((c : Thread nD τ), sm) = {()} := if_pos rfl

/-- The level of a barrier cell is 1, of a receive cell its transfer's. -/
theorem lv_bar (c : Dev nD) (u : Unit) : lv (barCell c) u = 1 := rfl
theorem lv_rcv (c : Dev nD) (j : Fin 32) (u : Unit) : lv (dCell c (rcvSem j)) u = lvR j := by
  dsimp only [lv]; rw [roleOf_rcv]

/-- Every receive cell lies above the barrier cells. -/
theorem one_lt_lvR : ∀ j : Fin 32, 1 < lvR j := by decide

/-- A positive tally of what is owed for a list of payments names one of the list's cells. -/
theorem owedL_pos {l : List (GSem nD τ sig × ℕ)} {g : GSem nD τ sig} {u : Unit} (h : 0 < owedL l g u) : ∃ p ∈ l, g = p.1 := by
  induction l with
  | nil => exact absurd h (Nat.lt_irrefl 0)
  | cons p ps ih =>
    rw [show owedL (p :: ps) = owedL ps + tallyAt p.1 () p.2 from rfl, Pi.add_apply, Finsupp.add_apply, tallyAt_apply] at h
    by_cases hg : g = p.1 ∧ u = ()
    · exact ⟨p, List.mem_cons_self, hg.1⟩
    · rw [if_neg hg, add_zero] at h
      obtain ⟨p', hp', e⟩ := ih h
      exact ⟨p', List.mem_cons_of_mem _ hp', e⟩

/-- After its three barrier signals a device owes the receive cells of the transfers it has not started, nothing else. -/
theorem owedAfter_pos {c : Dev nD} {n : ℕ} (hn : 3 ≤ n) {g : GSem nD τ sig} {u : Unit} (h : 0 < owedAfter c n g u) :
    ∃ j ∈ payOrder.drop (n - 3), g = dCell (peer (ax j) c) (rcvSem j) := by
  obtain ⟨k, rfl⟩ : ∃ k, n = k + 3 := ⟨n - 3, by omega⟩
  have e : (pays c).drop (k + 3) = (payOrder.drop k).map fun i => (dCell (peer (ax i) c) (rcvSem i), NC) := by
    rw [List.map_drop]; rfl
  unfold owedAfter at h
  rw [e] at h
  obtain ⟨p, hp, rfl⟩ := owedL_pos h
  obtain ⟨j, hj, rfl⟩ := List.mem_map.mp hp
  exact ⟨j, by rwa [Nat.add_sub_cancel], rfl⟩

/-- At its barrier wait (three payments made) a device owes receive cells only, all above the barrier cells. -/
theorem mayWait_bar (c : Dev nD) :
    (levAts Lv lv : sProp 𝕄) ⊢ MayWait (c : Thread nD τ) (.reg barS) () (owedAfter c 3) :=
  MayOwe.of_cut (L := Lv) (lev := lv) 1
    (fun p hp => by rw [Finset.mem_singleton.mp hp, Lv_tc]; exact Finset.mem_singleton_self _)
    (fun g u hg => by obtain ⟨j, hj, rfl⟩ := owedAfter_pos (le_refl 3) hg; rw [Lv_tc]; exact Finset.mem_singleton_self _)
    (fun p hp => by rw [Finset.mem_singleton.mp hp]; exact (lv_bar c ()).le)
    (fun g u hg => by obtain ⟨j, hj, rfl⟩ := owedAfter_pos (le_refl 3) hg; rw [lv_rcv]; exact one_lt_lvR j)

/-- At the wait on transfer `i`'s receive cell after `n ≥ 3` payments, when every transfer not yet started has its
    receive cell above `i`'s. -/
theorem mayWait_rcv (c : Dev nD) (i : Fin 32) (n : ℕ) (hn : 3 ≤ n) (h : ∀ p ∈ payOrder.drop (n - 3), lvR i < lvR p) :
    (levAts Lv lv : sProp 𝕄) ⊢ MayWait (c : Thread nD τ) (.dma (rcvSem i)) () (owedAfter c n) :=
  MayOwe.of_cut (L := Lv) (lev := lv) (lvR i)
    (fun p hp => by rw [Finset.mem_singleton.mp hp, Lv_tc]; exact Finset.mem_singleton_self _)
    (fun g u hg => by obtain ⟨j, hj, rfl⟩ := owedAfter_pos hn hg; rw [Lv_tc]; exact Finset.mem_singleton_self _)
    (fun p hp => by rw [Finset.mem_singleton.mp hp]; exact (lv_rcv c i ()).le)
    (fun g u hg => by obtain ⟨j, hj, rfl⟩ := owedAfter_pos hn hg; rw [lv_rcv]; exact h j hj)

/-- After all 35 payments nothing is owed. -/
theorem owedAfter_all (c : Dev nD) : owedAfter c 35 = 0 := rfl

/-- Each payment peels the last summand. -/
theorem owedAfter_bar (c : Dev nD) (a : Fin 3) : owedAfter c a.val = owedAfter c (a.val + 1) + tallyAt (barCell (peer a c)) () 1 := by
  fin_cases a <;> rfl

/-- info: 'Cert.KernelIdeal.AG.mayWait_rcv' depends on axioms: [propext, Classical.choice, Quot.sound] -/
#guard_msgs in #print axioms mayWait_rcv

end Cert.KernelIdeal.AG

end
-- ==== Proof.KernelIdealAG.Pieces.lean ====
/-
  The arrays cut into their pieces and put together again; the printed slices as those pieces; what a landing leaves.
-/
import proofs.«900674_g7700000000000675_dist_ag_v7x_xyz2x2x2_z_m4096_n1024_f32_1_alg».proof.Proof.KernelIdealAG.Sched

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the arrays -/

/-- An index lies in a unit-stride rectangle of a rank-two shape when each of its two coordinates lies in the
    rectangle's span on that axis. -/
theorem mem_unit2 {n0 n1 : Nat} {off size : Fin 2 → Nat}
    {inb : ∀ a, off a + size a ≤ (⟨2, ![n0, n1]⟩ : Shape).size a} {i : (⟨2, ![n0, n1]⟩ : Shape).Idx} :
    i ∈ (Rect.unit (s := (⟨2, ![n0, n1]⟩ : Shape)) off size inb).set
      ↔ (off 0 ≤ (i 0).val ∧ (i 0).val < off 0 + size 0) ∧ (off 1 ≤ (i 1).val ∧ (i 1).val < off 1 + size 1) := by
  rw [Rect.mem_set_unit]; exact Fin.forall_fin_two

/-- The elements under a piece are the piece's rectangle. -/
theorem oK_eq (c : Dev nD) (j : Fin 32) :
    oK c j = (Rect.unit (s := S8192x1024) (oOff c j) S128x1024.size (oOff_inb c j)).set :=
  View.set_slice_whole main_v1 _
theorem hK_eq (c : Dev nD) :
    hK c = (Rect.unit (s := S8192x1024) (hOff c) S4096x1024.size (hOff_inb c)).set :=
  View.set_slice_whole main_v1 _
theorem xK_eq (j : Fin 32) :
    xK j = (Rect.unit (s := S4096x1024) (xOff j) S128x1024.size (xOff_inb j)).set :=
  View.set_slice_whole main_arg0 _

/-- A piece by its rows: every column belongs to it. -/
theorem mem_oK {c : Dev nD} {j : Fin 32} {i : S8192x1024.Idx} :
    i ∈ oK c j ↔ 4096 * (1 - c.val % 2) + 128 * j.val ≤ (i 0).val
      ∧ (i 0).val < 4096 * (1 - c.val % 2) + 128 * j.val + 128 := by
  have h1 := ValueIdx.idx2_lt1 i
  rw [oK_eq, mem_unit2]
  show (4096 * (1 - c.val % 2) + 128 * j.val ≤ (i 0).val ∧ (i 0).val < 4096 * (1 - c.val % 2) + 128 * j.val + 128)
    ∧ (0 ≤ (i 1).val ∧ (i 1).val < 0 + 1024) ↔ _
  constructor
  · rintro ⟨h, -⟩; exact h
  · intro h; exact ⟨h, by omega⟩
theorem mem_hK {c : Dev nD} {i : S8192x1024.Idx} :
    i ∈ hK c ↔ 4096 * (c.val % 2) ≤ (i 0).val ∧ (i 0).val < 4096 * (c.val % 2) + 4096 := by
  have h1 := ValueIdx.idx2_lt1 i
  rw [hK_eq, mem_unit2]
  show (4096 * (c.val % 2) ≤ (i 0).val ∧ (i 0).val < 4096 * (c.val % 2) + 4096)
    ∧ (0 ≤ (i 1).val ∧ (i 1).val < 0 + 1024) ↔ _
  constructor
  · rintro ⟨h, -⟩; exact h
  · intro h; exact ⟨h, by omega⟩
theorem mem_xK {j : Fin 32} {i : S4096x1024.Idx} :
    i ∈ xK j ↔ 128 * j.val ≤ (i 0).val ∧ (i 0).val < 128 * j.val + 128 := by
  have h1 := ValueIdx.idx2_lt1 i
  rw [xK_eq, mem_unit2]
  show (128 * j.val ≤ (i 0).val ∧ (i 0).val < 128 * j.val + 128)
    ∧ (0 ≤ (i 1).val ∧ (i 1).val < 0 + 1024) ↔ _
  constructor
  · rintro ⟨h, -⟩; exact h
  · intro h; exact ⟨h, by omega⟩

/-- The chunks of the other half and the own half are pairwise disjoint and cover the result array. -/
theorem oK_disjoint (c : Dev nD) (j j' : Fin 32) (h : j ≠ j') : Disjoint (oK c j) (oK c j') := by
  rw [Finset.disjoint_left]
  intro i hi hi'
  rw [mem_oK] at hi hi'
  have hne : j.val ≠ j'.val := fun e => h (Fin.ext e)
  omega
theorem oK_hK_disjoint (c : Dev nD) (j : Fin 32) : Disjoint (hK c) (oK c j) := by
  rw [Finset.disjoint_left]
  intro i hi hi'
  rw [mem_hK] at hi
  rw [mem_oK] at hi'
  have hj := j.isLt
  omega
theorem out_cover (c : Dev nD) : hK c ∪ Finset.univ.biUnion (oK c) = Finset.univ := by
  rw [Finset.eq_univ_iff_forall]
  intro i
  have h0 := ValueIdx.idx2_lt0 i
  rw [Finset.mem_union, Finset.mem_biUnion]
  by_cases hz : (i 0).val / 4096 = c.val % 2
  · left; rw [mem_hK]; omega
  · right
    refine ⟨chunkOf i, Finset.mem_univ _, mem_oK.mpr ?_⟩
    show 4096 * (1 - c.val % 2) + 128 * ((i 0).val % 4096 / 128) ≤ (i 0).val
      ∧ (i 0).val < 4096 * (1 - c.val % 2) + 128 * ((i 0).val % 4096 / 128) + 128
    omega
theorem xK_disjoint (j j' : Fin 32) (h : j ≠ j') : Disjoint (xK j) (xK j') := by
  rw [Finset.disjoint_left]
  intro i hi hi'
  rw [mem_xK] at hi hi'
  have hne : j.val ≠ j'.val := fun e => h (Fin.ext e)
  omega
theorem xin_cover : Finset.univ.biUnion xK = Finset.univ := by
  rw [Finset.eq_univ_iff_forall]
  intro i
  have h0 := ValueIdx.idx2_lt0 i
  rw [Finset.mem_biUnion]
  refine ⟨⟨(i 0).val / 128, by omega⟩, Finset.mem_univ _, mem_xK.mpr ?_⟩
  show 128 * ((i 0).val / 128) ≤ (i 0).val ∧ (i 0).val < 128 * ((i 0).val / 128) + 128
  omega

omit [FloatOps F] in
/-- The result array whole is its own half and the 32 chunks of the other half, at any contents and share. -/
theorem out_split (c : Dev nD) (q : PosShare TreeShare) (f : Buf (Elt F) ((c : Thread nD τ).loc main_v1)) :
    ((((c : Thread nD τ).loc main_v1) ↦{q} f : sProp 𝕄))
      ⊣⊢ iprop((((c : Thread nD τ).loc main_v1) ↦[hK c]{q} f) ∗ bigSep Finset.univ fun j : Fin 32 => (((c : Thread nD τ).loc main_v1) ↦[oK c j]{q} f)) := by
  have hdis : ∀ t ∈ (Finset.univ : Finset (Fin 32)), ∀ t' ∈ (Finset.univ : Finset (Fin 32)), t ≠ t' → Disjoint (oK c t) (oK c t') :=
    fun j _ j' _ h => oK_disjoint c j j' h
  have hb := pointsTo_biUnion (nD := nD) (τ := τ) (sig := sig) (Ix := Unit) (Val := Elt F) (Name := ℕ) (U := UU) (Lvl := ℕ)
    (ℓ := ((c : Thread nD τ).loc main_v1)) (q := q) (f := f) Finset.univ (oK c) hdis
  have hd : Disjoint (hK c) (Finset.univ.biUnion (oK c)) :=
    (Finset.disjoint_biUnion_right _ _ _).mpr fun j _ => oK_hK_disjoint c j
  have hu := pointsTo_union (nD := nD) (τ := τ) (sig := sig) (Ix := Unit) (Val := Elt F) (Name := ℕ) (U := UU) (Lvl := ℕ)
    (ℓ := ((c : Thread nD τ).loc main_v1)) (q := q) (f := f) hd
  have e : ((((c : Thread nD τ).loc main_v1) ↦{q} f : sProp 𝕄))
      = (((c : Thread nD τ).loc main_v1) ↦[hK c ∪ Finset.univ.biUnion (oK c)]{q} f) :=
    congrArg (fun S : Finset S8192x1024.Idx => ((((c : Thread nD τ).loc main_v1) ↦[S]{q} f : sProp 𝕄))) (out_cover c).symm
  rw [← hb, e]; exact hu

omit [FloatOps F] in
/-- The input block whole is its 32 chunks. -/
theorem xin_split (c : Dev nD) (q : PosShare TreeShare) (f : Buf (Elt F) ((c : Thread nD τ).loc main_arg0)) :
    ((((c : Thread nD τ).loc main_arg0) ↦{q} f : sProp 𝕄))
      = bigSep Finset.univ fun j : Fin 32 => (((c : Thread nD τ).loc main_arg0) ↦[xK j]{q} f) := by
  have hdis : ∀ t ∈ (Finset.univ : Finset (Fin 32)), ∀ t' ∈ (Finset.univ : Finset (Fin 32)), t ≠ t' → Disjoint (xK t) (xK t') :=
    fun j _ j' _ h => xK_disjoint j j' h
  have hb := pointsTo_biUnion (nD := nD) (τ := τ) (sig := sig) (Ix := Unit) (Val := Elt F) (Name := ℕ) (U := UU) (Lvl := ℕ)
    (ℓ := ((c : Thread nD τ).loc main_arg0)) (q := q) (f := f) Finset.univ xK hdis
  rw [← hb]
  exact congrArg (fun S : Finset S4096x1024.Idx => ((((c : Thread nD τ).loc main_arg0) ↦[S]{q} f : sProp 𝕄))) xin_cover.symm

/-! ## The printed slices are these pieces: the printed offset chains in closed form, by transfer -/

/-- `z` transfers `0 … 7`: destination (in the neighbour's result) and source (in the own input block). -/
theorem off1_eq (c : Dev nD) (r : Fin 8) : k0_off1 c (BitVec.ofNat 32 (128 * r.val)) = oOff (peer 0 c) (tileOf c ⟨r.val, by omega⟩) := by
  rw [k0_off1_eq]; revert c r; decide
theorem off2_eq (c : Dev nD) (r : Fin 8) : k0_off2 c (BitVec.ofNat 32 (128 * r.val)) = xOff (tileOf c ⟨r.val, by omega⟩) := by
  rw [k0_off2_eq]; revert c r; decide
/-- `z` transfers `8, 9`. -/
theorem off3_eq (c : Dev nD) (r : Fin 2) : k0_off3 c (BitVec.ofNat 32 (768 + 128 * r.val)) = oOff (peer 0 c) (tileOf c ⟨8 + r.val, by omega⟩) := by
  rw [k0_off3_eq]; revert c r; decide
theorem off4_eq (c : Dev nD) (r : Fin 2) : k0_off4 c (BitVec.ofNat 32 (768 + 128 * r.val)) = xOff (tileOf c ⟨8 + r.val, by omega⟩) := by
  rw [k0_off4_eq]; revert c r; decide
/-- The local copy's destination: the own half. -/
theorem off5_eq (c : Dev nD) : k0_off5 c = hOff c := by
  rw [k0_off5_eq]; rfl
/-- The forwarded own-quarter chunks (transfers `10 + r` and `21 + r`): source in the own result, destination at the same
    rows of a plane neighbour's (which has the same `z`). -/
theorem off6_eq_x (c : Dev nD) (r : Fin 8) : k0_off6 c (BitVec.ofNat 32 (128 * r.val)) = oOff c (tileOf c ⟨10 + r.val, by omega⟩) := by
  rw [k0_off6_eq]; revert c r; decide
theorem off6_eq_y (c : Dev nD) (r : Fin 8) : k0_off6 c (BitVec.ofNat 32 (128 * r.val)) = oOff c (tileOf c ⟨21 + r.val, by omega⟩) := by
  rw [k0_off6_eq]; revert c r; decide
/-- Transfers `18 + r` (to the `x`-neighbour) and `29 + r` (to the `y`-neighbour). -/
theorem off7_eq (c : Dev nD) (r : Fin 3) : k0_off7 c (BitVec.ofNat 32 (128 * r.val)) = oOff c (tileOf c ⟨18 + r.val, by omega⟩) := by
  rw [k0_off7_eq]; revert c r; decide
theorem off8_eq (c : Dev nD) (r : Fin 3) : k0_off8 c (BitVec.ofNat 32 (384 + 128 * r.val)) = oOff c (tileOf c ⟨29 + r.val, by omega⟩) := by
  rw [k0_off8_eq]; revert c r; decide
/-- A plane neighbour's other half lies where one's own does. -/
theorem oOff_plane (c : Dev nD) (a : Fin 3) (ha : a ≠ 0) (j : Fin 32) : oOff (peer a c) j = oOff c j := by
  have h := peer_z_coord a c
  rw [if_neg ha] at h
  unfold oOff; rw [h]

/-- A slice of the result array (of the input block) through a unit rectangle at an offset equal to a chunk's IS that chunk's memref. -/
theorem outSlice_eq (c : Dev nD) (j : Fin 32) (off : Fin 2 → Nat) (inb : ∀ a, off a + S128x1024.size a ≤ S8192x1024.size a) (h : off = oOff c j) :
    outM.slice (Rect.unit (s := S8192x1024) off S128x1024.size inb) (fun _ => rfl) = oS c j := by
  subst h; rfl
theorem xinSlice_eq (j : Fin 32) (off : Fin 2 → Nat) (inb : ∀ a, off a + S128x1024.size a ≤ S4096x1024.size a) (h : off = xOff j) :
    xinM.slice (Rect.unit (s := S4096x1024) off S128x1024.size inb) (fun _ => rfl) = xS j := by
  subst h; rfl
theorem halfSlice_eq (c : Dev nD) (off : Fin 2 → Nat) (inb : ∀ a, off a + S4096x1024.size a ≤ S8192x1024.size a) (h : off = hOff c) :
    outM.slice (Rect.unit (s := S8192x1024) off S4096x1024.size inb) (fun _ => rfl) = oH c := by
  subst h; rfl

/-! ## What a landing leaves: the destination rewritten holds the result's values there -/

/-- Where the pieces' own indices sit in their arrays: a unit rectangle adds its offset, coordinate by coordinate. -/
theorem oS_emb0 (c : Dev nD) (j : Fin 32) (y : S128x1024.Idx) :
    (((oS c j).view.emb y : S8192x1024.Idx) 0).val = 4096 * (1 - c.val % 2) + 128 * j.val + (y 0).val := by
  show 4096 * (1 - c.val % 2) + 128 * j.val + 1 * (y 0).val = _
  rw [Nat.one_mul]
theorem oS_emb1 (c : Dev nD) (j : Fin 32) (y : S128x1024.Idx) :
    (((oS c j).view.emb y : S8192x1024.Idx) 1).val = (y 1).val := by
  show 0 + 1 * (y 1).val = _
  rw [Nat.one_mul, Nat.zero_add]
theorem xS_emb0 (j : Fin 32) (y : S128x1024.Idx) :
    (((xS j).view.emb y : S4096x1024.Idx) 0).val = 128 * j.val + (y 0).val := by
  show 128 * j.val + 1 * (y 0).val = _
  rw [Nat.one_mul]
theorem xS_emb1 (j : Fin 32) (y : S128x1024.Idx) :
    (((xS j).view.emb y : S4096x1024.Idx) 1).val = (y 1).val := by
  show 0 + 1 * (y 1).val = _
  rw [Nat.one_mul, Nat.zero_add]
theorem oH_emb0 (c : Dev nD) (y : S4096x1024.Idx) :
    (((oH c).view.emb y : S8192x1024.Idx) 0).val = 4096 * (c.val % 2) + (y 0).val := by
  show 4096 * (c.val % 2) + 1 * (y 0).val = _
  rw [Nat.one_mul]
theorem oH_emb1 (c : Dev nD) (y : S4096x1024.Idx) :
    (((oH c).view.emb y : S8192x1024.Idx) 1).val = (y 1).val := by
  show 0 + 1 * (y 1).val = _
  rw [Nat.one_mul, Nat.zero_add]

/-- Two indices of a rank-two shape with the same coordinates are equal. -/
theorem idx2_ext {n0 n1 : Nat} {i i' : (⟨2, ![n0, n1]⟩ : Shape).Idx} (h0 : (i 0).val = (i' 0).val) (h1 : (i 1).val = (i' 1).val) :
    i = i' := by
  funext a
  match a with
  | ⟨0, _⟩ => exact Fin.ext h0
  | ⟨1, _⟩ => exact Fin.ext h1

/-- At the element of chunk `j` of device `p`'s other half under the chunk's index `y`, the result holds the element under
    `y` of chunk `j` of the input block of `origin p j`: the row is `4096 (1 - z) + 128 j + y₀` with `y₀ < 128`, in the half
    that is not `p`'s own, in chunk `j` of it, at row `128 j + y₀` of that half. -/
theorem W_other (p : Dev nD) (j : Fin 32) (y : S128x1024.Idx) :
    W m p ((oS p j).view.emb y) = X m (origin p j) ((xS j).view.emb y) := by
  have hy0 := ValueIdx.idx2_lt0 y
  have hj := j.isLt
  have e0 := oS_emb0 p j y
  have e1 := oS_emb1 p j y
  have x0 := xS_emb0 j y
  have x1 := xS_emb1 j y
  have hne : ¬ ((((oS p j).view.emb y : S8192x1024.Idx) 0).val / 4096 = p.val % 2) := by omega
  have hk : chunkOf ((oS p j).view.emb y : S8192x1024.Idx) = j := by
    apply Fin.ext
    show (((oS p j).view.emb y : S8192x1024.Idx) 0).val % 4096 / 128 = j.val
    omega
  have hl : lo ((oS p j).view.emb y : S8192x1024.Idx) = ((xS j).view.emb y : S4096x1024.Idx) := by
    apply idx2_ext
    · show (((oS p j).view.emb y : S8192x1024.Idx) 0).val % 4096 = _
      omega
    · show (((oS p j).view.emb y : S8192x1024.Idx) 1).val = _
      omega
  show (if (((oS p j).view.emb y : S8192x1024.Idx) 0).val / 4096 = p.val % 2 then X m p (lo ((oS p j).view.emb y : S8192x1024.Idx))
      else X m (origin p (chunkOf ((oS p j).view.emb y : S8192x1024.Idx))) (lo ((oS p j).view.emb y : S8192x1024.Idx))) = _
  rw [if_neg hne, hk, hl]

/-- At the element of device `c`'s own half under the half's index `y`, the result holds its input block's element at `y`. -/
theorem W_own (c : Dev nD) (y : S4096x1024.Idx) : W m c ((oH c).view.emb y) = X m c y := by
  have hy0 := ValueIdx.idx2_lt0 y
  have e0 := oH_emb0 c y
  have e1 := oH_emb1 c y
  have hz : (((oH c).view.emb y : S8192x1024.Idx) 0).val / 4096 = c.val % 2 := by omega
  have hl : lo ((oH c).view.emb y : S8192x1024.Idx) = y := by
    apply idx2_ext
    · show (((oH c).view.emb y : S8192x1024.Idx) 0).val % 4096 = _
      omega
    · show (((oH c).view.emb y : S8192x1024.Idx) 1).val = _
      omega
  show (if (((oH c).view.emb y : S8192x1024.Idx) 0).val / 4096 = c.val % 2 then X m c (lo ((oH c).view.emb y : S8192x1024.Idx))
      else X m (origin c (chunkOf ((oH c).view.emb y : S8192x1024.Idx))) (lo ((oH c).view.emb y : S8192x1024.Idx))) = _
  rw [if_pos hz, hl]

/-- A `z` transfer `i` of device `c` (out of its input block) leaves, in chunk `tileOf c i` of its `z`-neighbour `p`'s
    result, what `W p` holds there. -/
theorem land_z (c : Dev nD) (i : Fin 32) (hi : ax i = 0) (fd : Buf (Elt F) (((peer 0 c : Dev nD) : Thread nD τ).loc main_v1)) :
    chunkAt (F := F) (peer 0 c) (tileOf c i) fullShare
        ((oS (peer 0 c) (tileOf c i)).view.write (Elt F) fd ((xS (tileOf c i)).view.read (Elt F) (X m c)) Finset.univ)
      = chunkAt (peer 0 c) (tileOf c i) fullShare (W m (peer 0 c)) := by
  unfold chunkAt
  refine pointsTo_congr fun x hx => ?_
  obtain ⟨y, rfl⟩ := View.exists_emb_of_mem_set _ hx
  rw [View.write_emb_of_mem _ _ (Finset.mem_univ y), View.read_apply, cast_cast, cast_eq, W_other, origin_z c i hi]

/-- A forwarding transfer `i` (along a plane axis) of device `c`, out of chunk `tileOf c i` of its own result holding
    `W c`, leaves in the same chunk of its neighbour `p`'s result what `W p` holds there. -/
theorem land_fwd (c : Dev nD) (i : Fin 32) (hi : ax i ≠ 0) (fd : Buf (Elt F) (((peer (ax i) c : Dev nD) : Thread nD τ).loc main_v1)) :
    chunkAt (F := F) (peer (ax i) c) (tileOf c i) fullShare
        ((oS (peer (ax i) c) (tileOf c i)).view.write (Elt F) fd ((oS c (tileOf c i)).view.read (Elt F) (W m c)) Finset.univ)
      = chunkAt (peer (ax i) c) (tileOf c i) fullShare (W m (peer (ax i) c)) := by
  unfold chunkAt
  refine pointsTo_congr fun x hx => ?_
  obtain ⟨y, rfl⟩ := View.exists_emb_of_mem_set _ hx
  rw [View.write_emb_of_mem _ _ (Finset.mem_univ y), View.read_apply, cast_cast, cast_eq, W_other, W_other, origin_fwd c i hi]

/-- The local copy leaves the own half holding the own input block: what `W c` holds there. -/
theorem land_loc (c : Dev nD) (fd : Buf (Elt F) ((c : Thread nD τ).loc main_v1)) :
    halfAt (F := F) c fullShare ((oH c).view.write (Elt F) fd ((xinM).view.read (Elt F) (X m c)) Finset.univ)
      = halfAt c fullShare (W m c) := by
  unfold halfAt
  refine pointsTo_congr fun x hx => ?_
  obtain ⟨y, rfl⟩ := View.exists_emb_of_mem_set _ hx
  rw [View.write_emb_of_mem _ _ (Finset.mem_univ y), View.read_apply, cast_cast, cast_eq, W_own]
  rfl

/-! ## The pieces named -/

omit [FloatOps F] in
/-- `out_split` and `xin_split` in the pieces' names. -/
theorem out_split' (c : Dev nD) (q : PosShare TreeShare) (f : Buf (Elt F) ((c : Thread nD τ).loc main_v1)) :
    ((((c : Thread nD τ).loc main_v1) ↦{q} f : sProp 𝕄))
      ⊣⊢ iprop(halfAt c q f ∗ bigSep Finset.univ fun j : Fin 32 => chunkAt c j q f) := out_split c q f
omit [FloatOps F] in
theorem xin_split' (c : Dev nD) (q : PosShare TreeShare) (f : Buf (Elt F) ((c : Thread nD τ).loc main_arg0)) :
    ((((c : Thread nD τ).loc main_arg0) ↦{q} f : sProp 𝕄)) = bigSep Finset.univ fun j : Fin 32 => xchunkAt c j q f := xin_split c q f
omit [FloatOps F] in
theorem xinAt_eq (c : Dev nD) (q : PosShare TreeShare) (f : Buf (Elt F) ((c : Thread nD τ).loc main_arg0)) :
    xinAt (F := F) c q f = ((((c : Thread nD τ).loc main_arg0) ↦{q} f : sProp 𝕄)) := by
  unfold xinAt
  exact congrArg (fun S : Finset S4096x1024.Idx => ((((c : Thread nD τ).loc main_arg0) ↦[S]{q} f : sProp 𝕄))) (View.set_whole main_arg0)

/-- info: 'Cert.KernelIdeal.AG.out_split' depends on axioms: [propext, Classical.choice, Quot.sound] -/
#guard_msgs in #print axioms Cert.KernelIdeal.AG.out_split

/-- info: 'Cert.KernelIdeal.AG.xin_split' depends on axioms: [propext, Classical.choice, Quot.sound] -/
#guard_msgs in #print axioms Cert.KernelIdeal.AG.xin_split

/-- info: 'Cert.KernelIdeal.AG.land_z' depends on axioms: [propext, Classical.choice, Quot.sound] -/
#guard_msgs in #print axioms Cert.KernelIdeal.AG.land_z

/-- info: 'Cert.KernelIdeal.AG.land_fwd' depends on axioms: [propext, Classical.choice, Quot.sound] -/
#guard_msgs in #print axioms Cert.KernelIdeal.AG.land_fwd

/-- info: 'Cert.KernelIdeal.AG.land_loc' depends on axioms: [propext, Classical.choice, Quot.sound] -/
#guard_msgs in #print axioms Cert.KernelIdeal.AG.land_loc

/-- info: 'Cert.KernelIdeal.AG.out_split'' depends on axioms: [propext, Classical.choice, Quot.sound] -/
#guard_msgs in #print axioms Cert.KernelIdeal.AG.out_split'

/-- info: 'Cert.KernelIdeal.AG.xin_split'' depends on axioms: [propext, Classical.choice, Quot.sound] -/
#guard_msgs in #print axioms Cert.KernelIdeal.AG.xin_split'

/-- info: 'Cert.KernelIdeal.AG.xinAt_eq' depends on axioms: [propext, Classical.choice, Quot.sound] -/
#guard_msgs in #print axioms Cert.KernelIdeal.AG.xinAt_eq

end Cert.KernelIdeal.AG

end
-- ==== Proof.KernelIdealAG.Steps.lean ====
/-
  The rules of the rounds discipline at this protocol's cells: one lemma per kind of step of the body.
-/
import proofs.«900674_g7700000000000675_dist_ag_v7x_xyz2x2x2_z_m4096_n1024_f32_1_alg».proof.Proof.KernelIdealAG.Tables
import proofs.«900674_g7700000000000675_dist_ag_v7x_xyz2x2x2_z_m4096_n1024_f32_1_alg».proof.Proof.KernelIdealAG.Pieces

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The persistent records, cell by cell -/

omit [FloatOps F] in
theorem inv_at (K : CellIx → ℕ) (ck : CellIx) : records (F := F) m K ⊢ cellInv ER (agRd m) (K ck) (kcell ck) := by
  unfold records
  exact BI.Entails.trans (BI.Entails.trans BI.sep_and and_elimL) (bigSep_elim (Finset.mem_univ ck))
omit [FloatOps F] in
theorem reached_at (K : CellIx → ℕ) (ck : CellIx) : records (F := F) m K ⊢ reached ER (kcell ck) 0 := by
  unfold records
  exact BI.Entails.trans (BI.Entails.trans BI.sep_and and_elimR) (bigSep_elim (Finset.mem_univ ck))

/-- What a device owes, at some record of its waits. -/
def ow (c : Dev nD) (O : CellTallies nD τ sig Unit) : sProp 𝕄 := iprop(∃ W : Waits sig Unit, owes (c : Thread nD τ) O W)

/-- The weakest precondition of a piece of device `c`'s body. -/
abbrev WP (c : Dev nD) {α : Type} (e : Prog (TpuEff nD τ sig (Elt F) Λ₀ .tc) α) (Q : α → sProp 𝕄) : sProp 𝕄 :=
  wp frame (wpE (defs₀ (F := F)) 𝒱₀ ((c : Dev nD) : Thread nD τ) none) Set.univ e Q

/-! ## The entry handshake -/

/-- The signal to the neighbour along axis `a`: its barrier duty `a`, handing over the chunks of the own result it will write. -/
theorem wp_bar_signal (K : CellIx → ℕ) (c : Dev nD) (a : Fin 3) (n : Dev nD) (hn : n = peer a c)
    (O' O : CellTallies nD τ sig Unit) (hO : O' = O + tallyAt (barCell (peer a c)) () 1)
    {α : Type} {Q : α → sProp 𝕄} {k : PUnit → Prog (TpuEff nD τ sig (Elt F) Λ₀ .tc) α} :
    iprop(records m K ∗ ow c O' ∗ dutyTok ER (barCell (peer a c)) 0 a ∗ barPay m (peer a c) a)
      ⊢ iprop((ow c O -∗ WP c (k ⟨⟩) Q) -∗ WP c (.op (.semSignal ((n : Dev nD) : Thread nD τ) barS 1) k) Q) := by
  subst hn
  unfold ow
  iintro ⟨#HR, ⟨%Ws, HO⟩, Htok, Hpay⟩ Hk
  iapply (Rounds.wp_signal 𝒱₀ ER (agRd m) (c : Thread nD τ) none (dst := ((peer a c : Dev nD) : Thread nD τ)) (κ := K (peer a c, none))
      (d := a) (by rw [duties_bar]; exact Finset.mem_univ _) (amount_bar m (peer a c) a) () O hO) $$ [HO Htok Hpay]
  · isplitr; · iapply (inv_at m K (peer a c, none)); iexact HR
    isplitl [HO]; · iexact HO
    isplitl [Htok]; · iexact Htok
    isplitl [Hpay]; · rw [payload_bar]; iexact Hpay
    iapply (reached_at m K (peer a c, none)); iexact HR
  iintro HO
  iapply Hk
  iexists Ws; iexact HO

/-- The wait for three units on the own barrier cell: the chunks of the three neighbours' results this device will write. -/
theorem wp_bar_wait (K : CellIx → ℕ) (c : Dev nD)
    {α : Type} {Q : α → sProp 𝕄} {k : PUnit → Prog (TpuEff nD τ sig (Elt F) Λ₀ .tc) α} :
    iprop(records m K ∗ cred (tallyAt (barCell c) () 3) ∗ ow c (owedAfter c 3) ∗ levAts Lv lv ∗ atPos ER (barCell c) 0 ∅ 0)
      ⊢ iprop(((ow c (owedAfter c 3) ∗ barPay m c 0 ∗ barPay m c 1 ∗ barPay m c 2) -∗ WP c (k ⟨⟩) Q)
          -∗ WP c (.op (.semWait barS 3) k) Q) := by
  unfold ow
  iintro ⟨#HR, Hc, ⟨%Ws, HO⟩, #Hlev, Hat⟩ Hk
  iapply (Rounds.wp_wait_rest_token 𝒱₀ ER (agRd m) (c : Thread nD τ) none (κ := K (c, none))
      (wpE_semWait_eq 𝒱₀ (c : Thread nD τ) none Set.univ) (Set.mem_univ _) () (O := owedAfter c 3) (W := Ws) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · iexists _; iexact HO
  iexact Hp

/-! ## The transfers -/

/-- A `z` transfer (`i < 10`): out of chunk `tileOf c i` of the own input block, held at the right half share, into
    that chunk of the `z`-neighbour's result (owned since the handshake), paying the neighbour's receive cell. -/
theorem wp_zsend (K : CellIx → ℕ) (c : Dev nD) (i : Fin 32) (hi : ax i = 0) (hi' : i.val < 10) (n : Dev nD) (hn : n = peer 0 c)
    (offs offd : Fin 2 → Nat) (inbs : ∀ a, offs a + S128x1024.size a ≤ S4096x1024.size a) (inbd : ∀ a, offd a + S128x1024.size a ≤ S8192x1024.size a)
    (hs : offs = xOff (tileOf c i)) (hd : offd = oOff (peer 0 c) (tileOf c i))
    (sS sR : DmaSem sig) (hsS : sS = sndSem i) (hsR : sR = rcvSem i)
    (O' O : CellTallies nD τ sig Unit) (hO : O' = O + tallyAt (dCell (peer 0 c) (rcvSem i)) () NC)
    (fd : Buf (Elt F) (((peer 0 c : Dev nD) : Thread nD τ).loc main_v1))
    {hsc : ((outM.slice (Rect.unit (s := S8192x1024) offd S128x1024.size inbd) (fun _ => rfl) : Memref sig (Dev.tc n : Thread nD τ).2.kind .hbm S128x1024 .f32)).view.ref.isScScratch = false}
    {hsrc : (xinM.slice (Rect.unit (s := S4096x1024) offs S128x1024.size inbs) (fun _ => rfl)).view.WordExact}
    {hdst : (outM.slice (Rect.unit (s := S8192x1024) offd S128x1024.size inbd) (fun _ => rfl)).view.WordExact}
    {hsem : DmaTarget.Typed .hbm (.dma sR) (.remote (Dev.tc n : Thread nD τ) (outM.slice (Rect.unit (s := S8192x1024) offd S128x1024.size inbd) (fun _ => rfl)) (.dma sS) hsc)}
    {α : Type} {Q : α → sProp 𝕄} {k : PUnit → Prog (TpuEff nD τ sig (Elt F) Λ₀ .tc) α} :
    iprop(records m K ∗ ow c O'
        ∗ xchunkAt c (tileOf c i) fullShare.right (X m c)
        ∗ chunkAt (peer 0 c) (tileOf c i) fullShare fd
        ∗ dutyTok ER (dCell c (sndSem i)) 0 (0 : Fin 3) ∗ dutyTok ER (dCell (peer (ax i) c) (rcvSem i)) 0 (0 : Fin 3))
      ⊢ iprop(((cred (tallyAt (dCell c (sndSem i)) () NC) ∗ ow c O) -∗ WP c (k ⟨⟩) Q)
          -∗ WP c (.op (.enqueueDma (xinM.slice (Rect.unit (s := S4096x1024) offs S128x1024.size inbs) (fun _ => rfl))
                (.remote (Dev.tc n : Thread nD τ) (outM.slice (Rect.unit (s := S8192x1024) offd S128x1024.size inbd) (fun _ => rfl)) (.dma sS) hsc) (.dma sR) hsrc hdst hsem) k) Q) := by
  subst hn hs hd hsS hsR
  have hp : peer (ax i) (peer 0 c) = c := by rw [hi]; exact peer_peer 0 c
  rw [hi]
  unfold ow xchunkAt chunkAt
  iintro ⟨#HR, ⟨%Ws, HO⟩, Hsrc, Hdst, Hts, Htr⟩ Hk
  iapply (Rounds.wp_send_pointsTo 𝒱₀ ER (agRd m) (c : Thread nD τ) none (c' := ((peer 0 c : Dev nD) : Thread nD τ))
      (src := xS (tileOf c i)) (dst := oS (peer 0 c) (tileOf c i)) (q := fullShare.right) (fs := X m c) (fd := fd)
      (κ₁ := K (c, some (sndSem i))) (κ₂ := K (peer 0 c, some (rcvSem i)))
      (r₁ := 0) (r₂ := 0) (d₁ := 0) (d₂ := 0)
      (by rw [duties_dma]; exact Finset.mem_singleton_self _) (by rw [duties_dma]; exact Finset.mem_singleton_self _)
      () () NC rfl (amount_snd m c i 0) (amount_rcv m (peer 0 c) i 0) O hO (W := Ws)
      (by rw [payload_snd]; unfold sndPay; rw [if_pos hi']; exact BI.Entails.refl _)
      (by rw [payload_rcv]; unfold rcvPay; rw [hp, ← land_z m c i hi fd]; exact BI.Entails.refl _)) $$ [HO Hsrc Hdst Hts Htr]
  · isplitr; · iapply (inv_at m K (c, some (sndSem i))); iexact HR
    isplitr; · iapply (inv_at m K (peer 0 c, some (rcvSem i))); iexact HR
    isplitl [Hsrc]; · iexact Hsrc
    isplitl [Hdst]; · iexact Hdst
    isplitl [HO]; · iexact HO
    isplitl [Hts]; · iexact Hts
    isplitr; · iapply (reached_at m K (c, some (sndSem i))); iexact HR
    isplitl [Htr]; · iexact Htr
    iapply (reached_at m K (peer 0 c, some (rcvSem i))); iexact HR
  iintro ⟨Hc, HO⟩
  iapply Hk
  isplitl [Hc]; · iexact Hc
  iexists Ws; iexact HO

/-- A forwarding transfer (`10 ≤ i`) along a plane axis: out of chunk `tileOf c i` of the own result, holding the result's
    values at the share `shr i`, into the same chunk of the neighbour's result, paying the neighbour's receive cell. -/
theorem wp_fsend (K : CellIx → ℕ) (c : Dev nD) (i : Fin 32) (hi : ax i ≠ 0) (hi' : ¬ i.val < 10) (a : Fin 3) (ha : ax i = a) (n : Dev nD) (hn : n = peer a c)
    (offs offd : Fin 2 → Nat) (inbs : ∀ a, offs a + S128x1024.size a ≤ S8192x1024.size a) (inbd : ∀ a, offd a + S128x1024.size a ≤ S8192x1024.size a)
    (hs : offs = oOff c (tileOf c i)) (hd : offd = oOff (peer a c) (tileOf c i))
    (sS sR : DmaSem sig) (hsS : sS = sndSem i) (hsR : sR = rcvSem i)
    (O' O : CellTallies nD τ sig Unit) (hO : O' = O + tallyAt (dCell (peer a c) (rcvSem i)) () NC)
    (fd : Buf (Elt F) (((peer a c : Dev nD) : Thread nD τ).loc main_v1))
    {hsc : ((outM.slice (Rect.unit (s := S8192x1024) offd S128x1024.size inbd) (fun _ => rfl) : Memref sig (Dev.tc n : Thread nD τ).2.kind .hbm S128x1024 .f32)).view.ref.isScScratch = false}
    {hsrc : (outM.slice (Rect.unit (s := S8192x1024) offs S128x1024.size inbs) (fun _ => rfl)).view.WordExact}
    {hdst : (outM.slice (Rect.unit (s := S8192x1024) offd S128x1024.size inbd) (fun _ => rfl)).view.WordExact}
    {hsem : DmaTarget.Typed .hbm (.dma sR) (.remote (Dev.tc n : Thread nD τ) (outM.slice (Rect.unit (s := S8192x1024) offd S128x1024.size inbd) (fun _ => rfl)) (.dma sS) hsc)}
    {α : Type} {Q : α → sProp 𝕄} {k : PUnit → Prog (TpuEff nD τ sig (Elt F) Λ₀ .tc) α} :
    iprop(records m K ∗ ow c O'
        ∗ chunkAt c (tileOf c i) (shr i) (W m c)
        ∗ chunkAt (peer a c) (tileOf c i) fullShare fd
        ∗ dutyTok ER (dCell c (sndSem i)) 0 (0 : Fin 3) ∗ dutyTok ER (dCell (peer (ax i) c) (rcvSem i)) 0 (0 : Fin 3))
      ⊢ iprop(((cred (tallyAt (dCell c (sndSem i)) () NC) ∗ ow c O) -∗ WP c (k ⟨⟩) Q)
          -∗ WP c (.op (.enqueueDma (outM.slice (Rect.unit (s := S8192x1024) offs S128x1024.size inbs) (fun _ => rfl))
                (.remote (Dev.tc n : Thread nD τ) (outM.slice (Rect.unit (s := S8192x1024) offd S128x1024.size inbd) (fun _ => rfl)) (.dma sS) hsc) (.dma sR) hsrc hdst hsem) k) Q) := by
  subst ha
  subst hn hs hd hsS hsR
  unfold ow chunkAt
  iintro ⟨#HR, ⟨%Ws, HO⟩, Hsrc, Hdst, Hts, Htr⟩ Hk
  have hp : peer (ax i) (peer (ax i) c) = c := peer_peer (ax i) c
  iapply (Rounds.wp_send_pointsTo 𝒱₀ ER (agRd m) (c : Thread nD τ) none (c' := ((peer (ax i) c : Dev nD) : Thread nD τ))
      (src := oS c (tileOf c i)) (dst := oS (peer (ax i) c) (tileOf c i)) (q := shr i) (fs := W m c) (fd := fd)
      (κ₁ := K (c, some (sndSem i))) (κ₂ := K (peer (ax i) c, some (rcvSem i)))
      (r₁ := 0) (r₂ := 0) (d₁ := 0) (d₂ := 0)
      (by rw [duties_dma]; exact Finset.mem_singleton_self _) (by rw [duties_dma]; exact Finset.mem_singleton_self _)
      () () NC rfl (amount_snd m c i 0) (amount_rcv m (peer (ax i) c) i 0) O hO (W := Ws)
      (by rw [payload_snd]; unfold sndPay; rw [if_neg hi']; exact BI.Entails.refl _)
      (by rw [payload_rcv]; unfold rcvPay; rw [hp, ← land_fwd m c i hi fd]; exact BI.Entails.refl _)) $$ [HO Hsrc Hdst Hts Htr]
  · isplitr; · iapply (inv_at m K (c, some (sndSem i))); iexact HR
    isplitr; · iapply (inv_at m K (peer (ax i) c, some (rcvSem i))); iexact HR
    isplitl [Hsrc]; · iexact Hsrc
    isplitl [Hdst]; · iexact Hdst
    isplitl [HO]; · iexact HO
    isplitl [Hts]; · iexact Hts
    isplitr; · iapply (reached_at m K (c, some (sndSem i))); iexact HR
    isplitl [Htr]; · iexact Htr
    iapply (reached_at m K (peer (ax i) c, some (rcvSem i))); iexact HR
  iintro ⟨Hc, HO⟩
  iapply Hk
  isplitl [Hc]; · iexact Hc
  iexists Ws; iexact HO

/-- The local copy: the input block whole, read at the left half share, into the own half of the result. -/
theorem wp_loc_copy (K : CellIx → ℕ) (c : Dev nD)
    (offd : Fin 2 → Nat) (inbd : ∀ a, offd a + S4096x1024.size a ≤ S8192x1024.size a) (hd : offd = hOff c)
    (sL : DmaSem sig) (hsL : sL = locSem)
    (fd : Buf (Elt F) ((c : Thread nD τ).loc main_v1))
    {hsrc : (xinM).view.WordExact}
    {hdst : (outM.slice (Rect.unit (s := S8192x1024) offd S4096x1024.size inbd) (fun _ => rfl)).view.WordExact}
    {hsem : DmaTarget.Typed (nD := nD) (τ := τ) (p := .tc) .hbm (.dma sL) (.here (outM.slice (Rect.unit (s := S8192x1024) offd S4096x1024.size inbd) (fun _ => rfl)))}
    {α : Type} {Q : α → sProp 𝕄} {k : PUnit → Prog (TpuEff nD τ sig (Elt F) Λ₀ .tc) α} :
    iprop(records m K ∗ xinAt c fullShare.left (X m c) ∗ halfAt c fullShare fd ∗ dutyTok ER (dCell c locSem) 0 (0 : Fin 3))
      ⊢ iprop((cred (tallyAt (dCell c locSem) () NL) -∗ WP c (k ⟨⟩) Q)
          -∗ WP c (.op (.enqueueDma xinM (.here (outM.slice (Rect.unit (s := S8192x1024) offd S4096x1024.size inbd) (fun _ => rfl))) (.dma sL) hsrc hdst hsem) k) Q) := by
  subst hd hsL
  unfold xinAt halfAt
  iintro ⟨#HR, Hsrc, Hdst, Htok⟩ Hk
  iapply (Rounds.wp_copy_pointsTo 𝒱₀ ER (agRd m) (c : Thread nD τ) none
      (src := xinM) (dst := oH c) (q := fullShare.left) (fs := X m c) (fd := fd) (κ := K (c, some locSem)) (r := 0) (d := 0)
      (by rw [duties_dma]; exact Finset.mem_singleton_self _) () NL rfl (amount_loc m c 0)
      (by rw [payload_loc]; unfold locPay; rw [← land_loc m c fd]; exact BI.Entails.refl _)) $$ [Hsrc Hdst Htok]
  · isplitr; · iapply (inv_at m K (c, some locSem)); iexact HR
    isplitl [Hsrc]; · iexact Hsrc
    isplitl [Hdst]; · iexact Hdst
    isplitl [Htok]; · iexact Htok
    iapply (reached_at m K (c, some locSem)); iexact HR
  iexact Hk

/-! ## The waits on the own DMA cells -/

/-- A wait for the whole credit of the one duty of an own DMA cell `q`, after which the cell is closed: the payload,
    and the semaphore's counter back at zero. -/
theorem wp_dma_wait (K : CellIx → ℕ) (c : Dev nD) (q : DmaSem sig) (N : ℕ) (P : sProp 𝕄)
    (hexp : (agRd (F := F) m).expect (dCell c q) 0 = N)
    (hrest : bigSep ((agRd (F := F) m).duties (dCell c q) 0 \ ∅) (fun d => (agRd (F := F) m).payload (dCell c q) 0 d) = P)
    (O : CellTallies nD τ sig Unit) (hmw : (levAts Lv lv : sProp 𝕄) ⊢ MayWait (c : Thread nD τ) (.dma q) () O)
    (sm : DmaSem sig) (hsm : sm = q)
    {sp sp' : Space} {s s' : Shape} {e e' : EltTy}
    {src : Memref sig .tc sp' s' e'} {dst : Memref sig .tc sp s e} (hN : dst.view.dmaCredit = N)
    {hs : src.view.WordExact} {hd : dst.view.WordExact}
    {α : Type} {Q : α → sProp 𝕄} {k : PUnit → Prog (TpuEff nD τ sig (Elt F) Λ₀ .tc) α} :
    iprop(records m K ∗ cred (tallyAt (dCell c q) () N) ∗ ow c O ∗ levAts Lv lv ∗ atPos ER (dCell c q) 0 ∅ 0)
      ⊢ iprop(((ow c O ∗ semVal (dCell c q) 0 ∗ P) -∗ WP c (k ⟨⟩) Q)
          -∗ WP c (.op (.waitDma2 sm src dst hs hd) k) Q) := by
  subst hsm hN
  unfold ow
  iintro ⟨#HR, Hc, ⟨%Ws, HO⟩, #Hlev, Hat⟩ Hk
  iapply (Rounds.wp_wait_rest_token 𝒱₀ ER (agRd m) (c : Thread nD τ) none (κ := K (c, some sm))
      (wpE_waitDma2_eq 𝒱₀ (c : Thread nD τ) none Set.univ) (Set.mem_univ _) () (O := O) (W := Ws) (R := 0) (m := 0) (T := ∅)
      (by rw [Nat.zero_add, hexp])) $$ [Hc HO Hat]
  · isplitr; · iapply (inv_at m K (c, some sm)); iexact HR
    isplitl [Hc]; · iexact Hc
    isplitl [HO]; · iexact HO
    isplitr; · iapply hmw; iexact Hlev
    iexact Hat
  iintro ⟨HO, Hat, -, Hpay⟩
  ihave Hp := (Entails.of_eq hrest) $$ Hpay
  imod (Rounds.cell_close ER (agRd m) (Set.mem_univ (K (c, some sm))) (fun h => h) (R := 0 + 1) (duties_later m (dCell c sm))) $$ [Hat] with Hz
  · isplitr; · iapply (inv_at m K (c, some sm)); iexact HR
    iexact Hat
  iapply Hk
  isplitl [HO]; · iexists _; iexact HO
  isplitl [Hz]; · iexact Hz
  iexact Hp

end Cert.KernelIdeal.AG

end
-- ==== Proof.KernelIdealAG.Devs.lean ====
/-
  The kernel's device-id chains name the three neighbours.
-/
import proofs.«900674_g7700000000000675_dist_ag_v7x_xyz2x2x2_z_m4096_n1024_f32_1_alg».proof.Proof.KernelIdealAG.Mesh

namespace Cert.KernelIdeal.AG

open Cert.KernelIdeal Cert.KernelIdeal.Gen Idealize.ShloMosaic

theorem peer0_val : ∀ c : Dev nD, (peer 0 c).val = (4 * (c.val / 4) + 2 * ((c.val / 2) % 2) + 1) - (c.val % 2) := by decide
theorem peer1_val : ∀ c : Dev nD, (peer 1 c).val = (2 * ((c.val / 2) % 2) + (c.val % 2) + 4) - 4 * (c.val / 4) := by decide
theorem peer2_val : ∀ c : Dev nD, (peer 2 c).val = (4 * (c.val / 4) + (c.val % 2) + 2) - 2 * ((c.val / 2) % 2) := by decide

theorem dev1_eq (c : Dev nD) : (⟨k0_dev1 c, k0_dev1_lt c⟩ : Dev nD) = peer 0 c := Fin.ext ((k0_dev1_eq c).trans (peer0_val c).symm)
theorem dev4_eq (c : Dev nD) : (⟨k0_dev4 c, k0_dev4_lt c⟩ : Dev nD) = peer 0 c := Fin.ext ((k0_dev4_eq c).trans (peer0_val c).symm)
theorem dev5_eq (c : Dev nD) : (⟨k0_dev5 c, k0_dev5_lt c⟩ : Dev nD) = peer 0 c := Fin.ext ((k0_dev5_eq c).trans (peer0_val c).symm)
theorem dev6_eq (c : Dev nD) : (⟨k0_dev6 c, k0_dev6_lt c⟩ : Dev nD) = peer 0 c := Fin.ext ((k0_dev6_eq c).trans (peer0_val c).symm)
theorem dev7_eq (c : Dev nD) : (⟨k0_dev7 c, k0_dev7_lt c⟩ : Dev nD) = peer 0 c := Fin.ext ((k0_dev7_eq c).trans (peer0_val c).symm)
theorem dev8_eq (c : Dev nD) : (⟨k0_dev8 c, k0_dev8_lt c⟩ : Dev nD) = peer 0 c := Fin.ext ((k0_dev8_eq c).trans (peer0_val c).symm)
theorem dev9_eq (c : Dev nD) : (⟨k0_dev9 c, k0_dev9_lt c⟩ : Dev nD) = peer 0 c := Fin.ext ((k0_dev9_eq c).trans (peer0_val c).symm)
theorem dev10_eq (c : Dev nD) : (⟨k0_dev10 c, k0_dev10_lt c⟩ : Dev nD) = peer 0 c := Fin.ext ((k0_dev10_eq c).trans (peer0_val c).symm)
theorem dev11_eq (c : Dev nD) : (⟨k0_dev11 c, k0_dev11_lt c⟩ : Dev nD) = peer 0 c := Fin.ext ((k0_dev11_eq c).trans (peer0_val c).symm)
theorem dev12_eq (c : Dev nD) : (⟨k0_dev12 c, k0_dev12_lt c⟩ : Dev nD) = peer 0 c := Fin.ext ((k0_dev12_eq c).trans (peer0_val c).symm)
theorem dev13_eq (c : Dev nD) : (⟨k0_dev13 c, k0_dev13_lt c⟩ : Dev nD) = peer 0 c := Fin.ext ((k0_dev13_eq c).trans (peer0_val c).symm)
theorem dev2_eq (c : Dev nD) : (⟨k0_dev2 c, k0_dev2_lt c⟩ : Dev nD) = peer 1 c := Fin.ext ((k0_dev2_eq c).trans (peer1_val c).symm)
theorem dev14_eq (c : Dev nD) : (⟨k0_dev14 c, k0_dev14_lt c⟩ : Dev nD) = peer 1 c := Fin.ext ((k0_dev14_eq c).trans (peer1_val c).symm)
theorem dev16_eq (c : Dev nD) : (⟨k0_dev16 c, k0_dev16_lt c⟩ : Dev nD) = peer 1 c := Fin.ext ((k0_dev16_eq c).trans (peer1_val c).symm)
theorem dev18_eq (c : Dev nD) : (⟨k0_dev18 c, k0_dev18_lt c⟩ : Dev nD) = peer 1 c := Fin.ext ((k0_dev18_eq c).trans (peer1_val c).symm)
theorem dev20_eq (c : Dev nD) : (⟨k0_dev20 c, k0_dev20_lt c⟩ : Dev nD) = peer 1 c := Fin.ext ((k0_dev20_eq c).trans (peer1_val c).symm)
theorem dev22_eq (c : Dev nD) : (⟨k0_dev22 c, k0_dev22_lt c⟩ : Dev nD) = peer 1 c := Fin.ext ((k0_dev22_eq c).trans (peer1_val c).symm)
theorem dev24_eq (c : Dev nD) : (⟨k0_dev24 c, k0_dev24_lt c⟩ : Dev nD) = peer 1 c := Fin.ext ((k0_dev24_eq c).trans (peer1_val c).symm)
theorem dev26_eq (c : Dev nD) : (⟨k0_dev26 c, k0_dev26_lt c⟩ : Dev nD) = peer 1 c := Fin.ext ((k0_dev26_eq c).trans (peer1_val c).symm)
theorem dev28_eq (c : Dev nD) : (⟨k0_dev28 c, k0_dev28_lt c⟩ : Dev nD) = peer 1 c := Fin.ext ((k0_dev28_eq c).trans (peer1_val c).symm)
theorem dev30_eq (c : Dev nD) : (⟨k0_dev30 c, k0_dev30_lt c⟩ : Dev nD) = peer 1 c := Fin.ext ((k0_dev30_eq c).trans (peer1_val c).symm)
theorem dev31_eq (c : Dev nD) : (⟨k0_dev31 c, k0_dev31_lt c⟩ : Dev nD) = peer 1 c := Fin.ext ((k0_dev31_eq c).trans (peer1_val c).symm)
theorem dev32_eq (c : Dev nD) : (⟨k0_dev32 c, k0_dev32_lt c⟩ : Dev nD) = peer 1 c := Fin.ext ((k0_dev32_eq c).trans (peer1_val c).symm)
theorem dev3_eq (c : Dev nD) : (⟨k0_dev3 c, k0_dev3_lt c⟩ : Dev nD) = peer 2 c := Fin.ext ((k0_dev3_eq c).trans (peer2_val c).symm)
theorem dev15_eq (c : Dev nD) : (⟨k0_dev15 c, k0_dev15_lt c⟩ : Dev nD) = peer 2 c := Fin.ext ((k0_dev15_eq c).trans (peer2_val c).symm)
theorem dev17_eq (c : Dev nD) : (⟨k0_dev17 c, k0_dev17_lt c⟩ : Dev nD) = peer 2 c := Fin.ext ((k0_dev17_eq c).trans (peer2_val c).symm)
theorem dev19_eq (c : Dev nD) : (⟨k0_dev19 c, k0_dev19_lt c⟩ : Dev nD) = peer 2 c := Fin.ext ((k0_dev19_eq c).trans (peer2_val c).symm)
theorem dev21_eq (c : Dev nD) : (⟨k0_dev21 c, k0_dev21_lt c⟩ : Dev nD) = peer 2 c := Fin.ext ((k0_dev21_eq c).trans (peer2_val c).symm)
theorem dev23_eq (c : Dev nD) : (⟨k0_dev23 c, k0_dev23_lt c⟩ : Dev nD) = peer 2 c := Fin.ext ((k0_dev23_eq c).trans (peer2_val c).symm)
theorem dev25_eq (c : Dev nD) : (⟨k0_dev25 c, k0_dev25_lt c⟩ : Dev nD) = peer 2 c := Fin.ext ((k0_dev25_eq c).trans (peer2_val c).symm)
theorem dev27_eq (c : Dev nD) : (⟨k0_dev27 c, k0_dev27_lt c⟩ : Dev nD) = peer 2 c := Fin.ext ((k0_dev27_eq c).trans (peer2_val c).symm)
theorem dev29_eq (c : Dev nD) : (⟨k0_dev29 c, k0_dev29_lt c⟩ : Dev nD) = peer 2 c := Fin.ext ((k0_dev29_eq c).trans (peer2_val c).symm)
theorem dev33_eq (c : Dev nD) : (⟨k0_dev33 c, k0_dev33_lt c⟩ : Dev nD) = peer 2 c := Fin.ext ((k0_dev33_eq c).trans (peer2_val c).symm)
theorem dev34_eq (c : Dev nD) : (⟨k0_dev34 c, k0_dev34_lt c⟩ : Dev nD) = peer 2 c := Fin.ext ((k0_dev34_eq c).trans (peer2_val c).symm)
theorem dev35_eq (c : Dev nD) : (⟨k0_dev35 c, k0_dev35_lt c⟩ : Dev nD) = peer 2 c := Fin.ext ((k0_dev35_eq c).trans (peer2_val c).symm)

/-- The chunk a forwarding transfer reads is the chunk an earlier incoming transfer filled: the own quarter's chunk `k`
    (transfers `10 + k` and `21 + k`) came in by the `z` transfer `k`; transfers `18 + j` forward what the
    `y`-neighbour's transfers `21 + j` brought, transfers `29 + j` what the `x`-neighbour's `13 + j` brought. -/
theorem fwd_src_x : ∀ (c : Dev nD) (k : Fin 8), tileOf c ⟨10 + k.val, by omega⟩ = tileOf (peer 0 c) ⟨k.val, by omega⟩ := by decide
theorem fwd_src_y : ∀ (c : Dev nD) (k : Fin 8), tileOf c ⟨21 + k.val, by omega⟩ = tileOf (peer 0 c) ⟨k.val, by omega⟩ := by decide
theorem fwd_src_x' : ∀ (c : Dev nD) (j : Fin 3), tileOf c ⟨18 + j.val, by omega⟩ = tileOf (peer 2 c) ⟨21 + j.val, by omega⟩ := by decide
theorem fwd_src_y' : ∀ (c : Dev nD) (j : Fin 3), tileOf c ⟨29 + j.val, by omega⟩ = tileOf (peer 1 c) ⟨13 + j.val, by omega⟩ := by decide

end Cert.KernelIdeal.AG
-- ==== Proof.KernelIdealAG.Deal.lean ====
/-
  The arrays dealt into the pieces the protocol moves, and gathered again.
-/
import proofs.«900674_g7700000000000675_dist_ag_v7x_xyz2x2x2_z_m4096_n1024_f32_1_alg».proof.Proof.KernelIdealAG.Tables
import proofs.«900674_g7700000000000675_dist_ag_v7x_xyz2x2x2_z_m4096_n1024_f32_1_alg».proof.Proof.KernelIdealAG.Pieces
import proofs.«900674_g7700000000000675_dist_ag_v7x_xyz2x2x2_z_m4096_n1024_f32_1_alg».proof.Proof.KernelIdealAG.Devs

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The transfer that fills a chunk -/

/-- The chunk of device `c`'s other half that its `i`-th incoming transfer fills. -/
def inTile (c : Dev nD) (i : Fin 32) : Fin 32 := tileOf (peer (ax i) c) i

/-- Every chunk is filled by exactly one incoming transfer. -/
def inTileEquiv (c : Dev nD) : Fin 32 ≃ Fin 32 :=
  Equiv.ofBijective (inTile c) ⟨fun i i' h => tileOf_in_inj c i i' h, fun j => filled c j⟩

theorem univ_eq_sends : (Finset.univ : Finset (Fin 32)) = sends 0 ∪ (sends 1 ∪ sends 2) := by decide
theorem sends_disj01 : Disjoint (sends 0) (sends 1 ∪ sends 2) := by decide
theorem sends_disj12 : Disjoint (sends 1) (sends 2) := by decide
theorem ax_of_mem {a : Fin 3} {i : Fin 32} (h : i ∈ sends a) : ax i = a := (Finset.mem_filter.mp h).2

omit [FloatOps F] in
/-- A family over the 32 transfers, by axis. -/
theorem bigSep_by_axis (Φ : Fin 32 → sProp 𝕄) :
    bigSep Finset.univ Φ = iprop(bigSep (sends 0) Φ ∗ bigSep (sends 1) Φ ∗ bigSep (sends 2) Φ) := by
  rw [univ_eq_sends, bigSep_union sends_disj01, bigSep_union sends_disj12]
  rfl

/-! ## The result array -/

omit [FloatOps F] in
/-- The chunks of the other half, at contents `f`, indexed by the incoming transfer that fills each. -/
theorem chunks_by_transfer (c : Dev nD) (q : PosShare TreeShare) (f : Buf (Elt F) ((c : Thread nD τ).loc main_v1)) :
    (bigSep Finset.univ fun j : Fin 32 => chunkAt (F := F) c j q f) = bigSep Finset.univ fun i : Fin 32 => chunkAt c (inTile c i) q f :=
  bigSep_univ_equiv (inTileEquiv c) fun j => chunkAt c j q f

omit [FloatOps F] in
/-- What device `c` hands its neighbour along `a` with its barrier signal: the chunks of its own result that neighbour fills. -/
theorem barPay_peer (c : Dev nD) (a : Fin 3) :
    barPay (F := F) m (peer a c) a = bigSep (sends a) fun i => chunkAt c (inTile c i) fullShare (V0 m c) := by
  unfold barPay
  rw [peer_peer]
  refine bigSep_congr fun i hi => ?_
  unfold inTile; rw [ax_of_mem hi]

/-- At entry: the result array whole, as launched, is the own half and what the three barrier signals hand over. -/
theorem out_deal (c : Dev nD) :
    ((((c : Thread nD τ).loc main_v1) ↦{fullShare} V0 m c : sProp 𝕄))
      ⊢ iprop(halfAt c fullShare (V0 m c) ∗ barPay m (peer 0 c) 0 ∗ barPay m (peer 1 c) 1 ∗ barPay m (peer 2 c) 2) := by
  rw [barPay_peer, barPay_peer, barPay_peer, ← bigSep_by_axis, ← chunks_by_transfer]
  exact (out_split' c fullShare (V0 m c)).1

/-- At exit: the own half and the 32 chunks the receive cells handed over, all holding the result's values, are the
    result array whole. -/
theorem out_gather (c : Dev nD) :
    iprop(halfAt c fullShare (W m c) ∗ bigSep Finset.univ fun i : Fin 32 => rcvPay m c i)
      ⊢ ((((c : Thread nD τ).loc main_v1) ↦{fullShare} W m c : sProp 𝕄)) := by
  have e : (bigSep Finset.univ fun i : Fin 32 => rcvPay (F := F) m c i) = bigSep Finset.univ fun j : Fin 32 => chunkAt c j fullShare (W m c) := by
    rw [chunks_by_transfer]; rfl
  rw [e]
  exact (out_split' c fullShare (W m c)).2

/-! ## The input block -/

/-- The chunks of the input block the ten `z` transfers read. -/
def xLent (c : Dev nD) : Finset (Fin 32) := (sends 0).image (tileOf c)

theorem tileOf_injOn_z (c : Dev nD) : Set.InjOn (tileOf c) (sends 0) := fun i hi i' hi' h =>
  tileOf_out_inj c i i' ((ax_of_mem hi).trans (ax_of_mem hi').symm) h

/-- The chunks of the input block no transfer reads, at the right half share. -/
def xinRest (c : Dev nD) : sProp 𝕄 := bigSep (Finset.univ \ xLent c) fun j => xchunkAt c j fullShare.right (X m c)

/-- The input block whole is its left half share whole (the local copy's source), the ten chunks the `z` transfers read
    at the right half share, and the other chunks at that share. -/
theorem xin_deal (c : Dev nD) :
    ((((c : Thread nD τ).loc main_arg0) ↦{fullShare} X m c : sProp 𝕄))
      ⊣⊢ iprop(xinAt c fullShare.left (X m c) ∗ (bigSep (sends 0) fun i => xchunkAt c (tileOf c i) fullShare.right (X m c)) ∗ xinRest m c) := by
  have h1 := pointsTo_share (ℓ := (c : Thread nD τ).loc main_arg0) (I := Finset.univ) (f := X m c) (PosShare.mem_left_op_right fullShare)
      (Ix := Unit) (Name := ℕ) (U := UU) (Lvl := ℕ)
  have h2 : ((((c : Thread nD τ).loc main_arg0) ↦{fullShare.right} X m c : sProp 𝕄))
      = iprop((bigSep (sends 0) fun i => xchunkAt c (tileOf c i) fullShare.right (X m c)) ∗ xinRest m c) := by
    rw [xin_split' c fullShare.right (X m c), bigSep_sdiff_split (Finset.subset_univ (xLent c))]
    unfold xLent xinRest
    rw [bigSep_image_of_injOn (tileOf_injOn_z c)]
    rfl
  rw [xinAt_eq, ← h2]
  exact h1

/-! ## Forwarding: a chunk that came in is the source of later transfers -/

omit [FloatOps F] in
theorem sndPay_z (c : Dev nD) (i : Fin 32) (h : i.val < 10) : sndPay (F := F) m c i = xchunkAt c (tileOf c i) fullShare.right (X m c) := if_pos h
omit [FloatOps F] in
theorem sndPay_f (c : Dev nD) (i : Fin 32) (h : ¬ i.val < 10) : sndPay (F := F) m c i = chunkAt c (tileOf c i) (shr i) (W m c) := if_neg h

theorem fwd_split_key : ∀ (c : Dev nD) (i : Fin 32) (h : i.val < 8),
    ax i = 0 ∧ tileOf c ⟨10 + i.val, by omega⟩ = tileOf (peer 0 c) i ∧ tileOf c ⟨21 + i.val, by omega⟩ = tileOf (peer 0 c) i
      ∧ shr ⟨10 + i.val, by omega⟩ = fullShare.left ∧ shr ⟨21 + i.val, by omega⟩ = fullShare.right := by decide
theorem fwd_one_key : ∀ (c : Dev nD) (i i' : Fin 32), ((18 ≤ i'.val ∧ i'.val < 21 ∧ i.val = i'.val + 3) ∨ (29 ≤ i'.val ∧ i.val + 16 = i'.val)) →
    tileOf c i' = tileOf (peer (ax i) c) i ∧ shr i' = fullShare := by decide

/-- The own quarter's chunk `k`, come in by the `z` transfer `i = k`, is read at a half share each by the transfers
    `ix = 10 + k` (to the `x`-neighbour) and `iy = 21 + k` (to the `y`-neighbour). -/
theorem fwd_split (c : Dev nD) (i ix iy : Fin 32) (hi : i.val < 8) (hx : ix.val = 10 + i.val) (hy : iy.val = 21 + i.val) :
    rcvPay (F := F) m c i
      ⊣⊢ iprop(chunkAt c (tileOf c ix) (shr ix) (W m c) ∗ chunkAt c (tileOf c iy) (shr iy) (W m c)) := by
  have b1 : 10 + i.val < 32 := Nat.lt_of_lt_of_le (Nat.add_lt_add_left hi 10) (by decide)
  have b2 : 21 + i.val < 32 := Nat.lt_of_lt_of_le (Nat.add_lt_add_left hi 21) (by decide)
  obtain rfl : ix = ⟨10 + i.val, b1⟩ := Fin.ext hx
  obtain rfl : iy = ⟨21 + i.val, b2⟩ := Fin.ext hy
  obtain ⟨h0, h1, h2, hl, hr⟩ := fwd_split_key c i hi
  unfold rcvPay
  rw [h0, h1, h2, hl, hr]
  unfold chunkAt
  exact pointsTo_share (PosShare.mem_left_op_right fullShare)

/-- What the `y`-neighbour's transfer `21 + j` brought is what transfer `18 + j` reads, whole; likewise what the
    `x`-neighbour's `13 + j` brought and transfer `29 + j`. -/
theorem fwd_one (c : Dev nD) (i i' : Fin 32)
    (h : (18 ≤ i'.val ∧ i'.val < 21 ∧ i.val = i'.val + 3) ∨ (29 ≤ i'.val ∧ i.val + 16 = i'.val)) :
    rcvPay (F := F) m c i = chunkAt c (tileOf c i') (shr i') (W m c) := by
  obtain ⟨h1, hs⟩ := fwd_one_key c i i' h
  unfold rcvPay; rw [h1, hs]

/-! ## Families written out -/

omit [FloatOps F] in
theorem explode32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl
omit [FloatOps F] in
theorem explode3 (Φ : Fin 3 → sProp 𝕄) : bigSep Finset.univ Φ = iprop(Φ 0 ∗ Φ 1 ∗ Φ 2) := by
  rw [bigSep_univ_eq_bigSepL [0, 1, 2] (by decide) (by decide)]
  rfl
omit [FloatOps F] in
theorem explodeZ (Φ : Fin 32 → sProp 𝕄) :
    bigSep (sends 0) Φ = iprop(Φ 0 ∗ Φ 1 ∗ Φ 2 ∗ Φ 3 ∗ Φ 4 ∗ Φ 5 ∗ Φ 6 ∗ Φ 7 ∗ Φ 8 ∗ Φ 9) := by
  rw [bigSep_eq_bigSepL_of_eq [0, 1, 2, 3, 4, 5, 6, 7, 8, 9] (by decide) (by decide)]
  rfl
omit [FloatOps F] in
theorem explodeX (Φ : Fin 32 → sProp 𝕄) :
    bigSep (sends 1) Φ = iprop(Φ 10 ∗ Φ 11 ∗ Φ 12 ∗ Φ 13 ∗ Φ 14 ∗ Φ 15 ∗ Φ 16 ∗ Φ 17 ∗ Φ 18 ∗ Φ 19 ∗ Φ 20) := by
  rw [bigSep_eq_bigSepL_of_eq [10, 11, 12, 13, 14, 15, 16, 17, 18, 19, 20] (by decide) (by decide)]
  rfl
omit [FloatOps F] in
theorem explodeY (Φ : Fin 32 → sProp 𝕄) :
    bigSep (sends 2) Φ = iprop(Φ 21 ∗ Φ 22 ∗ Φ 23 ∗ Φ 24 ∗ Φ 25 ∗ Φ 26 ∗ Φ 27 ∗ Φ 28 ∗ Φ 29 ∗ Φ 30 ∗ Φ 31) := by
  rw [bigSep_eq_bigSepL_of_eq [21, 22, 23, 24, 25, 26, 27, 28, 29, 30, 31] (by decide) (by decide)]
  rfl

/-! ## The 65 DMA semaphores by what they are for -/

theorem dma_univ : (Finset.univ : Finset (DmaSem sig)) = (Finset.univ.image sndSem ∪ Finset.univ.image rcvSem) ∪ {locSem} := by decide
theorem sndSem_inj : Function.Injective sndSem := by decide
theorem rcvSem_inj : Function.Injective rcvSem := by decide
theorem dma_disj1 : Disjoint ((Finset.univ : Finset (Fin 32)).image sndSem) (Finset.univ.image rcvSem) := by decide
theorem dma_disj2 : Disjoint ((Finset.univ : Finset (Fin 32)).image sndSem ∪ Finset.univ.image rcvSem) ({locSem} : Finset (DmaSem sig)) := by decide

omit [FloatOps F] in
/-- A family over the DMA semaphores is the family over the 32 send semaphores, over the 32 receive semaphores, and the
    local copy's. -/
theorem bigSep_by_role (Φ : DmaSem sig → sProp 𝕄) :
    bigSep Finset.univ Φ
      = iprop((bigSep Finset.univ fun i : Fin 32 => Φ (sndSem i)) ∗ (bigSep Finset.univ fun i : Fin 32 => Φ (rcvSem i)) ∗ Φ locSem) := by
  rw [dma_univ, bigSep_union dma_disj2, bigSep_union dma_disj1, bigSep_singleton,
    bigSep_image_of_injOn (fun a _ b _ h => sndSem_inj h), bigSep_image_of_injOn (fun a _ b _ h => rcvSem_inj h)]
  have h : (iprop(((bigSep Finset.univ fun i : Fin 32 => Φ (sndSem i)) ∗ (bigSep Finset.univ fun i : Fin 32 => Φ (rcvSem i))) ∗ Φ locSem) : sProp 𝕄)
      ⊣⊢ iprop((bigSep Finset.univ fun i : Fin 32 => Φ (sndSem i)) ∗ (bigSep Finset.univ fun i : Fin 32 => Φ (rcvSem i)) ∗ Φ locSem) := Laws.sep_assoc
  exact BI.equiv_iff.mp ⟨h.1, h.2⟩

end Cert.KernelIdeal.AG

end
-- ==== Proof.KernelIdealAG.Body.lean ====
/-
  One device's kernel body, stepped from its invariant before the point to its invariant after it.
-/
import proofs.«900674_g7700000000000675_dist_ag_v7x_xyz2x2x2_z_m4096_n1024_f32_1_alg».proof.Proof.KernelIdealAG.Steps
import proofs.«900674_g7700000000000675_dist_ag_v7x_xyz2x2x2_z_m4096_n1024_f32_1_alg».proof.Proof.KernelIdealAG.Deal
import proofs.«900674_g7700000000000675_dist_ag_v7x_xyz2x2x2_z_m4096_n1024_f32_1_alg».proof.Proof.KernelIdealAG.Devs
import proofs.«900674_g7700000000000675_dist_ag_v7x_xyz2x2x2_z_m4096_n1024_f32_1_alg».proof.Proof.Gen.KernelIdeal.Skeleton
import proofs.«900674_g7700000000000675_dist_ag_v7x_xyz2x2x2_z_m4096_n1024_f32_1_alg».proof.Proof.Gen.KernelIdeal.Launch
import proofs.«900674_g7700000000000675_dist_ag_v7x_xyz2x2x2_z_m4096_n1024_f32_1_alg».proof.Proof.Gen.KernelIdeal.Points

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Tactics

Hypotheses are named by transfer `i`: `Hxs i` the chunk of the input block a `z` transfer reads, `Hsrc i` the chunk of the
own result a forwarding transfer reads, `Hd i` its destination chunk (in the neighbour's result), `Hts i` / `Htr i` the
duty tokens of its send and receive cells, `Hcs i` the credit on the own send cell, `Hcr i` the credit on the own receive
cell of the incoming transfer `i`, `Has i` / `Har i` the positions at those cells, `Hzs i` / `Hzr i` their counters once
closed, `Hin i` the chunk the incoming transfer `i` filled, `Hret i` what transfer `i`'s send cell gave back. -/

open Lean in
/-- The hypothesis name `pre k`. -/
def hname (pre : String) (k : Nat) : Ident := mkIdent (.mkSimple s!"{pre}{k}")

set_option hygiene false in
open Lean in
/-- Name the conjuncts of `H` (a right-nested `∗` of `hi - lo` conjuncts) `pre lo … pre (hi - 1)`. -/
macro "inames " h:ident pre:str lo:num hi:num : tactic => do
  let mut ts : Array (TSyntax `tactic) := #[]
  for k in [lo.getNat : hi.getNat - 1] do
    ts := ts.push (← `(tactic| icases $h:ident with ⟨$(hname pre.getString k):ident, $h:ident⟩))
  ts := ts.push (← `(tactic| irename $h:ident => $(hname pre.getString (hi.getNat - 1)):ident))
  `(tactic| ($[$ts]*))

set_option hygiene false in
open Lean in
/-- Frame the hypotheses `pre lo … pre (hi - 1)` against the goal, one after the other. -/
macro "iframes " pre:str lo:num hi:num : tactic => do
  let mut ts : Array (TSyntax `tactic) := #[]
  for k in [lo.getNat : hi.getNat] do
    ts := ts.push (← `(tactic| iframe $(hname pre.getString k):ident))
  `(tactic| ($[$ts]*))

set_option hygiene false in
open Lean in
/-- The `z` transfer `i`, the `n`-th payment, its device chain `dv` and its offsets' closed forms. -/
macro "z_send " i:num " pay " n:num " dev " dv:term " soff " so:term " doff " dof:term : tactic => do
  let k := i.getNat
  `(tactic| (
    iapply (wp_zsend m K c ($i : Fin 32) rfl (by decide) _ $dv _ _ _ _ $so $dof _ _ rfl rfl (owedAfter c $n) (owedAfter c ($n + 1)) rfl _) $$ [HO $(hname "Hxs" k):ident $(hname "Hd" k):ident $(hname "Hts" k):ident $(hname "Htr" k):ident]
    · iframe HR HO $(hname "Hxs" k):ident $(hname "Hd" k):ident $(hname "Hts" k):ident $(hname "Htr" k):ident
    iintro ⟨$(hname "Hcs" k):ident, HO⟩))

set_option hygiene false in
open Lean in
/-- The forwarding transfer `i`, the `n`-th payment. -/
macro "f_send " i:num " pay " n:num " dev " dv:term " soff " so:term " doff " dof:term : tactic => do
  let k := i.getNat
  `(tactic| (
    iapply (wp_fsend m K c ($i : Fin 32) (by decide) (by decide) ($(quote (if k < 21 then 1 else 2)) : Fin 3) (by decide) _ $dv _ _ _ _ $so $dof _ _ rfl rfl (owedAfter c $n) (owedAfter c ($n + 1)) rfl _) $$ [HO $(hname "Hsrc" k):ident $(hname "Hd" k):ident $(hname "Hts" k):ident $(hname "Htr" k):ident]
    · iframe HR HO $(hname "Hsrc" k):ident $(hname "Hd" k):ident $(hname "Hts" k):ident $(hname "Htr" k):ident
    iintro ⟨$(hname "Hcs" k):ident, HO⟩))

set_option hygiene false in
open Lean in
/-- The wait on the receive cell of the incoming transfer `i`, after `n` payments (`n = 35`: nothing is owed). -/
macro "r_wait " i:num " after " n:num : tactic => do
  let k := i.getNat
  let mw ← if n.getNat == 35 then `(by rw [owedAfter_all, MayWait_zero]; iintro -; iempintro)
           else `(mayWait_rcv c ($i : Fin 32) $n (by decide) (by decide))
  `(tactic| (
    iapply (wp_dma_wait m K c (rcvSem ($i : Fin 32)) NC (rcvPay m c ($i : Fin 32)) (expect_rcv m c _) (rest_rcv m c _) (owedAfter c $n)
        $mw _ (by rfl) (hN := by rfl)) $$ [HO $(hname "Hcr" k):ident $(hname "Har" k):ident]
    · iframe HR Hlev HO $(hname "Hcr" k):ident $(hname "Har" k):ident
    iintro ⟨HO, $(hname "Hzr" k):ident, $(hname "Hin" k):ident⟩))

set_option hygiene false in
open Lean in
/-- The wait on the send cell of transfer `i` (nothing is owed any more). -/
macro "s_wait " i:num : tactic => do
  let k := i.getNat
  `(tactic| (
    iapply (wp_dma_wait m K c (sndSem ($i : Fin 32)) NC (sndPay m c ($i : Fin 32)) (expect_snd m c _) (rest_snd m c _) (owedAfter c 35)
        (by rw [owedAfter_all, MayWait_zero]; iintro -; iempintro) _ (by rfl) (hN := by rfl)) $$ [HO $(hname "Hcs" k):ident $(hname "Has" k):ident]
    · iframe HR Hlev HO $(hname "Hcs" k):ident $(hname "Has" k):ident
    iintro ⟨HO, $(hname "Hzs" k):ident, $(hname "Hret" k):ident⟩))

set_option hygiene false in
open Lean in
/-- The ten `z` transfers (payments 3 … 12): the own quarter's eight chunks, then chunks 6 and 7 of the diagonal quarter. -/
macro "z_sends" : tactic => do
  let mut ts : Array (TSyntax `tactic) := #[]
  for k in [0:10] do
    let dv := mkIdent (.mkSimple s!"dev{4 + k}_eq")
    let t ← if k < 8 then
        `(tactic| z_send $(quote k) pay $(quote (3 + k)) dev ($dv c) soff (off2_eq c $(quote k)) doff (off1_eq c $(quote k)))
      else
        `(tactic| z_send $(quote k) pay $(quote (3 + k)) dev ($dv c) soff (off4_eq c $(quote (k - 8))) doff (off3_eq c $(quote (k - 8))))
    ts := ts.push t
  `(tactic| ($[$ts]*))

set_option hygiene false in
open Lean in
/-- The own quarter's eight chunks: chunk `k` comes in from the `z`-neighbour (incoming transfer `k`), is cut into its
    two half shares, and goes on to the `x`-neighbour (transfer `10 + k`) and the `y`-neighbour (transfer `21 + k`). -/
macro "own_quarter" : tactic => do
  let mut ts : Array (TSyntax `tactic) := #[]
  for k in [0:8] do
    let dx := mkIdent (.mkSimple s!"dev{14 + 2 * k}_eq")
    let dy := mkIdent (.mkSimple s!"dev{15 + 2 * k}_eq")
    ts := ts.push (← `(tactic| r_wait $(quote k) after $(quote (13 + 2 * k))))
    ts := ts.push (← `(tactic| ihave Hsp := (fwd_split m c ($(quote k) : Fin 32) ($(quote (10 + k)) : Fin 32) ($(quote (21 + k)) : Fin 32) (by decide) (by decide) (by decide)).1 $$ $(hname "Hin" k):ident))
    ts := ts.push (← `(tactic| icases Hsp with ⟨$(hname "Hsrc" (10 + k)):ident, $(hname "Hsrc" (21 + k)):ident⟩))
    ts := ts.push (← `(tactic| f_send $(quote (10 + k)) pay $(quote (13 + 2 * k)) dev ($dx c) soff (off6_eq_x c $(quote k))
        doff ((off6_eq_x c $(quote k)).trans (oOff_plane c 1 (by decide) _).symm)))
    ts := ts.push (← `(tactic| f_send $(quote (21 + k)) pay $(quote (14 + 2 * k)) dev ($dy c) soff (off6_eq_y c $(quote k))
        doff ((off6_eq_y c $(quote k)).trans (oOff_plane c 2 (by decide) _).symm)))
  `(tactic| ($[$ts]*))

set_option hygiene false in
open Lean in
/-- Chunks 0 … 2 of the `y`-neighbour's quarter (incoming transfers `21 + j`) go on to the `x`-neighbour (transfers `18 + j`). -/
macro "y_to_x" : tactic => do
  let mut ts : Array (TSyntax `tactic) := #[]
  for j in [0:3] do
    let dv := mkIdent (.mkSimple s!"dev{30 + j}_eq")
    ts := ts.push (← `(tactic| r_wait $(quote (21 + j)) after $(quote (29 + j))))
    ts := ts.push (← `(tactic| ihave $(hname "Hsrc" (18 + j)):ident := (Entails.of_eq (fwd_one m c ($(quote (21 + j)) : Fin 32) ($(quote (18 + j)) : Fin 32) (by decide))) $$ $(hname "Hin" (21 + j)):ident))
    ts := ts.push (← `(tactic| f_send $(quote (18 + j)) pay $(quote (29 + j)) dev ($dv c) soff (off7_eq c $(quote j))
        doff ((off7_eq c $(quote j)).trans (oOff_plane c 1 (by decide) _).symm)))
  `(tactic| ($[$ts]*))

set_option hygiene false in
open Lean in
/-- Chunks 3 … 5 of the `x`-neighbour's quarter (incoming transfers `13 + j`) go on to the `y`-neighbour (transfers `29 + j`);
    before the first, the incoming transfers `10 … 12` are waited for too. -/
macro "x_to_y" : tactic => do
  let mut ts : Array (TSyntax `tactic) := #[]
  for i in [10:13] do
    ts := ts.push (← `(tactic| r_wait $(quote i) after 32))
  for j in [0:3] do
    let dv := mkIdent (.mkSimple s!"dev{33 + j}_eq")
    ts := ts.push (← `(tactic| r_wait $(quote (13 + j)) after $(quote (32 + j))))
    ts := ts.push (← `(tactic| ihave $(hname "Hsrc" (29 + j)):ident := (Entails.of_eq (fwd_one m c ($(quote (13 + j)) : Fin 32) ($(quote (29 + j)) : Fin 32) (by decide))) $$ $(hname "Hin" (13 + j)):ident))
    ts := ts.push (← `(tactic| f_send $(quote (29 + j)) pay $(quote (32 + j)) dev ($dv c) soff (off8_eq c $(quote j))
        doff ((off8_eq c $(quote j)).trans (oOff_plane c 2 (by decide) _).symm)))
  `(tactic| ($[$ts]*))

set_option hygiene false in
open Lean in
/-- The incoming transfers not yet waited for, in the body's order, once nothing is owed. -/
macro "last_receives" : tactic => do
  let mut ts : Array (TSyntax `tactic) := #[]
  for i in [8, 9, 16, 17, 24, 25, 26, 27, 28, 18, 29, 19, 30, 20, 31] do
    ts := ts.push (← `(tactic| r_wait $(quote i) after 35))
  `(tactic| ($[$ts]*))

set_option hygiene false in
open Lean in
/-- The 32 send cells, in order. -/
macro "send_waits" : tactic => do
  let mut ts : Array (TSyntax `tactic) := #[]
  for i in [0:32] do
    ts := ts.push (← `(tactic| s_wait $(quote i)))
  `(tactic| ($[$ts]*))

set_option hygiene false in
open Lean in
/-- What the `z` transfers' send cells gave back is the ten chunks of the input block, at the right half share. -/
macro "z_returns" : tactic => do
  let mut ts : Array (TSyntax `tactic) := #[]
  for k in [0:10] do
    ts := ts.push (← `(tactic| ihave $(hname "Hxs" k):ident := (Entails.of_eq (sndPay_z m c ($(quote k) : Fin 32) (by decide))) $$ $(hname "Hret" k):ident))
  `(tactic| ($[$ts]*))

set_option hygiene false in
open Lean in
/-- What the forwarding transfers' send cells gave back, put together into the chunks that had come in. -/
macro "f_returns" : tactic => do
  let mut ts : Array (TSyntax `tactic) := #[]
  for k in [0:8] do
    ts := ts.push (← `(tactic| ihave Hlft := (Entails.of_eq (sndPay_f m c ($(quote (10 + k)) : Fin 32) (by decide))) $$ $(hname "Hret" (10 + k)):ident))
    ts := ts.push (← `(tactic| ihave Hrgt := (Entails.of_eq (sndPay_f m c ($(quote (21 + k)) : Fin 32) (by decide))) $$ $(hname "Hret" (21 + k)):ident))
    ts := ts.push (← `(tactic| ihave $(hname "Hin" k):ident := (fwd_split m c ($(quote k) : Fin 32) ($(quote (10 + k)) : Fin 32) ($(quote (21 + k)) : Fin 32) (by decide) (by decide) (by decide)).2 $$ [Hlft Hrgt]))
    ts := ts.push (← `(tactic| · iframe Hlft Hrgt))
  for j in [0:3] do
    ts := ts.push (← `(tactic| ihave Hone := (Entails.of_eq (sndPay_f m c ($(quote (18 + j)) : Fin 32) (by decide))) $$ $(hname "Hret" (18 + j)):ident))
    ts := ts.push (← `(tactic| ihave $(hname "Hin" (21 + j)):ident := (Entails.of_eq (fwd_one m c ($(quote (21 + j)) : Fin 32) ($(quote (18 + j)) : Fin 32) (by decide)).symm) $$ Hone))
    ts := ts.push (← `(tactic| ihave Hone := (Entails.of_eq (sndPay_f m c ($(quote (29 + j)) : Fin 32) (by decide))) $$ $(hname "Hret" (29 + j)):ident))
    ts := ts.push (← `(tactic| ihave $(hname "Hin" (13 + j)):ident := (Entails.of_eq (fwd_one m c ($(quote (13 + j)) : Fin 32) ($(quote (29 + j)) : Fin 32) (by decide)).symm) $$ Hone))
  `(tactic| ($[$ts]*))

set_option maxHeartbeats 0 in
set_option maxRecDepth 65536 in
/-- The body from the invariant before the point to the invariant after it. -/
theorem sound_body (c : Dev nD) :
    iprop(Φ₀ m c ∗ (dats m 0 c).owesAt () t0_0.castSucc ∗ emp)
      ⊢ WP c (cc0_body (F := F) (Memref.whole main_arg0) (Memref.isWhole_whole _) (Memref.whole main_v1) (Memref.isWhole_whole _)
            cc0_scratch0 cc0_scratch1 cc0_scratch2 cc0_scratch3 cc0_scratch4 cc0_scratch5 cc0_scratch6)
          (fun _ => iprop(Φ₁ m c ∗ (dats m 0 c).owesAt () t0_0.succ ∗ emp)) := by
  -- the printed body as one sequence of memory operations
  simp only [cc0_body_eq_skeleton]; unfold cc0_body_skel
  simp only [k0_part33_eq_skeleton]; unfold k0_part33_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel
  simp only [semSignalWord, semWaitWord, Prog.lift, Prog.bind_op, Prog.bind_ret, Prog.pure_eq_ret, wp_deviceId]
  unfold Φ₀ start positions payToks launchCreds Dat.owesAt Pipeline.owesWithin
  rw [show (dats m 0 c).owed t0_0.castSucc = owedAfter c 0 from rfl]
  iintro ⟨⟨⟨⟨%K, #HR, ⟨HaB, HaD⟩, HtB, HtX, HtL⟩, ⟨HcB, HcR⟩, #Hlev⟩, Hx, Hout⟩, ⟨%W0, %hW0, HO0⟩, -⟩
  ihave HO : ow c (owedAfter c 0) $$ [HO0]
  · unfold ow; iexists W0; iexact HO0
  -- the ghost state, cell by cell
  ihave HaD := (Entails.of_eq (bigSep_by_role _)) $$ HaD
  icases HaD with ⟨HaS, HaR, HaL⟩
  ihave HaS := (Entails.of_eq (explode32 _)) $$ HaS
  inames HaS "Has" 0 32
  ihave HaR := (Entails.of_eq (explode32 _)) $$ HaR
  inames HaR "Har" 0 32
  ihave HtB := (Entails.of_eq (explode3 _)) $$ HtB
  icases HtB with ⟨HtB0, HtB1, HtB2⟩
  ihave HtX := (Entails.of_eq (bigSep_sep' _ _ _)) $$ HtX
  icases HtX with ⟨HtS, HtR⟩
  ihave HtS := (Entails.of_eq (explode32 _)) $$ HtS
  inames HtS "Hts" 0 32
  ihave HtR := (Entails.of_eq (explode32 _)) $$ HtR
  inames HtR "Htr" 0 32
  ihave HcR := (Entails.of_eq (explode32 _)) $$ HcR
  inames HcR "Hcr" 0 32
  -- the two arrays, in pieces
  ihave Hout := (out_deal m c) $$ Hout
  icases Hout with ⟨Hh, HbP0, HbP1, HbP2⟩
  ihave Hx := (xin_deal m c).1 $$ Hx
  icases Hx with ⟨HxL, HxZ, HxRest⟩
  ihave HxZ := (Entails.of_eq (explodeZ _)) $$ HxZ
  inames HxZ "Hxs" 0 10
  -- the entry handshake: a signal to each neighbour, with the chunks of the own result it will fill; then the wait
  iapply (wp_bar_signal m K c 0 _ (dev1_eq c) (owedAfter c 0) (owedAfter c 1) rfl) $$ [HO HtB0 HbP0]
  · iframe HR HO HtB0 HbP0
  iintro HO
  iapply (wp_bar_signal m K c 1 _ (dev2_eq c) (owedAfter c 1) (owedAfter c 2) rfl) $$ [HO HtB1 HbP1]
  · iframe HR HO HtB1 HbP1
  iintro HO
  iapply (wp_bar_signal m K c 2 _ (dev3_eq c) (owedAfter c 2) (owedAfter c 3) rfl) $$ [HO HtB2 HbP2]
  · iframe HR HO HtB2 HbP2
  iintro HO
  iapply (wp_bar_wait m K c) $$ [HO HcB HaB]
  · iframe HR Hlev HO HcB HaB
  iintro ⟨HO, HdZ, HdX, HdY⟩
  unfold barPay
  ihave HdZ := (Entails.of_eq (explodeZ _)) $$ HdZ
  inames HdZ "Hd" 0 10
  ihave HdX := (Entails.of_eq (explodeX _)) $$ HdX
  inames HdX "Hd" 10 21
  ihave HdY := (Entails.of_eq (explodeY _)) $$ HdY
  inames HdY "Hd" 21 32
  -- the transfers out of the input block, and the local copy
  z_sends
  iapply (wp_loc_copy m K c _ _ (off5_eq c) _ rfl (V0 m c)) $$ [HxL Hh HtL]
  · iframe HR HxL Hh HtL
  iintro HcL
  -- receiving and forwarding
  own_quarter
  y_to_x
  x_to_y
  last_receives
  -- the sources back, and the local copy done
  send_waits
  iapply (wp_dma_wait m K c locSem NL (locPay m c) (expect_loc m c) (rest_loc m c) (owedAfter c 35)
      (by rw [owedAfter_all, MayWait_zero]; iintro -; iempintro) _ (by rfl) (hN := by rfl)) $$ [HO HcL HaL]
  · iframe HR Hlev HO HcL HaL
  iintro ⟨HO, HzL, HpL⟩
  unfold locPay
  icases HpL with ⟨Hh, HxL⟩
  unfold WP
  rw [wp_ret]; imodintro
  -- the input block whole again
  z_returns
  ihave Hx : ((((c : Thread nD τ).loc main_arg0) ↦{fullShare} X m c : sProp 𝕄)) $$ [HxL Hxs0 Hxs1 Hxs2 Hxs3 Hxs4 Hxs5 Hxs6 Hxs7 Hxs8 Hxs9 HxRest]
  · iapply (xin_deal m c).2
    isplitl [HxL]; · iexact HxL
    isplitr [HxRest]
    · iapply (Entails.of_eq (explodeZ _).symm)
      iframes "Hxs" 0 10
    · iexact HxRest
  -- the result whole, holding its final values
  f_returns
  ihave Hout : ((((c : Thread nD τ).loc main_v1) ↦{fullShare} W m c : sProp 𝕄)) $$ [-Hx HO HzL Hzs0 Hzs1 Hzs2 Hzs3 Hzs4 Hzs5 Hzs6 Hzs7 Hzs8 Hzs9 Hzs10 Hzs11 Hzs12 Hzs13 Hzs14 Hzs15 Hzs16 Hzs17 Hzs18 Hzs19 Hzs20 Hzs21 Hzs22 Hzs23 Hzs24 Hzs25 Hzs26 Hzs27 Hzs28 Hzs29 Hzs30 Hzs31 Hzr0 Hzr1 Hzr2 Hzr3 Hzr4 Hzr5 Hzr6 Hzr7 Hzr8 Hzr9 Hzr10 Hzr11 Hzr12 Hzr13 Hzr14 Hzr15 Hzr16 Hzr17 Hzr18 Hzr19 Hzr20 Hzr21 Hzr22 Hzr23 Hzr24 Hzr25 Hzr26 Hzr27 Hzr28 Hzr29 Hzr30 Hzr31]
  · iapply (out_gather m c)
    isplitl [Hh]; · iexact Hh
    iapply (Entails.of_eq (explode32 _).symm)
    iframes "Hin" 0 32
  -- the invariant after the point
  unfold Φ₁
  rw [show (dats m 0 c).owed t0_0.succ = 0 from rfl]
  isplitr [HO]
  · isplitl [Hx]; · iexact Hx
    isplitl [Hout]; · iexact Hout
    iapply (Entails.of_eq (bigSep_by_role _).symm)
    isplitr [HzL Hzr0 Hzr1 Hzr2 Hzr3 Hzr4 Hzr5 Hzr6 Hzr7 Hzr8 Hzr9 Hzr10 Hzr11 Hzr12 Hzr13 Hzr14 Hzr15 Hzr16 Hzr17 Hzr18 Hzr19 Hzr20 Hzr21 Hzr22 Hzr23 Hzr24 Hzr25 Hzr26 Hzr27 Hzr28 Hzr29 Hzr30 Hzr31]
    · iapply (Entails.of_eq (explode32 _).symm)
      iframes "Hzs" 0 32
    isplitr [HzL]
    · iapply (Entails.of_eq (explode32 _).symm)
      iframes "Hzr" 0 32
    iexact HzL
  · isplitl [HO]
    · unfold ow
      icases HO with ⟨%W, HO⟩
      iexists W
      isplitr; · ipureintro; exact fun _ _ => Or.inl trivial
      rw [owedAfter_all]; iexact HO
    · iempintro

/-- The library's body obligation on device `c`. -/
theorem body_obligation (c : Dev nD) : BodyObligation (dats (F := F) m 0 c) (defs₀ (F := F)) 𝒱₀ () Set.univ := fun t => by
  rw [fin_N0 t]
  have hW : (Finset.univ : Finset (Fin cfg0.W)) = ∅ := rfl
  simp only [hW, bigSep_empty]
  show iprop(Φ₀ m c ∗ (dats m 0 c).owesAt () t0_0.castSucc ∗ emp)
    ⊢ WP c (cc0_body (F := F) (Memref.whole main_arg0) (Memref.isWhole_whole _) (Memref.whole main_v1) (Memref.isWhole_whole _)
          cc0_scratch0 cc0_scratch1 cc0_scratch2 cc0_scratch3 cc0_scratch4 cc0_scratch5 cc0_scratch6)
        (fun _ => iprop(Φ₁ m c ∗ (dats m 0 c).owesAt () t0_0.succ ∗ emp))
  exact sound_body m c

/-- info: 'Cert.KernelIdeal.AG.body_obligation' depends on axioms: [propext, Classical.choice, Quot.sound] -/
#guard_msgs in #print axioms body_obligation

end Cert.KernelIdeal.AG

end
-- ==== Proof.KernelIdealAG.Launch.lean ====
/-
  The launch: the ghost state dealt to the eight devices, and the run of @main.

  The launch element funds one round cell per semaphore of the protocol — on every device the barrier cell and the 65
  DMA cells — and mints the duty tokens of round 0: three on each barrier cell, one on each DMA cell. Every cell's
  invariant is allocated under one update for all devices; the tokens are then dealt to the devices that PAY the
  duties: barrier duty `a` of a device to its neighbour along axis `a`, the receive duty of transfer `i` to the
  neighbour along the transfer's axis (both neighbour maps are involutions), the send duties and the local copy's duty
  to the owner. What each device owes, summed over the devices, is three units on every barrier cell and one chunk's
  credit on every receive cell: the credit each device is dealt.
-/
import proofs.«900674_g7700000000000675_dist_ag_v7x_xyz2x2x2_z_m4096_n1024_f32_1_alg».proof.Proof.KernelIdealAG.Body
import proofs.«900674_g7700000000000675_dist_ag_v7x_xyz2x2x2_z_m4096_n1024_f32_1_alg».proof.Proof.Gen.KernelIdeal.Frame

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

namespace Launch

/-- All 65 DMA semaphores are the kernel's own scoped scratch. -/
abbrev osem : DmaSem sig → SemLoc sig := fun q => .dma q

theorem ownSemFacts : Pipeline.OwnSemFacts cfg0.spec osem :=
  ⟨by decide, fun _ _ h => SemLoc.dma.inj h, fun _ w => w.elim0⟩

theorem share_eq (c : Dev nD) (w : Fin cfg0.W) : (dats (F := F) m 0 c).share w = fullShare := w.elim0

/-! ## The cells and the tokens minted -/

theorem kcell_injective : Function.Injective (kcell : CellIx → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := by
    cases k with
    | none => cases k' with
      | none => rfl
      | some q' => exact absurd h2 (fun h' => by cases h')
    | some q => cases k' with
      | none => exact absurd h2 (fun h' => by cases h')
      | some q' => exact congrArg some (SemLoc.dma.inj h2)
  subst h3; rfl

/-- Every cell of the protocol. -/
def agCells : Finset (GSem nD τ sig) := Finset.univ.map ⟨kcell, kcell_injective⟩

/-- A device's own cells' duty tokens as minted: (device, which duty) — its barrier's three, one of each DMA cell. -/
abbrev TokIx : Type := Dev nD × (Fin 3 ⊕ DmaSem sig)
abbrev tokOf (cj : TokIx) : GSem nD τ sig × ℕ × Fin 3 := match cj.2 with
  | .inl a => (barCell cj.1, 0, a)
  | .inr q => (dCell cj.1 q, 0, 0)

theorem tokOf_injective : Function.Injective tokOf := by
  rintro ⟨c, j⟩ ⟨c', j'⟩ h
  have h1 : c = c' := by
    have := congrArg (fun x : GSem nD τ sig × ℕ × Fin 3 => x.1.1.1) h
    cases j <;> cases j' <;> exact this
  subst h1
  have h3 : j = j' := by
    cases j with
    | inl a => cases j' with
      | inl a' => exact congrArg Sum.inl (congrArg (fun x : GSem nD τ sig × ℕ × Fin 3 => x.2.2) h)
      | inr q' => exact absurd (congrArg (fun x : GSem nD τ sig × ℕ × Fin 3 => x.1.2) h) (fun h' => by cases h')
    | inr q => cases j' with
      | inl a' => exact absurd (congrArg (fun x : GSem nD τ sig × ℕ × Fin 3 => x.1.2) h) (fun h' => by cases h')
      | inr q' => exact congrArg Sum.inr (SemLoc.dma.inj (congrArg (fun x : GSem nD τ sig × ℕ × Fin 3 => x.1.2) h))
  subst h3; rfl

def agToks : Finset (GSem nD τ sig × ℕ × Fin 3) := Finset.univ.map ⟨tokOf, tokOf_injective⟩

/-- The launch element: the pipeline library's (no staging cell) and the protocol's. -/
def u₀ : UU :=
  (initOf (Pipeline.cells cfgs cellOf_inj) (Pipeline.launchToks cfgs cellOf_inj), initOf agCells agToks)

/-- The duty tokens of device `c`'s own cells. -/
def toks (c : Dev nD) : sProp 𝕄 :=
  iprop((bigSep Finset.univ fun a : Fin 3 => dutyTok ER (barCell c) 0 a)
    ∗ bigSep Finset.univ fun q : DmaSem sig => dutyTok ER (dCell c q) 0 (0 : Fin 3))

/-- What the launch element deals device `c`. -/
def G (c : Dev nD) : sProp 𝕄 :=
  iprop((bigSep Finset.univ fun k : Option (DmaSem sig) => roundState ER (agRd m) (kcell (c, k)) 0)
    ∗ (bigSep Finset.univ fun k : Option (DmaSem sig) => iprop(atPos ER (kcell (c, k)) 0 ∅ 0 ∗ reached ER (kcell (c, k)) 0))
    ∗ toks c)

/-- What the global step makes of it. -/
def G' (c : Dev nD) : sProp 𝕄 := iprop(∃ K, iprop(records m K ∗ positions c ∗ payToks c))

/-- A family over a device's cells: the barrier cell's member and the DMA cells'. -/
theorem bigSep_cells {α : Type} [Fintype α] (Φ : Option α → sProp 𝕄) :
    bigSep Finset.univ Φ = iprop(Φ none ∗ bigSep Finset.univ fun a : α => Φ (some a)) := by
  rw [bigSep_univ_equiv ((Equiv.sumComm PUnit.{1} α).trans (Equiv.optionEquivSumPUnit.{0, 0} α).symm) Φ, bigSep_univ_sum,
    bigSep_univ_of_subsingleton PUnit.unit]
  rfl

theorem fund_ag : BI.own (ER (initOf agCells agToks)) ⊢ (|==> bigSep Finset.univ (G m) : sProp 𝕄) := by
  have hX (Φ : GSem nD τ sig → sProp 𝕄) :
      bigSep agCells Φ = bigSep Finset.univ fun c : Dev nD => bigSep Finset.univ fun k : Option (DmaSem sig) => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_univ_sum]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (DmaSem sig) => semVal (kcell (c, k)) 0 : sProp 𝕄) := by
  rw [unscopedSems0_eq, bigSep_cells]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option (DmaSem sig) => iprop(∃ κ : ℕ, cellInv ER (agRd m) κ (kcell (c, k))))
          ∗ (bigSep Finset.univ fun k : Option (DmaSem sig) => iprop(atPos ER (kcell (c, k)) 0 ∅ 0 ∗ reached ER (kcell (c, k)) 0))
          ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (DmaSem sig) => semVal (kcell (c, k)) 0)
        ∗ bigSep Finset.univ fun k : Option (DmaSem sig) => roundState ER (agRd m) (kcell (c, k)) 0)
      ⊢ (|={Set.univ}=> bigSep Finset.univ fun k : Option (DmaSem sig) => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c` besides the records: its positions, and the tokens of the duties IT pays. -/
def linear (c : Dev nD) : sProp 𝕄 := iprop(positions c ∗ payToks c)

theorem ghost_intro (K : CellIx → ℕ) (c : Dev nD) : iprop(records m K ∗ linear c) ⊢ G' m c := by
  unfold linear G'
  iintro ⟨#HR, Hp, Ht⟩
  iexists K
  isplitr; · iexact HR
  isplitl [Hp]; · iexact Hp
  iexact Ht

theorem positions_eq (c : Dev nD) :
    (bigSep Finset.univ fun k : Option (DmaSem sig) => (atPos ER (kcell (c, k)) 0 ∅ 0 : sProp 𝕄)) = positions c :=
  (bigSep_cells (fun k : Option (DmaSem sig) => (atPos ER (kcell (c, k)) 0 ∅ 0 : sProp 𝕄))).trans rfl

/-- A family over devices and an index, each member moved to the device an involution of the devices names. -/
theorem deal {A : Type} [Fintype A] (f : A → Dev nD → Dev nD) (hf : ∀ a c, f a (f a c) = c) (Φ : Dev nD → A → sProp 𝕄) :
    (bigSep Finset.univ fun c : Dev nD => bigSep Finset.univ fun a : A => Φ c a)
      = bigSep Finset.univ fun c : Dev nD => bigSep Finset.univ fun a : A => Φ (f a c) a := by
  rw [bigSep_univ_comm Φ, bigSep_univ_comm (fun c a => Φ (f a c) a)]
  exact bigSep_congr fun a _ => bigSep_univ_equiv (⟨f a, f a, hf a, hf a⟩ : Dev nD ≃ Dev nD) (fun c => Φ c a)

/-- The tokens dealt to their payers: barrier duty `a` to the neighbour along `a`, the receive duty of transfer `i` to the
    neighbour along its axis; the send duties and the local copy's stay. -/
theorem toks_around : (bigSep Finset.univ fun c : Dev nD => (toks c : sProp 𝕄)) ⊢ bigSep Finset.univ fun c : Dev nD => payToks c := by
  have hB := deal (F := F) (fun a : Fin 3 => peer a) peer_peer (fun c a => (dutyTok ER (barCell c) 0 a : sProp 𝕄))
  have hR := deal (F := F) (fun i : Fin 32 => peer (ax i)) (fun i => peer_peer (ax i)) (fun c i => (dutyTok ER (dCell c (rcvSem i)) 0 (0 : Fin 3) : sProp 𝕄))
  unfold toks payToks
  simp only [bigSep_by_role, bigSep_sep']
  rw [hB, hR]
  iintro ⟨H1, H2, H3, H4⟩
  isplitl [H1]; · iexact H1
  isplitl [H2 H3]
  · isplitl [H2]; · iexact H2
    iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option (DmaSem sig) => iprop(∃ κ : ℕ, cellInv ER (agRd m) κ (kcell (c, k))))
          ∗ (bigSep Finset.univ fun k : Option (DmaSem sig) => iprop(atPos ER (kcell (c, k)) 0 ∅ 0 ∗ reached ER (kcell (c, k)) 0))
          ∗ toks c) : sProp 𝕄)
      ⊢ bigSep Finset.univ (G' m) := by
  rw [bigSep_sep', bigSep_sep', ← bigSep_univ_prod (fun ck : CellIx => iprop(∃ κ : ℕ, cellInv ER (agRd m) κ (kcell ck))),
    bigSep_congr (s := Finset.univ) (fun (c : Dev nD) _ => bigSep_sep' Finset.univ (fun k : Option (DmaSem sig) => (atPos ER (kcell (c, k)) 0 ∅ 0 : sProp 𝕄)) (fun k => reached ER (kcell (c, k)) 0)),
    bigSep_sep', ← bigSep_univ_prod (fun ck : CellIx => (reached ER (kcell ck) 0 : sProp 𝕄))]
  iintro ⟨HI, ⟨Hat, #HR⟩, Htok⟩
  ihave HK := (BI.bigSep_exists_pi Finset.univ (fun (ck : CellIx) (κ : ℕ) => (cellInv ER (agRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Option (DmaSem sig) => (atPos ER (kcell (c, k)) 0 ∅ 0 : sProp 𝕄)) payToks).symm).trans
      (bigSep_mono fun c _ => show _ ⊢ linear c from Entails.of_eq (by unfold linear; rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed for a list of payments is the sum of the payments. -/
theorem owedL_eq_sum (l : List (GSem nD τ sig × ℕ)) :
    owedL l = (l.map fun p => (tallyAt p.1 () p.2 : CellTallies nD τ sig Unit)).sum := by
  induction l with
  | nil => rfl
  | cons p ps ih => rw [List.map_cons, List.sum_cons, ← ih, add_comm]; rfl

theorem payOrder_nodup : payOrder.Nodup := by decide
theorem payOrder_toFinset : payOrder.toFinset = Finset.univ := by decide

/-- What device `c` owes at launch: a unit to each neighbour's barrier cell, a chunk's credit to the receive cell of each
    of its transfers. -/
theorem O₀_eq (c : Dev nD) :
    O₀ c = (∑ a : Fin 3, (tallyAt (barCell (peer a c)) () 1 : CellTallies nD τ sig Unit))
      + ∑ i : Fin 32, (tallyAt (dCell (peer (ax i) c) (rcvSem i)) () NC : CellTallies nD τ sig Unit) := by
  unfold O₀ owedAfter pays
  rw [List.drop_zero, owedL_eq_sum]
  simp only [List.map_cons, List.sum_cons, List.map_map]
  rw [Fin.sum_univ_three, ← payOrder_toFinset, List.sum_toFinset _ payOrder_nodup]
  simp only [Function.comp_def, add_assoc]

/-- The credit the launch deals device `c` is its three barrier units and a chunk's credit on each receive cell. -/
theorem creds (c : Dev nD) : (Pipeline.launchCred O₀ c : sProp 𝕄) ⊢ launchCreds c := by
  have e : (O₀ : Dev nD → CellTallies nD τ sig Unit)
      = fun d => (∑ a : Fin 3, (tallyAt (barCell (peer a d)) () 1 : CellTallies nD τ sig Unit))
          + ∑ i : Fin 32, (tallyAt (dCell (peer (ax i) d) (rcvSem i)) () NC : CellTallies nD τ sig Unit) := funext O₀_eq
  rw [e, Pipeline.launchCred_add, Pipeline.launchCred_sum, Pipeline.launchCred_sum]
  unfold launchCreds
  refine BI.sep_mono ?_ ?_
  · refine (bigSep_mono fun a _ => Pipeline.launchCred_tallyAt (.reg barS) (peer a) (peer a) (peer_peer a) (peer_peer a) () 1 c).trans ?_
    have h3 : (tallyAt (barCell c) () 1 + (tallyAt (barCell c) () 1 + tallyAt (barCell c) () 1) : CellTallies nD τ sig Unit)
        = tallyAt (barCell c) () 3 := by simp only [tallyAt_add]
    rw [explode3, ← h3]
    exact (sep_mono_right (cred_add _ _).2).trans (cred_add _ _).2
  · exact bigSep_mono fun i _ => Pipeline.launchCred_tallyAt (.dma (rcvSem i)) (peer (ax i)) (peer (ax i)) (peer_peer _) (peer_peer _) () NC c

/-! ## The theorem's side conditions -/

/-- What a device hands back at the end: its input block as it was, its result at `W`. -/
def Yend (c : Dev nD) : sProp 𝕄 :=
  iprop((((c : Thread nD τ).loc main_arg0) ↦{fullShare} X m c) ∗ (((c : Thread nD τ).loc main_v1) ↦{fullShare} W m c))

theorem start_intro (c : Dev nD) :
    iprop(Pipeline.unscopedRestP Pipeline.Prefetch.none cfg0.spec c (fun b => m ((c : Thread nD τ).loc b)) ∗ levAts Lv lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨⟨Hx, Hv⟩, Hlev, Hcr, -, HG⟩
  ihave Hc := (creds (F := F) c) $$ Hcr
  imodintro
  unfold Φ₀ start G'
  isplitl
  · isplitl [HG Hc Hlev]
    · isplitl [HG]; · iexact HG
      isplitl [Hc]; · iexact Hc
      iexact Hlev
    isplitl [Hx]; · iexact Hx
    iexact Hv
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = Φ₁ m c from rfl, scopedRest0_eq]
  unfold Φ₁ Yend Pipeline.ownSems0
  iintro ⟨Hx, Hw, Hz⟩
  isplitl [Hx Hw]
  · isplitl [Hx]; · iexact Hx
    iexact Hw
  isplitl [Hz]; · iexact Hz
  iempintro

/-- No window: the pipeline waits on no staging cell. -/
theorem waits (c : Dev nD) : (levAts Lv lv : sProp 𝕄) ⊢ Pipeline.cellsWaits cfgs (dats m) () 0 c :=
  Pipeline.cellsWaits_intro cfgs (dats m) () 0 c fun w => w.elim0

end Launch

/-! ## The run -/

set_option maxRecDepth 8000 in
/-- At the compiled mesh of eight devices, for any float values, from any memory with zero counters: every weakly fair
    execution of @main terminates, and every final state has each device's result array at `W` and its input block unchanged. -/
theorem run_main : θ_run defs (onTc (τ := τ) (main (F := F))) ⟨m, fun _ => 0, ρ⟩ (fun r => ∀ c : Dev nD,
    r.2.mem ((c.tc : Thread nD τ).loc main_v1) = W m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ Launch.ownSemFacts (Pipeline.PreFacts.none _) EP defs₀ 𝒱₀ m ρ main
    (hmain := fun _ => rfl)
    (hbody := fun c => (body_obligation m c).loose) (hne := fun w => w.elim0) (harr := arr_whole0) (hstage := stage_whole0)
    (hshare := Launch.share_eq m) (hdistinct := winFacts0.arr_inj)
    (O₀ := O₀) (howed₀ := fun _ => rfl) (howedN := fun _ => rfl)
    (L := Lv) (lv := lv) (hL := Lv_of_ne) (hwaits := Launch.waits m)
    (G := Launch.G m) (G' := Launch.G' m) (u₀ := Launch.u₀)
    (hu₀ := by
      unfold Launch.u₀
      iintro Hu
      ihave H := (ownU_pair _ _) $$ Hu
      icases H with ⟨HP, HX⟩
      imod (Launch.fund_ag m) $$ HX with HG
      imodintro
      isplitl [HP] <;> iassumption)
    (hglob := Launch.glob m)
    (hA := fun _ w => w.elim0) (hpf := fun _ k => k.elim0)
    (X := Φ₀ m) (Y := Launch.Yend m) (Z := fun _ => iprop(emp))
    (hX := Launch.start_intro m ρ) (hin := Launch.phi0_intro m) (hout := Launch.phi1_exit m)
    (QY := fun c s => s.mem ((c.tc : Thread nD τ).loc main_v1) = W m c
      ∧ s.mem ((c.tc : Thread nD τ).loc main_arg0) = m ((c.tc : Thread nD τ).loc main_arg0))
    (hY := fun c s' => by
      unfold Launch.Yend
      iintro ⟨⟨Hx, Hw⟩, -, HSI⟩
      icombine HSI Hw gives %hw
      icombine HSI Hx gives %hx
      imodintro
      isplitr; · ipureintro; exact ⟨Buf.eq_of_forall_mem_univ hw, Buf.eq_of_forall_mem_univ hx⟩
      iexact HSI)
    (hQ := fun s h c => (h c).2.2)

/-- info: 'Cert.KernelIdeal.AG.run_main' depends on axioms: [propext, Classical.choice, Quot.sound] -/
#guard_msgs in #print axioms run_main

end Cert.KernelIdeal.AG

end
-- ==== Proof.KernelAG.Mesh.lean ====
/-
  The mesh of the all-gather and the plan of its transfers.

  Device `c` of the 2 × 2 × 2 mesh sits at `(x, y, z) = (c / 4, c / 2 % 2, c % 2)`; its neighbour along an axis flips
  that coordinate. The input is cut along `z` only, so the two devices of a `z`-pair hold the two halves of the
  whole array, and each device's result is the whole array: its own half (a local copy) and the other half, which
  arrives in 32 row chunks of 128 rows — chunk `j = 8 q + k` is rows `128 j … 128 j + 127` of that half, `q` the
  quarter and `k` the chunk inside it.

  Each device makes 32 addressed transfers, numbered `i : Fin 32`: `0 … 9` to its `z`-neighbour (its own quarter's
  eight chunks and chunks 6, 7 of the diagonal quarter, out of its input block), `10 … 20` to its `x`-neighbour and
  `21 … 31` to its `y`-neighbour (the eight chunks it received from its `z`-neighbour, forwarded, and three chunks
  it received from the other neighbour). `tileOf c i` is the chunk transfer `i` of device `c` carries;
  `origin c j` the device out of whose input block chunk `j` of `c`'s result comes.
-/
import proofs.«900674_g7700000000000675_dist_ag_v7x_xyz2x2x2_z_m4096_n1024_f32_1_alg».proof.Proof.Gen.Kernel

namespace Cert.Kernel.AG

open Cert.Kernel Cert.Kernel.Gen Idealize.ShloMosaic

/-- The neighbour of `c` along an axis: `0` the `z` axis, `1` the `x` axis, `2` the `y` axis. -/
def peer (a : Fin 3) (c : Dev nD) : Dev nD :=
  match a with
  | 0 => ⟨c.val + 1 - 2 * (c.val % 2), by have : c.val < 8 := c.isLt; show _ < 8; omega⟩
  | 1 => ⟨c.val + 4 - 8 * (c.val / 4), by have : c.val < 8 := c.isLt; show _ < 8; omega⟩
  | 2 => ⟨c.val + 2 - 4 * (c.val / 2 % 2), by have : c.val < 8 := c.isLt; show _ < 8; omega⟩

theorem peer_peer : ∀ (a : Fin 3) (c : Dev nD), peer a (peer a c) = c := by decide
theorem peer_ne : ∀ (a : Fin 3) (c : Dev nD), peer a c ≠ c := by decide
theorem peer_inj : ∀ (a b : Fin 3) (c : Dev nD), peer a c = peer b c → a = b := by decide

/-- The axis transfer `i` goes along. -/
def ax (i : Fin 32) : Fin 3 := if i.val < 10 then 0 else if i.val < 21 then 1 else 2

/-- The transfers along axis `a`. -/
def sends (a : Fin 3) : Finset (Fin 32) := Finset.univ.filter fun i => ax i = a

/-- The chunk (of the receiver's other half) that transfer `i` of device `c` carries. -/
def tileOf (c : Dev nD) (i : Fin 32) : Fin 32 :=
  let qm := c.val / 2
  ⟨(if i.val < 8 then 8 * qm + i.val                                   -- z: own quarter, chunk i
    else if i.val < 10 then 8 * (3 - qm) + 6 + (i.val - 8)             -- z: diagonal quarter, chunks 6, 7
    else if i.val < 18 then 8 * qm + (i.val - 10)                      -- x: own quarter, forwarded
    else if i.val < 21 then 8 * (qm + 1 - 2 * (qm % 2)) + (i.val - 18) -- x: the y-neighbour's quarter, chunks 0 … 2
    else if i.val < 29 then 8 * qm + (i.val - 21)                      -- y: own quarter, forwarded
    else 8 * ((qm + 2) % 4) + 3 + (i.val - 29)) % 32,                  -- y: the x-neighbour's quarter, chunks 3 … 5
   Nat.mod_lt _ (by decide)⟩

/-- The chunk of the sender's INPUT block a `z` transfer (`i < 10`) reads: the same number (quarter and chunk). -/
abbrev xtileOf (c : Dev nD) (i : Fin 32) : Fin 32 := tileOf c i

/-- The transfer of the neighbour that fills chunk `j` of device `c`'s other half, with its axis. -/
theorem filled : ∀ (c : Dev nD) (j : Fin 32), ∃ i : Fin 32, tileOf (peer (ax i) c) i = j := by decide

/-- Each chunk is filled once: a device's incoming transfers carry different chunks. -/
theorem tileOf_in_inj : ∀ (c : Dev nD) (i i' : Fin 32), tileOf (peer (ax i) c) i = tileOf (peer (ax i') c) i' → i = i' := by decide

/-- A device's outgoing transfers along one axis carry different chunks. -/
theorem tileOf_out_inj : ∀ (c : Dev nD) (i i' : Fin 32), ax i = ax i' → tileOf c i = tileOf c i' → i = i' := by decide

/-- The device out of whose input block chunk `j` of device `c`'s other half comes: by the quarter `j / 8` relative to
    `c`'s own — its own quarter straight from the `z`-neighbour; the `y`- (the `x`-) neighbour's quarter from that
    neighbour's `z`-neighbour; the diagonal quarter's chunks 0 … 5 from the diagonal device's `z`-neighbour, its chunks
    6, 7 straight from the `z`-neighbour. -/
def origin (c : Dev nD) (j : Fin 32) : Dev nD :=
  let ρ := (j.val / 8) ^^^ (c.val / 2)
  if ρ = 0 then peer 0 c
  else if ρ = 1 then peer 0 (peer 2 c)
  else if ρ = 2 then peer 0 (peer 1 c)
  else if j.val % 8 < 6 then peer 0 (peer 1 (peer 2 c)) else peer 0 c

/-- A `z` transfer reads the sender's own input block. -/
theorem origin_z : ∀ (c : Dev nD) (i : Fin 32), ax i = 0 → origin (peer 0 c) (tileOf c i) = c := by decide
/-- A forwarded chunk keeps its origin. -/
theorem origin_fwd : ∀ (c : Dev nD) (i : Fin 32), ax i ≠ 0 → origin (peer (ax i) c) (tileOf c i) = origin c (tileOf c i) := by decide
/-- Every chunk of the other half comes out of a block of the other `z`. -/
theorem origin_z_coord : ∀ (c : Dev nD) (j : Fin 32), (origin c j).val % 2 = 1 - c.val % 2 := by decide
/-- The `z`-neighbour has the other `z`, the `x`- and `y`-neighbours the same. -/
theorem peer_z_coord : ∀ (a : Fin 3) (c : Dev nD), (peer a c).val % 2 = if a = 0 then 1 - c.val % 2 else c.val % 2 := by decide

end Cert.Kernel.AG
-- ==== Proof.KernelAG.Region.lean ====
/-
  The buffers of one device cut into the pieces the transfers move, and what the result holds.

  The result array `main_v1` (8192 rows) of device `c` is its own half — rows `4096 z … 4096 z + 4095`, the local copy's
  destination — and the 32 chunks of 128 rows of the other half, chunk `j` at rows `4096 (1 - z) + 128 j …`. The input
  block `main_arg0` (4096 rows) is 32 chunks of 128 rows. `W c` is what device `c`'s result holds at the end: on its
  own half its input block, on chunk `j` of the other half rows `128 j …` of the input block of `origin c j`.
-/
import proofs.«900674_g7700000000000675_dist_ag_v7x_xyz2x2x2_z_m4096_n1024_f32_1_alg».proof.Proof.KernelAG.Mesh
import Idealize.ShloMosaic.Lib.Pipeline.Launch
import Idealize.ShloMosaic.Lib.Pipeline.Kit
import Idealize.ShloMosaic.Lib.Pipeline.Value
import Idealize.ShloMosaic.Lib.ValueIdx

noncomputable section

namespace Cert.Kernel.AG

open Cert.Kernel Cert.Kernel.Gen
open Idealize.ShloMosaic Idealize.ShloMosaic.TcCoe
open Idealize.SL Idealize.SL.Sem

variable {F : FTy → Type} [FloatOps F]

/-- The two arrays, whole. -/
abbrev xinM : Memref sig .tc .hbm S4096x1024 .f32 := Memref.whole main_arg0
abbrev outM : Memref sig .tc .hbm S8192x1024 .f32 := Memref.whole main_v1

/-- First row and column of chunk `j` of an input block; of chunk `j` of device `c`'s other half; of its own half. -/
def xOff (j : Fin 32) : Fin 2 → Nat := ![128 * j.val, 0]
def oOff (c : Dev nD) (j : Fin 32) : Fin 2 → Nat := ![4096 * (1 - c.val % 2) + 128 * j.val, 0]
def hOff (c : Dev nD) : Fin 2 → Nat := ![4096 * (c.val % 2), 0]

theorem xOff_inb (j : Fin 32) : ∀ a, xOff j a + S128x1024.size a ≤ S4096x1024.size a := by
  intro a; have := j.isLt; fin_cases a <;> simp [xOff, Shape.size] <;> omega
theorem oOff_inb (c : Dev nD) (j : Fin 32) : ∀ a, oOff c j a + S128x1024.size a ≤ S8192x1024.size a := by
  intro a; have := j.isLt; fin_cases a <;> simp [oOff, Shape.size] <;> omega
theorem hOff_inb (c : Dev nD) : ∀ a, hOff c a + S4096x1024.size a ≤ S8192x1024.size a := by
  intro a; fin_cases a <;> simp [hOff, Shape.size] <;> omega

/-- Chunk `j` of the input block; chunk `j` of device `c`'s other half; its own half: as memrefs. -/
abbrev xS (j : Fin 32) : Memref sig .tc .hbm S128x1024 .f32 :=
  xinM.slice (Rect.unit (s := S4096x1024) (xOff j) S128x1024.size (xOff_inb j)) (fun _ => rfl)
abbrev oS (c : Dev nD) (j : Fin 32) : Memref sig .tc .hbm S128x1024 .f32 :=
  outM.slice (Rect.unit (s := S8192x1024) (oOff c j) S128x1024.size (oOff_inb c j)) (fun _ => rfl)
abbrev oH (c : Dev nD) : Memref sig .tc .hbm S4096x1024 .f32 :=
  outM.slice (Rect.unit (s := S8192x1024) (hOff c) S4096x1024.size (hOff_inb c)) (fun _ => rfl)

/-- The elements under them. -/
abbrev xK (j : Fin 32) : Finset S4096x1024.Idx := (xS j).view.set
abbrev oK (c : Dev nD) (j : Fin 32) : Finset S8192x1024.Idx := (oS c j).view.set
abbrev hK (c : Dev nD) : Finset S8192x1024.Idx := (oH c).view.set

variable (m : (ℓ : Loc nD τ sig) → Buf (Elt F) ℓ)

/-- Device `c`'s input block and result array as launched. -/
abbrev X (c : Dev nD) : Buf (Elt F) ((c : Thread nD τ).loc main_arg0) := m ((c : Thread nD τ).loc main_arg0)
abbrev V0 (c : Dev nD) : Buf (Elt F) ((c : Thread nD τ).loc main_v1) := m ((c : Thread nD τ).loc main_v1)

/-- Row `r` of the result array as a row of an input block: the row within its half. -/
def lo (i : S8192x1024.Idx) : S4096x1024.Idx :=
  ValueIdx.ix2 (⟨(i 0).val % 4096, Nat.mod_lt _ (by decide)⟩ : Fin 4096) (⟨(i 1).val, (i 1).isLt⟩ : Fin 1024)

/-- The chunk (of its half) a row of the result array lies in. -/
def chunkOf (i : S8192x1024.Idx) : Fin 32 := ⟨(i 0).val % 4096 / 128, by have := Nat.mod_lt (i 0).val (show 0 < 4096 by decide); omega⟩

/-- What device `c`'s result array holds at the end. -/
def W (c : Dev nD) : Buf (Elt F) ((c : Thread nD τ).loc main_v1) := fun i =>
  if (i 0).val / 4096 = c.val % 2 then X m c (lo i) else X m (origin c (chunkOf i)) (lo i)

end Cert.Kernel.AG

end
-- ==== Proof.KernelAG.Sched.lean ====
/-
  The protocol of the all-gather as a schedule of rounds (one round per semaphore cell).

  Every device has one barrier cell (the runtime's barrier semaphore), with three duties at round 0 — one unit from each
  of its three neighbours, whose signal hands over the chunks of the NEIGHBOUR's result array this device will write —
  and 65 DMA cells with one duty each: the send cell and the receive cell of each of its 32 addressed transfers and of
  the 32 transfers addressed to it, and the cell of its local copy. A receive cell's duty hands its owner the chunk
  that landed, holding what the result holds there at the end (`W`); a send cell's duty hands back the share of the
  source that was read; the local copy's the device's own half and the share of the input block it read.
-/
import proofs.«900674_g7700000000000675_dist_ag_v7x_xyz2x2x2_z_m4096_n1024_f32_1_alg».proof.Proof.KernelAG.Region
import Idealize.ShloMosaic.Lib.Tactic

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The runtime's barrier semaphore of collective id 0. -/
abbrev barS : Sem sig := (SemArray.scalar (sig.barrier 0 rfl) : Sems sig S_).sem

/-- The send and the receive semaphore of transfer `i` (on the sender, on the receiver), and the local copy's. -/
def sndSem (i : Fin 32) : DmaSem sig :=
  ⟨if i.val < 10 then i.val else if i.val < 21 then i.val + 10 else i.val + 21, by have := i.isLt; show _ < 65; split_ifs <;> omega⟩
def rcvSem (i : Fin 32) : DmaSem sig :=
  ⟨if i.val < 10 then i.val + 10 else if i.val < 21 then i.val + 21 else i.val + 32, by have := i.isLt; show _ < 65; split_ifs <;> omega⟩
def locSem : DmaSem sig := ⟨64, by show _ < 65; omega⟩

abbrev barCell (c : Dev nD) : GSem nD τ sig := ((c : Thread nD τ), .reg barS)
abbrev dCell (c : Dev nD) (q : DmaSem sig) : GSem nD τ sig := ((c : Thread nD τ), .dma q)

/-- What a DMA semaphore is for. -/
inductive Role where
  | snd (i : Fin 32)
  | rcv (i : Fin 32)
  | loc
deriving DecidableEq

def roleOf (q : DmaSem sig) : Role :=
  if h0 : q.val < 10 then .snd ⟨q.val, by omega⟩
  else if h1 : q.val < 20 then .rcv ⟨q.val - 10, by omega⟩
  else if h2 : q.val < 31 then .snd ⟨q.val - 10, by omega⟩
  else if h3 : q.val < 42 then .rcv ⟨q.val - 21, by omega⟩
  else if h4 : q.val < 53 then .snd ⟨q.val - 21, by omega⟩
  else if h5 : q.val < 64 then .rcv ⟨q.val - 32, by omega⟩
  else .loc

theorem roleOf_snd : ∀ i : Fin 32, roleOf (sndSem i) = .snd i := by decide
theorem roleOf_rcv : ∀ i : Fin 32, roleOf (rcvSem i) = .rcv i := by decide
theorem roleOf_loc : roleOf locSem = .loc := by decide

/-- The credit of a chunk transfer and of the local copy. -/
abbrev NC : ℕ := (oS (0 : Dev nD) (0 : Fin 32)).view.dmaCredit
abbrev NL : ℕ := (oH (0 : Dev nD)).view.dmaCredit
theorem NC_pos : 0 < NC := View.dmaCredit_pos _ (by decide)
theorem NL_pos : 0 < NL := View.dmaCredit_pos _ (by decide)

/-! ## The payloads -/

/-- The share of its source a forwarding transfer reads: a chunk forwarded to both plane neighbours is read at a half
    share by each, a chunk forwarded once whole. -/
def shr (i : Fin 32) : PosShare TreeShare :=
  if i.val < 18 then fullShare.left else if i.val < 21 then fullShare else if i.val < 29 then fullShare.right else fullShare

/-- Chunk `t` of the other half of device `p`'s result, at share `q` and contents `f`; chunk `t` of its input block; its
    own half; its input block whole. (Spelt through the memrefs' views, as the transfer rules spell their ends.) -/
def chunkAt (p : Dev nD) (t : Fin 32) (q : PosShare TreeShare) (f : Buf (Elt F) ((p : Thread nD τ).loc main_v1)) : sProp 𝕄 :=
  ((oS p t).view.loc (p : Thread nD τ) ↦[(oS p t).view.set]{q} f)
def xchunkAt (p : Dev nD) (t : Fin 32) (q : PosShare TreeShare) (f : Buf (Elt F) ((p : Thread nD τ).loc main_arg0)) : sProp 𝕄 :=
  ((xS t).view.loc (p : Thread nD τ) ↦[(xS t).view.set]{q} f)
def halfAt (p : Dev nD) (q : PosShare TreeShare) (f : Buf (Elt F) ((p : Thread nD τ).loc main_v1)) : sProp 𝕄 :=
  ((oH p).view.loc (p : Thread nD τ) ↦[(oH p).view.set]{q} f)
def xinAt (p : Dev nD) (q : PosShare TreeShare) (f : Buf (Elt F) ((p : Thread nD τ).loc main_arg0)) : sProp 𝕄 :=
  ((xinM).view.loc (p : Thread nD τ) ↦[(xinM).view.set]{q} f)

/-- What transfer `i`'s send cell hands its owner `c`: the share of the source it read. -/
def sndPay (c : Dev nD) (i : Fin 32) : sProp 𝕄 :=
  if i.val < 10 then xchunkAt c (tileOf c i) fullShare.right (X m c) else chunkAt c (tileOf c i) (shr i) (W m c)

/-- What transfer `i`'s receive cell hands its owner `c`: the chunk its neighbour wrote, holding the result's values. -/
def rcvPay (c : Dev nD) (i : Fin 32) : sProp 𝕄 := chunkAt c (tileOf (peer (ax i) c) i) fullShare (W m c)

/-- What the local copy's cell hands its owner: its own half, written, and the share of the input block it read. -/
def locPay (c : Dev nD) : sProp 𝕄 := iprop(halfAt c fullShare (W m c) ∗ xinAt c fullShare.left (X m c))

/-- What the neighbour along axis `a` hands `c` with its barrier signal: the chunks of ITS result array `c` will write. -/
def barPay (c : Dev nD) (a : Fin 3) : sProp 𝕄 :=
  bigSep (sends a) fun i => chunkAt (peer a c) (tileOf c i) fullShare (V0 m (peer a c))

/-! ## The schedule -/

def agRd : Rounds.Schedule (GSem nD τ sig) (Fin 3) 𝕄 where
  duties g r :=
    if r = 0 ∧ g.1.2 = .tc then
      (match g.2 with
        | .reg _ => Finset.univ
        | .dma _ => {0})
    else ∅
  unitless _ := False
  amount g _ _ :=
    match g.2 with
    | .reg _ => 1
    | .dma q => if q = locSem then NL else NC
  payload g _ d :=
    match g.2 with
    | .reg _ => barPay m g.1.1 d
    | .dma q =>
      match roleOf q with
      | .snd i => sndPay m g.1.1 i
      | .rcv i => rcvPay m g.1.1 i
      | .loc => locPay m g.1.1
  amount_pos g _ _ _ := by
    cases g.2 with
    | reg _ => exact Nat.one_pos
    | dma q => dsimp only; split_ifs; exact NL_pos; exact NC_pos

/-! ## What each device owes at launch, in the order it pays; the levels -/

/-- The order in which a device starts its 32 addressed transfers. -/
def payOrder : List (Fin 32) := [0, 1, 2, 3, 4, 5, 6, 7, 8, 9, 10, 21, 11, 22, 12, 23, 13, 24, 14, 25, 15, 26, 16, 27, 17, 28, 18, 19, 20, 29, 30, 31]

/-- The cells a device pays, in program order, with the amounts: its three neighbours' barrier cells, then the
    receive cells of its transfers. -/
def pays (c : Dev nD) : List (GSem nD τ sig × ℕ) :=
  (barCell (peer 0 c), 1) :: (barCell (peer 1 c), 1) :: (barCell (peer 2 c), 1) ::
    payOrder.map fun i => (dCell (peer (ax i) c) (rcvSem i), NC)

/-- What is owed for a list of payments still to make: summed so that the next payment is the last summand. -/
def owedL : List (GSem nD τ sig × ℕ) → CellTallies nD τ sig Unit
  | [] => 0
  | p :: ps => owedL ps + tallyAt p.1 () p.2

/-- What device `c` still owes after its first `n` payments. -/
def owedAfter (c : Dev nD) (n : ℕ) : CellTallies nD τ sig Unit := owedL ((pays c).drop n)

def O₀ (c : Dev nD) : CellTallies nD τ sig Unit := owedAfter c 0

def Lv (g : GSem nD τ sig) : Finset Unit := if g.1.2 = .tc then {()} else ∅

/-- The level of transfer `i`'s receive cell: the `z` receive cells lowest, then the `y` and the `x` receive cells of the
    forwarded own-quarter chunks, the receive cells of the last three transfers of each plane axis highest. -/
def lvR (i : Fin 32) : ℕ :=
  if i.val < 10 then 2 else if i.val < 18 then 4 else if i.val < 21 then 5 else if i.val < 29 then 3 else 5

/-- The barrier cells at 1; receive cells by `lvR`; send cells and the local copy's cell at 0. -/
def lv (g : GSem nD τ sig) (_ : Unit) : ℕ :=
  match g.2 with
  | .reg _ => 1
  | .dma q => match roleOf q with | .rcv i => lvR i | _ => 0

/-! ## The ghost state and the body's invariant -/

/-- Every cell of every device, as the launch names their invariants: the barrier cell (`none`) and the DMA cells. -/
abbrev CellIx : Type := Dev nD × Option (DmaSem sig)
abbrev csem : Option (DmaSem sig) → SemLoc sig | none => .reg barS | some q => .dma q
abbrev kcell (ck : CellIx) : GSem nD τ sig := ((ck.1 : Thread nD τ), csem ck.2)

/-- The persistent part: every cell's invariant, and that every cell has reached round 0. -/
def records (K : CellIx → ℕ) : sProp 𝕄 :=
  iprop((bigSep Finset.univ fun ck : CellIx => cellInv ER (agRd m) (K ck) (kcell ck))
    ∗ bigSep Finset.univ fun ck : CellIx => reached ER (kcell ck) 0)

instance records_persistent (K : CellIx → ℕ) : BI.Persistent (records m K) := by unfold records; infer_instance

/-- The tokens of the duties device `c` pays: its neighbours' barrier duties, its transfers' send and receive duties,
    its local copy's. -/
def payToks (c : Dev nD) : sProp 𝕄 :=
  iprop((bigSep Finset.univ fun a : Fin 3 => dutyTok ER (barCell (peer a c)) 0 a)
    ∗ (bigSep Finset.univ fun i : Fin 32 => iprop(dutyTok ER (dCell c (sndSem i)) 0 (0 : Fin 3) ∗ dutyTok ER (dCell (peer (ax i) c) (rcvSem i)) 0 (0 : Fin 3)))
    ∗ dutyTok ER (dCell c locSem) 0 (0 : Fin 3))

/-- Its positions: at round 0 of each of its cells. -/
def positions (c : Dev nD) : sProp 𝕄 :=
  iprop(atPos ER (barCell c) 0 ∅ 0 ∗ bigSep Finset.univ fun q : DmaSem sig => atPos ER (dCell c q) 0 ∅ 0)

/-- The credit the launch deals device `c`: three units on its barrier cell, a chunk's credit on each receive cell. -/
def launchCreds (c : Dev nD) : sProp 𝕄 :=
  iprop(cred (tallyAt (barCell c) () 3) ∗ bigSep Finset.univ fun i : Fin 32 => cred (tallyAt (dCell c (rcvSem i)) () NC))

/-- What device `c`'s body starts from, beside its two arrays. -/
def start (c : Dev nD) : sProp 𝕄 :=
  iprop((∃ K, iprop(records m K ∗ positions c ∗ payToks c)) ∗ launchCreds c ∗ levAts Lv lv)

/-- Before the body: that and the two arrays whole, as launched. -/
def Φ₀ (c : Dev nD) : sProp 𝕄 :=
  iprop(start m c
    ∗ (((c : Thread nD τ).loc main_arg0) ↦{fullShare} X m c)
    ∗ (((c : Thread nD τ).loc main_v1) ↦{fullShare} V0 m c))

/-- After it: the input block as it was, the result at `W`, the 65 own DMA semaphores at zero (their cells closed). -/
def Φ₁ (c : Dev nD) : sProp 𝕄 :=
  iprop((((c : Thread nD τ).loc main_arg0) ↦{fullShare} X m c)
    ∗ (((c : Thread nD τ).loc main_v1) ↦{fullShare} W m c)
    ∗ bigSep Finset.univ fun q : DmaSem sig => semVal (dCell c q) 0)

/-- The pipeline's proof data: no window; the invariant before and after the one point; what is owed. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.KernelAG.Tables.lean ====
/-
  The schedule's tables read entry by entry, and the level facts each wait needs.
-/
import proofs.«900674_g7700000000000675_dist_ag_v7x_xyz2x2x2_z_m4096_n1024_f32_1_alg».proof.Proof.KernelAG.Sched

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Duties, amounts, expected totals, payloads -/

/-- A send or a receive semaphore is not the local copy's: their roles differ. -/
theorem sndSem_ne_loc (i : Fin 32) : sndSem i ≠ locSem := fun h => by
  have e := roleOf_snd i; rw [h, roleOf_loc] at e; cases e
theorem rcvSem_ne_loc (i : Fin 32) : rcvSem i ≠ locSem := fun h => by
  have e := roleOf_rcv i; rw [h, roleOf_loc] at e; cases e

omit [FloatOps F] in
theorem duties_bar (c : Dev nD) : (agRd (F := F) m).duties (barCell c) 0 = Finset.univ := by
  dsimp only [agRd]; exact if_pos ⟨rfl, rfl⟩
omit [FloatOps F] in
theorem duties_dma (c : Dev nD) (q : DmaSem sig) : (agRd (F := F) m).duties (dCell c q) 0 = {0} := by
  dsimp only [agRd]; exact if_pos ⟨rfl, rfl⟩
omit [FloatOps F] in
theorem duties_later (g : GSem nD τ sig) : ∀ r, 1 ≤ r → (agRd (F := F) m).duties g r = ∅ :=
  fun r hr => by dsimp only [agRd]; exact if_neg fun h => by omega

omit [FloatOps F] in
theorem amount_bar (c : Dev nD) (d : Fin 3) : (agRd (F := F) m).amount (barCell c) 0 d = 1 := rfl
omit [FloatOps F] in
theorem amount_snd (c : Dev nD) (i : Fin 32) (d : Fin 3) : (agRd (F := F) m).amount (dCell c (sndSem i)) 0 d = NC := by
  dsimp only [agRd]; exact if_neg (sndSem_ne_loc i)
omit [FloatOps F] in
theorem amount_rcv (c : Dev nD) (i : Fin 32) (d : Fin 3) : (agRd (F := F) m).amount (dCell c (rcvSem i)) 0 d = NC := by
  dsimp only [agRd]; exact if_neg (rcvSem_ne_loc i)
omit [FloatOps F] in
theorem amount_loc (c : Dev nD) (d : Fin 3) : (agRd (F := F) m).amount (dCell c locSem) 0 d = NL := by
  dsimp only [agRd]; exact if_pos rfl

omit [FloatOps F] in
theorem expect_bar (c : Dev nD) : (agRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_snd (c : Dev nD) (i : Fin 32) : (agRd (F := F) m).expect (dCell c (sndSem i)) 0 = NC := by
  unfold Schedule.expect Schedule.amountOf; rw [duties_dma, Finset.sum_singleton, amount_snd]
omit [FloatOps F] in
theorem expect_rcv (c : Dev nD) (i : Fin 32) : (agRd (F := F) m).expect (dCell c (rcvSem i)) 0 = NC := by
  unfold Schedule.expect Schedule.amountOf; rw [duties_dma, Finset.sum_singleton, amount_rcv]
omit [FloatOps F] in
/-- A DMA cell's one duty makes its whole round. -/
theorem expect_dma (c : Dev nD) (q : DmaSem sig) : (agRd (F := F) m).expect (dCell c q) 0 = (agRd (F := F) m).amount (dCell c q) 0 0 := by
  unfold Schedule.expect Schedule.amountOf; rw [duties_dma, Finset.sum_singleton]
omit [FloatOps F] in
theorem expect_loc (c : Dev nD) : (agRd (F := F) m).expect (dCell c locSem) 0 = NL :=
  (expect_dma m c locSem).trans (amount_loc m c 0)

omit [FloatOps F] in
theorem payload_bar (c : Dev nD) (a : Fin 3) : (agRd (F := F) m).payload (barCell c) 0 a = barPay m c a := rfl
omit [FloatOps F] in
theorem payload_snd (c : Dev nD) (i : Fin 32) (d : Fin 3) : (agRd (F := F) m).payload (dCell c (sndSem i)) 0 d = sndPay m c i := by
  dsimp only [agRd]; rw [roleOf_snd]
omit [FloatOps F] in
theorem payload_rcv (c : Dev nD) (i : Fin 32) (d : Fin 3) : (agRd (F := F) m).payload (dCell c (rcvSem i)) 0 d = rcvPay m c i := by
  dsimp only [agRd]; rw [roleOf_rcv]
omit [FloatOps F] in
theorem payload_loc (c : Dev nD) (d : Fin 3) : (agRd (F := F) m).payload (dCell c locSem) 0 d = locPay m c := by
  dsimp only [agRd]; rw [roleOf_loc]

/-! The four kinds of piece are points-tos, hence storable; so are the payloads made of them. -/

omit [FloatOps F] in
instance chunkAt_storable (p : Dev nD) (t : Fin 32) (q : PosShare TreeShare) (f : Buf (Elt F) ((p : Thread nD τ).loc main_v1)) :
    BI.Storable (upEmb : UEmb _ 𝕄) (chunkAt (F := F) p t q f) := by unfold chunkAt; infer_instance
omit [FloatOps F] in
instance xchunkAt_storable (p : Dev nD) (t : Fin 32) (q : PosShare TreeShare) (f : Buf (Elt F) ((p : Thread nD τ).loc main_arg0)) :
    BI.Storable (upEmb : UEmb _ 𝕄) (xchunkAt (F := F) p t q f) := by unfold xchunkAt; infer_instance
omit [FloatOps F] in
instance halfAt_storable (p : Dev nD) (q : PosShare TreeShare) (f : Buf (Elt F) ((p : Thread nD τ).loc main_v1)) :
    BI.Storable (upEmb : UEmb _ 𝕄) (halfAt (F := F) p q f) := by unfold halfAt; infer_instance
omit [FloatOps F] in
instance xinAt_storable (p : Dev nD) (q : PosShare TreeShare) (f : Buf (Elt F) ((p : Thread nD τ).loc main_arg0)) :
    BI.Storable (upEmb : UEmb _ 𝕄) (xinAt (F := F) p q f) := by unfold xinAt; infer_instance

omit [FloatOps F] in
instance sndPay_storable (c : Dev nD) (i : Fin 32) : BI.Storable (upEmb : UEmb _ 𝕄) (sndPay (F := F) m c i) := by
  unfold sndPay; split <;> infer_instance
omit [FloatOps F] in
instance rcvPay_storable (c : Dev nD) (i : Fin 32) : BI.Storable (upEmb : UEmb _ 𝕄) (rcvPay (F := F) m c i) := by
  unfold rcvPay; infer_instance
omit [FloatOps F] in
instance locPay_storable (c : Dev nD) : BI.Storable (upEmb : UEmb _ 𝕄) (locPay (F := F) m c) := by
  unfold locPay; infer_instance
omit [FloatOps F] in
instance barPay_storable (c : Dev nD) (a : Fin 3) : BI.Storable (upEmb : UEmb _ 𝕄) (barPay (F := F) m c a) := by
  unfold barPay; infer_instance

/-- Every payload is storable (the rounds library's cell invariant keeps landed payloads). -/
instance agRd_payload_storable (g : GSem nD τ sig) (r : ℕ) (d : Fin 3) :
    BI.Storable (upEmb : UEmb _ 𝕄) ((agRd (F := F) m).payload g r d) := by
  obtain ⟨⟨dv, p⟩, sm⟩ := g
  cases sm with
  | reg s => exact barPay_storable m dv d
  | dma q =>
    dsimp only [agRd]
    split
    · exact sndPay_storable m dv _
    · exact rcvPay_storable m dv _
    · exact locPay_storable m dv

omit [FloatOps F] in
/-- The rest of a cell's one round with no duty taken yet: the three neighbours' chunks; the one payload. -/
theorem rest_bar (c : Dev nD) :
    bigSep ((agRd (F := F) m).duties (barCell c) 0 \ ∅) (fun d => (agRd (F := F) m).payload (barCell c) 0 d)
      = iprop(barPay m c 0 ∗ barPay m c 1 ∗ barPay m c 2) := by
  rw [Finset.sdiff_empty, duties_bar, bigSep_univ_eq_bigSepL ([0, 1, 2] : List (Fin 3)) (by decide) (by decide), bigSepL_cons_cons, bigSepL_cons_cons,
    bigSepL_singleton, payload_bar, payload_bar, payload_bar]
  rfl
omit [FloatOps F] in
theorem rest_snd (c : Dev nD) (i : Fin 32) :
    bigSep ((agRd (F := F) m).duties (dCell c (sndSem i)) 0 \ ∅) (fun d => (agRd (F := F) m).payload (dCell c (sndSem i)) 0 d) = sndPay m c i := by
  rw [Finset.sdiff_empty, duties_dma, bigSep_singleton, payload_snd]
omit [FloatOps F] in
theorem rest_rcv (c : Dev nD) (i : Fin 32) :
    bigSep ((agRd (F := F) m).duties (dCell c (rcvSem i)) 0 \ ∅) (fun d => (agRd (F := F) m).payload (dCell c (rcvSem i)) 0 d) = rcvPay m c i := by
  rw [Finset.sdiff_empty, duties_dma, bigSep_singleton, payload_rcv]
omit [FloatOps F] in
theorem rest_loc (c : Dev nD) :
    bigSep ((agRd (F := F) m).duties (dCell c locSem) 0 \ ∅) (fun d => (agRd (F := F) m).payload (dCell c locSem) 0 d) = locPay m c := by
  rw [Finset.sdiff_empty, duties_dma, bigSep_singleton, payload_loc]

/-! ## Levels -/

omit [FloatOps F] in
theorem Lv_of_ne (g : GSem nD τ sig) (h : g.1.2 ≠ .tc) : Lv g = ∅ := if_neg h
omit [FloatOps F] in
theorem Lv_tc (c : Dev nD) (sm : SemLoc sig) : Lv ((c : Thread nD τ), sm) = {()} := if_pos rfl

/-- The level of a barrier cell is 1, of a receive cell its transfer's. -/
theorem lv_bar (c : Dev nD) (u : Unit) : lv (barCell c) u = 1 := rfl
theorem lv_rcv (c : Dev nD) (j : Fin 32) (u : Unit) : lv (dCell c (rcvSem j)) u = lvR j := by
  dsimp only [lv]; rw [roleOf_rcv]

/-- Every receive cell lies above the barrier cells. -/
theorem one_lt_lvR : ∀ j : Fin 32, 1 < lvR j := by decide

/-- A positive tally of what is owed for a list of payments names one of the list's cells. -/
theorem owedL_pos {l : List (GSem nD τ sig × ℕ)} {g : GSem nD τ sig} {u : Unit} (h : 0 < owedL l g u) : ∃ p ∈ l, g = p.1 := by
  induction l with
  | nil => exact absurd h (Nat.lt_irrefl 0)
  | cons p ps ih =>
    rw [show owedL (p :: ps) = owedL ps + tallyAt p.1 () p.2 from rfl, Pi.add_apply, Finsupp.add_apply, tallyAt_apply] at h
    by_cases hg : g = p.1 ∧ u = ()
    · exact ⟨p, List.mem_cons_self, hg.1⟩
    · rw [if_neg hg, add_zero] at h
      obtain ⟨p', hp', e⟩ := ih h
      exact ⟨p', List.mem_cons_of_mem _ hp', e⟩

/-- After its three barrier signals a device owes the receive cells of the transfers it has not started, nothing else. -/
theorem owedAfter_pos {c : Dev nD} {n : ℕ} (hn : 3 ≤ n) {g : GSem nD τ sig} {u : Unit} (h : 0 < owedAfter c n g u) :
    ∃ j ∈ payOrder.drop (n - 3), g = dCell (peer (ax j) c) (rcvSem j) := by
  obtain ⟨k, rfl⟩ : ∃ k, n = k + 3 := ⟨n - 3, by omega⟩
  have e : (pays c).drop (k + 3) = (payOrder.drop k).map fun i => (dCell (peer (ax i) c) (rcvSem i), NC) := by
    rw [List.map_drop]; rfl
  unfold owedAfter at h
  rw [e] at h
  obtain ⟨p, hp, rfl⟩ := owedL_pos h
  obtain ⟨j, hj, rfl⟩ := List.mem_map.mp hp
  exact ⟨j, by rwa [Nat.add_sub_cancel], rfl⟩

/-- At its barrier wait (three payments made) a device owes receive cells only, all above the barrier cells. -/
theorem mayWait_bar (c : Dev nD) :
    (levAts Lv lv : sProp 𝕄) ⊢ MayWait (c : Thread nD τ) (.reg barS) () (owedAfter c 3) :=
  MayOwe.of_cut (L := Lv) (lev := lv) 1
    (fun p hp => by rw [Finset.mem_singleton.mp hp, Lv_tc]; exact Finset.mem_singleton_self _)
    (fun g u hg => by obtain ⟨j, hj, rfl⟩ := owedAfter_pos (le_refl 3) hg; rw [Lv_tc]; exact Finset.mem_singleton_self _)
    (fun p hp => by rw [Finset.mem_singleton.mp hp]; exact (lv_bar c ()).le)
    (fun g u hg => by obtain ⟨j, hj, rfl⟩ := owedAfter_pos (le_refl 3) hg; rw [lv_rcv]; exact one_lt_lvR j)

/-- At the wait on transfer `i`'s receive cell after `n ≥ 3` payments, when every transfer not yet started has its
    receive cell above `i`'s. -/
theorem mayWait_rcv (c : Dev nD) (i : Fin 32) (n : ℕ) (hn : 3 ≤ n) (h : ∀ p ∈ payOrder.drop (n - 3), lvR i < lvR p) :
    (levAts Lv lv : sProp 𝕄) ⊢ MayWait (c : Thread nD τ) (.dma (rcvSem i)) () (owedAfter c n) :=
  MayOwe.of_cut (L := Lv) (lev := lv) (lvR i)
    (fun p hp => by rw [Finset.mem_singleton.mp hp, Lv_tc]; exact Finset.mem_singleton_self _)
    (fun g u hg => by obtain ⟨j, hj, rfl⟩ := owedAfter_pos hn hg; rw [Lv_tc]; exact Finset.mem_singleton_self _)
    (fun p hp => by rw [Finset.mem_singleton.mp hp]; exact (lv_rcv c i ()).le)
    (fun g u hg => by obtain ⟨j, hj, rfl⟩ := owedAfter_pos hn hg; rw [lv_rcv]; exact h j hj)

/-- After all 35 payments nothing is owed. -/
theorem owedAfter_all (c : Dev nD) : owedAfter c 35 = 0 := rfl

/-- Each payment peels the last summand. -/
theorem owedAfter_bar (c : Dev nD) (a : Fin 3) : owedAfter c a.val = owedAfter c (a.val + 1) + tallyAt (barCell (peer a c)) () 1 := by
  fin_cases a <;> rfl

/-- info: 'Cert.Kernel.AG.mayWait_rcv' depends on axioms: [propext, Classical.choice, Quot.sound] -/
#guard_msgs in #print axioms mayWait_rcv

end Cert.Kernel.AG

end
-- ==== Proof.KernelAG.Pieces.lean ====
/-
  The arrays cut into their pieces and put together again; the printed slices as those pieces; what a landing leaves.
-/
import proofs.«900674_g7700000000000675_dist_ag_v7x_xyz2x2x2_z_m4096_n1024_f32_1_alg».proof.Proof.KernelAG.Sched

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the arrays -/

/-- An index lies in a unit-stride rectangle of a rank-two shape when each of its two coordinates lies in the
    rectangle's span on that axis. -/
theorem mem_unit2 {n0 n1 : Nat} {off size : Fin 2 → Nat}
    {inb : ∀ a, off a + size a ≤ (⟨2, ![n0, n1]⟩ : Shape).size a} {i : (⟨2, ![n0, n1]⟩ : Shape).Idx} :
    i ∈ (Rect.unit (s := (⟨2, ![n0, n1]⟩ : Shape)) off size inb).set
      ↔ (off 0 ≤ (i 0).val ∧ (i 0).val < off 0 + size 0) ∧ (off 1 ≤ (i 1).val ∧ (i 1).val < off 1 + size 1) := by
  rw [Rect.mem_set_unit]; exact Fin.forall_fin_two

/-- The elements under a piece are the piece's rectangle. -/
theorem oK_eq (c : Dev nD) (j : Fin 32) :
    oK c j = (Rect.unit (s := S8192x1024) (oOff c j) S128x1024.size (oOff_inb c j)).set :=
  View.set_slice_whole main_v1 _
theorem hK_eq (c : Dev nD) :
    hK c = (Rect.unit (s := S8192x1024) (hOff c) S4096x1024.size (hOff_inb c)).set :=
  View.set_slice_whole main_v1 _
theorem xK_eq (j : Fin 32) :
    xK j = (Rect.unit (s := S4096x1024) (xOff j) S128x1024.size (xOff_inb j)).set :=
  View.set_slice_whole main_arg0 _

/-- A piece by its rows: every column belongs to it. -/
theorem mem_oK {c : Dev nD} {j : Fin 32} {i : S8192x1024.Idx} :
    i ∈ oK c j ↔ 4096 * (1 - c.val % 2) + 128 * j.val ≤ (i 0).val
      ∧ (i 0).val < 4096 * (1 - c.val % 2) + 128 * j.val + 128 := by
  have h1 := ValueIdx.idx2_lt1 i
  rw [oK_eq, mem_unit2]
  show (4096 * (1 - c.val % 2) + 128 * j.val ≤ (i 0).val ∧ (i 0).val < 4096 * (1 - c.val % 2) + 128 * j.val + 128)
    ∧ (0 ≤ (i 1).val ∧ (i 1).val < 0 + 1024) ↔ _
  constructor
  · rintro ⟨h, -⟩; exact h
  · intro h; exact ⟨h, by omega⟩
theorem mem_hK {c : Dev nD} {i : S8192x1024.Idx} :
    i ∈ hK c ↔ 4096 * (c.val % 2) ≤ (i 0).val ∧ (i 0).val < 4096 * (c.val % 2) + 4096 := by
  have h1 := ValueIdx.idx2_lt1 i
  rw [hK_eq, mem_unit2]
  show (4096 * (c.val % 2) ≤ (i 0).val ∧ (i 0).val < 4096 * (c.val % 2) + 4096)
    ∧ (0 ≤ (i 1).val ∧ (i 1).val < 0 + 1024) ↔ _
  constructor
  · rintro ⟨h, -⟩; exact h
  · intro h; exact ⟨h, by omega⟩
theorem mem_xK {j : Fin 32} {i : S4096x1024.Idx} :
    i ∈ xK j ↔ 128 * j.val ≤ (i 0).val ∧ (i 0).val < 128 * j.val + 128 := by
  have h1 := ValueIdx.idx2_lt1 i
  rw [xK_eq, mem_unit2]
  show (128 * j.val ≤ (i 0).val ∧ (i 0).val < 128 * j.val + 128)
    ∧ (0 ≤ (i 1).val ∧ (i 1).val < 0 + 1024) ↔ _
  constructor
  · rintro ⟨h, -⟩; exact h
  · intro h; exact ⟨h, by omega⟩

/-- The chunks of the other half and the own half are pairwise disjoint and cover the result array. -/
theorem oK_disjoint (c : Dev nD) (j j' : Fin 32) (h : j ≠ j') : Disjoint (oK c j) (oK c j') := by
  rw [Finset.disjoint_left]
  intro i hi hi'
  rw [mem_oK] at hi hi'
  have hne : j.val ≠ j'.val := fun e => h (Fin.ext e)
  omega
theorem oK_hK_disjoint (c : Dev nD) (j : Fin 32) : Disjoint (hK c) (oK c j) := by
  rw [Finset.disjoint_left]
  intro i hi hi'
  rw [mem_hK] at hi
  rw [mem_oK] at hi'
  have hj := j.isLt
  omega
theorem out_cover (c : Dev nD) : hK c ∪ Finset.univ.biUnion (oK c) = Finset.univ := by
  rw [Finset.eq_univ_iff_forall]
  intro i
  have h0 := ValueIdx.idx2_lt0 i
  rw [Finset.mem_union, Finset.mem_biUnion]
  by_cases hz : (i 0).val / 4096 = c.val % 2
  · left; rw [mem_hK]; omega
  · right
    refine ⟨chunkOf i, Finset.mem_univ _, mem_oK.mpr ?_⟩
    show 4096 * (1 - c.val % 2) + 128 * ((i 0).val % 4096 / 128) ≤ (i 0).val
      ∧ (i 0).val < 4096 * (1 - c.val % 2) + 128 * ((i 0).val % 4096 / 128) + 128
    omega
theorem xK_disjoint (j j' : Fin 32) (h : j ≠ j') : Disjoint (xK j) (xK j') := by
  rw [Finset.disjoint_left]
  intro i hi hi'
  rw [mem_xK] at hi hi'
  have hne : j.val ≠ j'.val := fun e => h (Fin.ext e)
  omega
theorem xin_cover : Finset.univ.biUnion xK = Finset.univ := by
  rw [Finset.eq_univ_iff_forall]
  intro i
  have h0 := ValueIdx.idx2_lt0 i
  rw [Finset.mem_biUnion]
  refine ⟨⟨(i 0).val / 128, by omega⟩, Finset.mem_univ _, mem_xK.mpr ?_⟩
  show 128 * ((i 0).val / 128) ≤ (i 0).val ∧ (i 0).val < 128 * ((i 0).val / 128) + 128
  omega

omit [FloatOps F] in
/-- The result array whole is its own half and the 32 chunks of the other half, at any contents and share. -/
theorem out_split (c : Dev nD) (q : PosShare TreeShare) (f : Buf (Elt F) ((c : Thread nD τ).loc main_v1)) :
    ((((c : Thread nD τ).loc main_v1) ↦{q} f : sProp 𝕄))
      ⊣⊢ iprop((((c : Thread nD τ).loc main_v1) ↦[hK c]{q} f) ∗ bigSep Finset.univ fun j : Fin 32 => (((c : Thread nD τ).loc main_v1) ↦[oK c j]{q} f)) := by
  have hdis : ∀ t ∈ (Finset.univ : Finset (Fin 32)), ∀ t' ∈ (Finset.univ : Finset (Fin 32)), t ≠ t' → Disjoint (oK c t) (oK c t') :=
    fun j _ j' _ h => oK_disjoint c j j' h
  have hb := pointsTo_biUnion (nD := nD) (τ := τ) (sig := sig) (Ix := Unit) (Val := Elt F) (Name := ℕ) (U := UU) (Lvl := ℕ)
    (ℓ := ((c : Thread nD τ).loc main_v1)) (q := q) (f := f) Finset.univ (oK c) hdis
  have hd : Disjoint (hK c) (Finset.univ.biUnion (oK c)) :=
    (Finset.disjoint_biUnion_right _ _ _).mpr fun j _ => oK_hK_disjoint c j
  have hu := pointsTo_union (nD := nD) (τ := τ) (sig := sig) (Ix := Unit) (Val := Elt F) (Name := ℕ) (U := UU) (Lvl := ℕ)
    (ℓ := ((c : Thread nD τ).loc main_v1)) (q := q) (f := f) hd
  have e : ((((c : Thread nD τ).loc main_v1) ↦{q} f : sProp 𝕄))
      = (((c : Thread nD τ).loc main_v1) ↦[hK c ∪ Finset.univ.biUnion (oK c)]{q} f) :=
    congrArg (fun S : Finset S8192x1024.Idx => ((((c : Thread nD τ).loc main_v1) ↦[S]{q} f : sProp 𝕄))) (out_cover c).symm
  rw [← hb, e]; exact hu

omit [FloatOps F] in
/-- The input block whole is its 32 chunks. -/
theorem xin_split (c : Dev nD) (q : PosShare TreeShare) (f : Buf (Elt F) ((c : Thread nD τ).loc main_arg0)) :
    ((((c : Thread nD τ).loc main_arg0) ↦{q} f : sProp 𝕄))
      = bigSep Finset.univ fun j : Fin 32 => (((c : Thread nD τ).loc main_arg0) ↦[xK j]{q} f) := by
  have hdis : ∀ t ∈ (Finset.univ : Finset (Fin 32)), ∀ t' ∈ (Finset.univ : Finset (Fin 32)), t ≠ t' → Disjoint (xK t) (xK t') :=
    fun j _ j' _ h => xK_disjoint j j' h
  have hb := pointsTo_biUnion (nD := nD) (τ := τ) (sig := sig) (Ix := Unit) (Val := Elt F) (Name := ℕ) (U := UU) (Lvl := ℕ)
    (ℓ := ((c : Thread nD τ).loc main_arg0)) (q := q) (f := f) Finset.univ xK hdis
  rw [← hb]
  exact congrArg (fun S : Finset S4096x1024.Idx => ((((c : Thread nD τ).loc main_arg0) ↦[S]{q} f : sProp 𝕄))) xin_cover.symm

/-! ## The printed slices are these pieces: the printed offset chains in closed form, by transfer -/

/-- `z` transfers `0 … 7`: destination (in the neighbour's result) and source (in the own input block). -/
theorem off1_eq (c : Dev nD) (r : Fin 8) : k0_off1 c (BitVec.ofNat 32 (128 * r.val)) = oOff (peer 0 c) (tileOf c ⟨r.val, by omega⟩) := by
  rw [k0_off1_eq]; revert c r; decide
theorem off2_eq (c : Dev nD) (r : Fin 8) : k0_off2 c (BitVec.ofNat 32 (128 * r.val)) = xOff (tileOf c ⟨r.val, by omega⟩) := by
  rw [k0_off2_eq]; revert c r; decide
/-- `z` transfers `8, 9`. -/
theorem off3_eq (c : Dev nD) (r : Fin 2) : k0_off3 c (BitVec.ofNat 32 (768 + 128 * r.val)) = oOff (peer 0 c) (tileOf c ⟨8 + r.val, by omega⟩) := by
  rw [k0_off3_eq]; revert c r; decide
theorem off4_eq (c : Dev nD) (r : Fin 2) : k0_off4 c (BitVec.ofNat 32 (768 + 128 * r.val)) = xOff (tileOf c ⟨8 + r.val, by omega⟩) := by
  rw [k0_off4_eq]; revert c r; decide
/-- The local copy's destination: the own half. -/
theorem off5_eq (c : Dev nD) : k0_off5 c = hOff c := by
  rw [k0_off5_eq]; rfl
/-- The forwarded own-quarter chunks (transfers `10 + r` and `21 + r`): source in the own result, destination at the same
    rows of a plane neighbour's (which has the same `z`). -/
theorem off6_eq_x (c : Dev nD) (r : Fin 8) : k0_off6 c (BitVec.ofNat 32 (128 * r.val)) = oOff c (tileOf c ⟨10 + r.val, by omega⟩) := by
  rw [k0_off6_eq]; revert c r; decide
theorem off6_eq_y (c : Dev nD) (r : Fin 8) : k0_off6 c (BitVec.ofNat 32 (128 * r.val)) = oOff c (tileOf c ⟨21 + r.val, by omega⟩) := by
  rw [k0_off6_eq]; revert c r; decide
/-- Transfers `18 + r` (to the `x`-neighbour) and `29 + r` (to the `y`-neighbour). -/
theorem off7_eq (c : Dev nD) (r : Fin 3) : k0_off7 c (BitVec.ofNat 32 (128 * r.val)) = oOff c (tileOf c ⟨18 + r.val, by omega⟩) := by
  rw [k0_off7_eq]; revert c r; decide
theorem off8_eq (c : Dev nD) (r : Fin 3) : k0_off8 c (BitVec.ofNat 32 (384 + 128 * r.val)) = oOff c (tileOf c ⟨29 + r.val, by omega⟩) := by
  rw [k0_off8_eq]; revert c r; decide
/-- A plane neighbour's other half lies where one's own does. -/
theorem oOff_plane (c : Dev nD) (a : Fin 3) (ha : a ≠ 0) (j : Fin 32) : oOff (peer a c) j = oOff c j := by
  have h := peer_z_coord a c
  rw [if_neg ha] at h
  unfold oOff; rw [h]

/-- A slice of the result array (of the input block) through a unit rectangle at an offset equal to a chunk's IS that chunk's memref. -/
theorem outSlice_eq (c : Dev nD) (j : Fin 32) (off : Fin 2 → Nat) (inb : ∀ a, off a + S128x1024.size a ≤ S8192x1024.size a) (h : off = oOff c j) :
    outM.slice (Rect.unit (s := S8192x1024) off S128x1024.size inb) (fun _ => rfl) = oS c j := by
  subst h; rfl
theorem xinSlice_eq (j : Fin 32) (off : Fin 2 → Nat) (inb : ∀ a, off a + S128x1024.size a ≤ S4096x1024.size a) (h : off = xOff j) :
    xinM.slice (Rect.unit (s := S4096x1024) off S128x1024.size inb) (fun _ => rfl) = xS j := by
  subst h; rfl
theorem halfSlice_eq (c : Dev nD) (off : Fin 2 → Nat) (inb : ∀ a, off a + S4096x1024.size a ≤ S8192x1024.size a) (h : off = hOff c) :
    outM.slice (Rect.unit (s := S8192x1024) off S4096x1024.size inb) (fun _ => rfl) = oH c := by
  subst h; rfl

/-! ## What a landing leaves: the destination rewritten holds the result's values there -/

/-- Where the pieces' own indices sit in their arrays: a unit rectangle adds its offset, coordinate by coordinate. -/
theorem oS_emb0 (c : Dev nD) (j : Fin 32) (y : S128x1024.Idx) :
    (((oS c j).view.emb y : S8192x1024.Idx) 0).val = 4096 * (1 - c.val % 2) + 128 * j.val + (y 0).val := by
  show 4096 * (1 - c.val % 2) + 128 * j.val + 1 * (y 0).val = _
  rw [Nat.one_mul]
theorem oS_emb1 (c : Dev nD) (j : Fin 32) (y : S128x1024.Idx) :
    (((oS c j).view.emb y : S8192x1024.Idx) 1).val = (y 1).val := by
  show 0 + 1 * (y 1).val = _
  rw [Nat.one_mul, Nat.zero_add]
theorem xS_emb0 (j : Fin 32) (y : S128x1024.Idx) :
    (((xS j).view.emb y : S4096x1024.Idx) 0).val = 128 * j.val + (y 0).val := by
  show 128 * j.val + 1 * (y 0).val = _
  rw [Nat.one_mul]
theorem xS_emb1 (j : Fin 32) (y : S128x1024.Idx) :
    (((xS j).view.emb y : S4096x1024.Idx) 1).val = (y 1).val := by
  show 0 + 1 * (y 1).val = _
  rw [Nat.one_mul, Nat.zero_add]
theorem oH_emb0 (c : Dev nD) (y : S4096x1024.Idx) :
    (((oH c).view.emb y : S8192x1024.Idx) 0).val = 4096 * (c.val % 2) + (y 0).val := by
  show 4096 * (c.val % 2) + 1 * (y 0).val = _
  rw [Nat.one_mul]
theorem oH_emb1 (c : Dev nD) (y : S4096x1024.Idx) :
    (((oH c).view.emb y : S8192x1024.Idx) 1).val = (y 1).val := by
  show 0 + 1 * (y 1).val = _
  rw [Nat.one_mul, Nat.zero_add]

/-- Two indices of a rank-two shape with the same coordinates are equal. -/
theorem idx2_ext {n0 n1 : Nat} {i i' : (⟨2, ![n0, n1]⟩ : Shape).Idx} (h0 : (i 0).val = (i' 0).val) (h1 : (i 1).val = (i' 1).val) :
    i = i' := by
  funext a
  match a with
  | ⟨0, _⟩ => exact Fin.ext h0
  | ⟨1, _⟩ => exact Fin.ext h1

/-- At the element of chunk `j` of device `p`'s other half under the chunk's index `y`, the result holds the element under
    `y` of chunk `j` of the input block of `origin p j`: the row is `4096 (1 - z) + 128 j + y₀` with `y₀ < 128`, in the half
    that is not `p`'s own, in chunk `j` of it, at row `128 j + y₀` of that half. -/
theorem W_other (p : Dev nD) (j : Fin 32) (y : S128x1024.Idx) :
    W m p ((oS p j).view.emb y) = X m (origin p j) ((xS j).view.emb y) := by
  have hy0 := ValueIdx.idx2_lt0 y
  have hj := j.isLt
  have e0 := oS_emb0 p j y
  have e1 := oS_emb1 p j y
  have x0 := xS_emb0 j y
  have x1 := xS_emb1 j y
  have hne : ¬ ((((oS p j).view.emb y : S8192x1024.Idx) 0).val / 4096 = p.val % 2) := by omega
  have hk : chunkOf ((oS p j).view.emb y : S8192x1024.Idx) = j := by
    apply Fin.ext
    show (((oS p j).view.emb y : S8192x1024.Idx) 0).val % 4096 / 128 = j.val
    omega
  have hl : lo ((oS p j).view.emb y : S8192x1024.Idx) = ((xS j).view.emb y : S4096x1024.Idx) := by
    apply idx2_ext
    · show (((oS p j).view.emb y : S8192x1024.Idx) 0).val % 4096 = _
      omega
    · show (((oS p j).view.emb y : S8192x1024.Idx) 1).val = _
      omega
  show (if (((oS p j).view.emb y : S8192x1024.Idx) 0).val / 4096 = p.val % 2 then X m p (lo ((oS p j).view.emb y : S8192x1024.Idx))
      else X m (origin p (chunkOf ((oS p j).view.emb y : S8192x1024.Idx))) (lo ((oS p j).view.emb y : S8192x1024.Idx))) = _
  rw [if_neg hne, hk, hl]

/-- At the element of device `c`'s own half under the half's index `y`, the result holds its input block's element at `y`. -/
theorem W_own (c : Dev nD) (y : S4096x1024.Idx) : W m c ((oH c).view.emb y) = X m c y := by
  have hy0 := ValueIdx.idx2_lt0 y
  have e0 := oH_emb0 c y
  have e1 := oH_emb1 c y
  have hz : (((oH c).view.emb y : S8192x1024.Idx) 0).val / 4096 = c.val % 2 := by omega
  have hl : lo ((oH c).view.emb y : S8192x1024.Idx) = y := by
    apply idx2_ext
    · show (((oH c).view.emb y : S8192x1024.Idx) 0).val % 4096 = _
      omega
    · show (((oH c).view.emb y : S8192x1024.Idx) 1).val = _
      omega
  show (if (((oH c).view.emb y : S8192x1024.Idx) 0).val / 4096 = c.val % 2 then X m c (lo ((oH c).view.emb y : S8192x1024.Idx))
      else X m (origin c (chunkOf ((oH c).view.emb y : S8192x1024.Idx))) (lo ((oH c).view.emb y : S8192x1024.Idx))) = _
  rw [if_pos hz, hl]

/-- A `z` transfer `i` of device `c` (out of its input block) leaves, in chunk `tileOf c i` of its `z`-neighbour `p`'s
    result, what `W p` holds there. -/
theorem land_z (c : Dev nD) (i : Fin 32) (hi : ax i = 0) (fd : Buf (Elt F) (((peer 0 c : Dev nD) : Thread nD τ).loc main_v1)) :
    chunkAt (F := F) (peer 0 c) (tileOf c i) fullShare
        ((oS (peer 0 c) (tileOf c i)).view.write (Elt F) fd ((xS (tileOf c i)).view.read (Elt F) (X m c)) Finset.univ)
      = chunkAt (peer 0 c) (tileOf c i) fullShare (W m (peer 0 c)) := by
  unfold chunkAt
  refine pointsTo_congr fun x hx => ?_
  obtain ⟨y, rfl⟩ := View.exists_emb_of_mem_set _ hx
  rw [View.write_emb_of_mem _ _ (Finset.mem_univ y), View.read_apply, cast_cast, cast_eq, W_other, origin_z c i hi]

/-- A forwarding transfer `i` (along a plane axis) of device `c`, out of chunk `tileOf c i` of its own result holding
    `W c`, leaves in the same chunk of its neighbour `p`'s result what `W p` holds there. -/
theorem land_fwd (c : Dev nD) (i : Fin 32) (hi : ax i ≠ 0) (fd : Buf (Elt F) (((peer (ax i) c : Dev nD) : Thread nD τ).loc main_v1)) :
    chunkAt (F := F) (peer (ax i) c) (tileOf c i) fullShare
        ((oS (peer (ax i) c) (tileOf c i)).view.write (Elt F) fd ((oS c (tileOf c i)).view.read (Elt F) (W m c)) Finset.univ)
      = chunkAt (peer (ax i) c) (tileOf c i) fullShare (W m (peer (ax i) c)) := by
  unfold chunkAt
  refine pointsTo_congr fun x hx => ?_
  obtain ⟨y, rfl⟩ := View.exists_emb_of_mem_set _ hx
  rw [View.write_emb_of_mem _ _ (Finset.mem_univ y), View.read_apply, cast_cast, cast_eq, W_other, W_other, origin_fwd c i hi]

/-- The local copy leaves the own half holding the own input block: what `W c` holds there. -/
theorem land_loc (c : Dev nD) (fd : Buf (Elt F) ((c : Thread nD τ).loc main_v1)) :
    halfAt (F := F) c fullShare ((oH c).view.write (Elt F) fd ((xinM).view.read (Elt F) (X m c)) Finset.univ)
      = halfAt c fullShare (W m c) := by
  unfold halfAt
  refine pointsTo_congr fun x hx => ?_
  obtain ⟨y, rfl⟩ := View.exists_emb_of_mem_set _ hx
  rw [View.write_emb_of_mem _ _ (Finset.mem_univ y), View.read_apply, cast_cast, cast_eq, W_own]
  rfl

/-! ## The pieces named -/

omit [FloatOps F] in
/-- `out_split` and `xin_split` in the pieces' names. -/
theorem out_split' (c : Dev nD) (q : PosShare TreeShare) (f : Buf (Elt F) ((c : Thread nD τ).loc main_v1)) :
    ((((c : Thread nD τ).loc main_v1) ↦{q} f : sProp 𝕄))
      ⊣⊢ iprop(halfAt c q f ∗ bigSep Finset.univ fun j : Fin 32 => chunkAt c j q f) := out_split c q f
omit [FloatOps F] in
theorem xin_split' (c : Dev nD) (q : PosShare TreeShare) (f : Buf (Elt F) ((c : Thread nD τ).loc main_arg0)) :
    ((((c : Thread nD τ).loc main_arg0) ↦{q} f : sProp 𝕄)) = bigSep Finset.univ fun j : Fin 32 => xchunkAt c j q f := xin_split c q f
omit [FloatOps F] in
theorem xinAt_eq (c : Dev nD) (q : PosShare TreeShare) (f : Buf (Elt F) ((c : Thread nD τ).loc main_arg0)) :
    xinAt (F := F) c q f = ((((c : Thread nD τ).loc main_arg0) ↦{q} f : sProp 𝕄)) := by
  unfold xinAt
  exact congrArg (fun S : Finset S4096x1024.Idx => ((((c : Thread nD τ).loc main_arg0) ↦[S]{q} f : sProp 𝕄))) (View.set_whole main_arg0)

/-- info: 'Cert.Kernel.AG.out_split' depends on axioms: [propext, Classical.choice, Quot.sound] -/
#guard_msgs in #print axioms Cert.Kernel.AG.out_split

/-- info: 'Cert.Kernel.AG.xin_split' depends on axioms: [propext, Classical.choice, Quot.sound] -/
#guard_msgs in #print axioms Cert.Kernel.AG.xin_split

/-- info: 'Cert.Kernel.AG.land_z' depends on axioms: [propext, Classical.choice, Quot.sound] -/
#guard_msgs in #print axioms Cert.Kernel.AG.land_z

/-- info: 'Cert.Kernel.AG.land_fwd' depends on axioms: [propext, Classical.choice, Quot.sound] -/
#guard_msgs in #print axioms Cert.Kernel.AG.land_fwd

/-- info: 'Cert.Kernel.AG.land_loc' depends on axioms: [propext, Classical.choice, Quot.sound] -/
#guard_msgs in #print axioms Cert.Kernel.AG.land_loc

/-- info: 'Cert.Kernel.AG.out_split'' depends on axioms: [propext, Classical.choice, Quot.sound] -/
#guard_msgs in #print axioms Cert.Kernel.AG.out_split'

/-- info: 'Cert.Kernel.AG.xin_split'' depends on axioms: [propext, Classical.choice, Quot.sound] -/
#guard_msgs in #print axioms Cert.Kernel.AG.xin_split'

/-- info: 'Cert.Kernel.AG.xinAt_eq' depends on axioms: [propext, Classical.choice, Quot.sound] -/
#guard_msgs in #print axioms Cert.Kernel.AG.xinAt_eq

end Cert.Kernel.AG

end
-- ==== Proof.KernelAG.Steps.lean ====
/-
  The rules of the rounds discipline at this protocol's cells: one lemma per kind of step of the body.
-/
import proofs.«900674_g7700000000000675_dist_ag_v7x_xyz2x2x2_z_m4096_n1024_f32_1_alg».proof.Proof.KernelAG.Tables
import proofs.«900674_g7700000000000675_dist_ag_v7x_xyz2x2x2_z_m4096_n1024_f32_1_alg».proof.Proof.KernelAG.Pieces

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The persistent records, cell by cell -/

omit [FloatOps F] in
theorem inv_at (K : CellIx → ℕ) (ck : CellIx) : records (F := F) m K ⊢ cellInv ER (agRd m) (K ck) (kcell ck) := by
  unfold records
  exact BI.Entails.trans (BI.Entails.trans BI.sep_and and_elimL) (bigSep_elim (Finset.mem_univ ck))
omit [FloatOps F] in
theorem reached_at (K : CellIx → ℕ) (ck : CellIx) : records (F := F) m K ⊢ reached ER (kcell ck) 0 := by
  unfold records
  exact BI.Entails.trans (BI.Entails.trans BI.sep_and and_elimR) (bigSep_elim (Finset.mem_univ ck))

/-- What a device owes, at some record of its waits. -/
def ow (c : Dev nD) (O : CellTallies nD τ sig Unit) : sProp 𝕄 := iprop(∃ W : Waits sig Unit, owes (c : Thread nD τ) O W)

/-- The weakest precondition of a piece of device `c`'s body. -/
abbrev WP (c : Dev nD) {α : Type} (e : Prog (TpuEff nD τ sig (Elt F) Λ₀ .tc) α) (Q : α → sProp 𝕄) : sProp 𝕄 :=
  wp frame (wpE (defs₀ (F := F)) 𝒱₀ ((c : Dev nD) : Thread nD τ) none) Set.univ e Q

/-! ## The entry handshake -/

/-- The signal to the neighbour along axis `a`: its barrier duty `a`, handing over the chunks of the own result it will write. -/
theorem wp_bar_signal (K : CellIx → ℕ) (c : Dev nD) (a : Fin 3) (n : Dev nD) (hn : n = peer a c)
    (O' O : CellTallies nD τ sig Unit) (hO : O' = O + tallyAt (barCell (peer a c)) () 1)
    {α : Type} {Q : α → sProp 𝕄} {k : PUnit → Prog (TpuEff nD τ sig (Elt F) Λ₀ .tc) α} :
    iprop(records m K ∗ ow c O' ∗ dutyTok ER (barCell (peer a c)) 0 a ∗ barPay m (peer a c) a)
      ⊢ iprop((ow c O -∗ WP c (k ⟨⟩) Q) -∗ WP c (.op (.semSignal ((n : Dev nD) : Thread nD τ) barS 1) k) Q) := by
  subst hn
  unfold ow
  iintro ⟨#HR, ⟨%Ws, HO⟩, Htok, Hpay⟩ Hk
  iapply (Rounds.wp_signal 𝒱₀ ER (agRd m) (c : Thread nD τ) none (dst := ((peer a c : Dev nD) : Thread nD τ)) (κ := K (peer a c, none))
      (d := a) (by rw [duties_bar]; exact Finset.mem_univ _) (amount_bar m (peer a c) a) () O hO) $$ [HO Htok Hpay]
  · isplitr; · iapply (inv_at m K (peer a c, none)); iexact HR
    isplitl [HO]; · iexact HO
    isplitl [Htok]; · iexact Htok
    isplitl [Hpay]; · rw [payload_bar]; iexact Hpay
    iapply (reached_at m K (peer a c, none)); iexact HR
  iintro HO
  iapply Hk
  iexists Ws; iexact HO

/-- The wait for three units on the own barrier cell: the chunks of the three neighbours' results this device will write. -/
theorem wp_bar_wait (K : CellIx → ℕ) (c : Dev nD)
    {α : Type} {Q : α → sProp 𝕄} {k : PUnit → Prog (TpuEff nD τ sig (Elt F) Λ₀ .tc) α} :
    iprop(records m K ∗ cred (tallyAt (barCell c) () 3) ∗ ow c (owedAfter c 3) ∗ levAts Lv lv ∗ atPos ER (barCell c) 0 ∅ 0)
      ⊢ iprop(((ow c (owedAfter c 3) ∗ barPay m c 0 ∗ barPay m c 1 ∗ barPay m c 2) -∗ WP c (k ⟨⟩) Q)
          -∗ WP c (.op (.semWait barS 3) k) Q) := by
  unfold ow
  iintro ⟨#HR, Hc, ⟨%Ws, HO⟩, #Hlev, Hat⟩ Hk
  iapply (Rounds.wp_wait_rest_token 𝒱₀ ER (agRd m) (c : Thread nD τ) none (κ := K (c, none))
      (wpE_semWait_eq 𝒱₀ (c : Thread nD τ) none Set.univ) (Set.mem_univ _) () (O := owedAfter c 3) (W := Ws) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · iexists _; iexact HO
  iexact Hp

/-! ## The transfers -/

/-- A `z` transfer (`i < 10`): out of chunk `tileOf c i` of the own input block, held at the right half share, into
    that chunk of the `z`-neighbour's result (owned since the handshake), paying the neighbour's receive cell. -/
theorem wp_zsend (K : CellIx → ℕ) (c : Dev nD) (i : Fin 32) (hi : ax i = 0) (hi' : i.val < 10) (n : Dev nD) (hn : n = peer 0 c)
    (offs offd : Fin 2 → Nat) (inbs : ∀ a, offs a + S128x1024.size a ≤ S4096x1024.size a) (inbd : ∀ a, offd a + S128x1024.size a ≤ S8192x1024.size a)
    (hs : offs = xOff (tileOf c i)) (hd : offd = oOff (peer 0 c) (tileOf c i))
    (sS sR : DmaSem sig) (hsS : sS = sndSem i) (hsR : sR = rcvSem i)
    (O' O : CellTallies nD τ sig Unit) (hO : O' = O + tallyAt (dCell (peer 0 c) (rcvSem i)) () NC)
    (fd : Buf (Elt F) (((peer 0 c : Dev nD) : Thread nD τ).loc main_v1))
    {hsc : ((outM.slice (Rect.unit (s := S8192x1024) offd S128x1024.size inbd) (fun _ => rfl) : Memref sig (Dev.tc n : Thread nD τ).2.kind .hbm S128x1024 .f32)).view.ref.isScScratch = false}
    {hsrc : (xinM.slice (Rect.unit (s := S4096x1024) offs S128x1024.size inbs) (fun _ => rfl)).view.WordExact}
    {hdst : (outM.slice (Rect.unit (s := S8192x1024) offd S128x1024.size inbd) (fun _ => rfl)).view.WordExact}
    {hsem : DmaTarget.Typed .hbm (.dma sR) (.remote (Dev.tc n : Thread nD τ) (outM.slice (Rect.unit (s := S8192x1024) offd S128x1024.size inbd) (fun _ => rfl)) (.dma sS) hsc)}
    {α : Type} {Q : α → sProp 𝕄} {k : PUnit → Prog (TpuEff nD τ sig (Elt F) Λ₀ .tc) α} :
    iprop(records m K ∗ ow c O'
        ∗ xchunkAt c (tileOf c i) fullShare.right (X m c)
        ∗ chunkAt (peer 0 c) (tileOf c i) fullShare fd
        ∗ dutyTok ER (dCell c (sndSem i)) 0 (0 : Fin 3) ∗ dutyTok ER (dCell (peer (ax i) c) (rcvSem i)) 0 (0 : Fin 3))
      ⊢ iprop(((cred (tallyAt (dCell c (sndSem i)) () NC) ∗ ow c O) -∗ WP c (k ⟨⟩) Q)
          -∗ WP c (.op (.enqueueDma (xinM.slice (Rect.unit (s := S4096x1024) offs S128x1024.size inbs) (fun _ => rfl))
                (.remote (Dev.tc n : Thread nD τ) (outM.slice (Rect.unit (s := S8192x1024) offd S128x1024.size inbd) (fun _ => rfl)) (.dma sS) hsc) (.dma sR) hsrc hdst hsem) k) Q) := by
  subst hn hs hd hsS hsR
  have hp : peer (ax i) (peer 0 c) = c := by rw [hi]; exact peer_peer 0 c
  rw [hi]
  unfold ow xchunkAt chunkAt
  iintro ⟨#HR, ⟨%Ws, HO⟩, Hsrc, Hdst, Hts, Htr⟩ Hk
  iapply (Rounds.wp_send_pointsTo 𝒱₀ ER (agRd m) (c : Thread nD τ) none (c' := ((peer 0 c : Dev nD) : Thread nD τ))
      (src := xS (tileOf c i)) (dst := oS (peer 0 c) (tileOf c i)) (q := fullShare.right) (fs := X m c) (fd := fd)
      (κ₁ := K (c, some (sndSem i))) (κ₂ := K (peer 0 c, some (rcvSem i)))
      (r₁ := 0) (r₂ := 0) (d₁ := 0) (d₂ := 0)
      (by rw [duties_dma]; exact Finset.mem_singleton_self _) (by rw [duties_dma]; exact Finset.mem_singleton_self _)
      () () NC rfl (amount_snd m c i 0) (amount_rcv m (peer 0 c) i 0) O hO (W := Ws)
      (by rw [payload_snd]; unfold sndPay; rw [if_pos hi']; exact BI.Entails.refl _)
      (by rw [payload_rcv]; unfold rcvPay; rw [hp, ← land_z m c i hi fd]; exact BI.Entails.refl _)) $$ [HO Hsrc Hdst Hts Htr]
  · isplitr; · iapply (inv_at m K (c, some (sndSem i))); iexact HR
    isplitr; · iapply (inv_at m K (peer 0 c, some (rcvSem i))); iexact HR
    isplitl [Hsrc]; · iexact Hsrc
    isplitl [Hdst]; · iexact Hdst
    isplitl [HO]; · iexact HO
    isplitl [Hts]; · iexact Hts
    isplitr; · iapply (reached_at m K (c, some (sndSem i))); iexact HR
    isplitl [Htr]; · iexact Htr
    iapply (reached_at m K (peer 0 c, some (rcvSem i))); iexact HR
  iintro ⟨Hc, HO⟩
  iapply Hk
  isplitl [Hc]; · iexact Hc
  iexists Ws; iexact HO

/-- A forwarding transfer (`10 ≤ i`) along a plane axis: out of chunk `tileOf c i` of the own result, holding the result's
    values at the share `shr i`, into the same chunk of the neighbour's result, paying the neighbour's receive cell. -/
theorem wp_fsend (K : CellIx → ℕ) (c : Dev nD) (i : Fin 32) (hi : ax i ≠ 0) (hi' : ¬ i.val < 10) (a : Fin 3) (ha : ax i = a) (n : Dev nD) (hn : n = peer a c)
    (offs offd : Fin 2 → Nat) (inbs : ∀ a, offs a + S128x1024.size a ≤ S8192x1024.size a) (inbd : ∀ a, offd a + S128x1024.size a ≤ S8192x1024.size a)
    (hs : offs = oOff c (tileOf c i)) (hd : offd = oOff (peer a c) (tileOf c i))
    (sS sR : DmaSem sig) (hsS : sS = sndSem i) (hsR : sR = rcvSem i)
    (O' O : CellTallies nD τ sig Unit) (hO : O' = O + tallyAt (dCell (peer a c) (rcvSem i)) () NC)
    (fd : Buf (Elt F) (((peer a c : Dev nD) : Thread nD τ).loc main_v1))
    {hsc : ((outM.slice (Rect.unit (s := S8192x1024) offd S128x1024.size inbd) (fun _ => rfl) : Memref sig (Dev.tc n : Thread nD τ).2.kind .hbm S128x1024 .f32)).view.ref.isScScratch = false}
    {hsrc : (outM.slice (Rect.unit (s := S8192x1024) offs S128x1024.size inbs) (fun _ => rfl)).view.WordExact}
    {hdst : (outM.slice (Rect.unit (s := S8192x1024) offd S128x1024.size inbd) (fun _ => rfl)).view.WordExact}
    {hsem : DmaTarget.Typed .hbm (.dma sR) (.remote (Dev.tc n : Thread nD τ) (outM.slice (Rect.unit (s := S8192x1024) offd S128x1024.size inbd) (fun _ => rfl)) (.dma sS) hsc)}
    {α : Type} {Q : α → sProp 𝕄} {k : PUnit → Prog (TpuEff nD τ sig (Elt F) Λ₀ .tc) α} :
    iprop(records m K ∗ ow c O'
        ∗ chunkAt c (tileOf c i) (shr i) (W m c)
        ∗ chunkAt (peer a c) (tileOf c i) fullShare fd
        ∗ dutyTok ER (dCell c (sndSem i)) 0 (0 : Fin 3) ∗ dutyTok ER (dCell (peer (ax i) c) (rcvSem i)) 0 (0 : Fin 3))
      ⊢ iprop(((cred (tallyAt (dCell c (sndSem i)) () NC) ∗ ow c O) -∗ WP c (k ⟨⟩) Q)
          -∗ WP c (.op (.enqueueDma (outM.slice (Rect.unit (s := S8192x1024) offs S128x1024.size inbs) (fun _ => rfl))
                (.remote (Dev.tc n : Thread nD τ) (outM.slice (Rect.unit (s := S8192x1024) offd S128x1024.size inbd) (fun _ => rfl)) (.dma sS) hsc) (.dma sR) hsrc hdst hsem) k) Q) := by
  subst ha
  subst hn hs hd hsS hsR
  unfold ow chunkAt
  iintro ⟨#HR, ⟨%Ws, HO⟩, Hsrc, Hdst, Hts, Htr⟩ Hk
  have hp : peer (ax i) (peer (ax i) c) = c := peer_peer (ax i) c
  iapply (Rounds.wp_send_pointsTo 𝒱₀ ER (agRd m) (c : Thread nD τ) none (c' := ((peer (ax i) c : Dev nD) : Thread nD τ))
      (src := oS c (tileOf c i)) (dst := oS (peer (ax i) c) (tileOf c i)) (q := shr i) (fs := W m c) (fd := fd)
      (κ₁ := K (c, some (sndSem i))) (κ₂ := K (peer (ax i) c, some (rcvSem i)))
      (r₁ := 0) (r₂ := 0) (d₁ := 0) (d₂ := 0)
      (by rw [duties_dma]; exact Finset.mem_singleton_self _) (by rw [duties_dma]; exact Finset.mem_singleton_self _)
      () () NC rfl (amount_snd m c i 0) (amount_rcv m (peer (ax i) c) i 0) O hO (W := Ws)
      (by rw [payload_snd]; unfold sndPay; rw [if_neg hi']; exact BI.Entails.refl _)
      (by rw [payload_rcv]; unfold rcvPay; rw [hp, ← land_fwd m c i hi fd]; exact BI.Entails.refl _)) $$ [HO Hsrc Hdst Hts Htr]
  · isplitr; · iapply (inv_at m K (c, some (sndSem i))); iexact HR
    isplitr; · iapply (inv_at m K (peer (ax i) c, some (rcvSem i))); iexact HR
    isplitl [Hsrc]; · iexact Hsrc
    isplitl [Hdst]; · iexact Hdst
    isplitl [HO]; · iexact HO
    isplitl [Hts]; · iexact Hts
    isplitr; · iapply (reached_at m K (c, some (sndSem i))); iexact HR
    isplitl [Htr]; · iexact Htr
    iapply (reached_at m K (peer (ax i) c, some (rcvSem i))); iexact HR
  iintro ⟨Hc, HO⟩
  iapply Hk
  isplitl [Hc]; · iexact Hc
  iexists Ws; iexact HO

/-- The local copy: the input block whole, read at the left half share, into the own half of the result. -/
theorem wp_loc_copy (K : CellIx → ℕ) (c : Dev nD)
    (offd : Fin 2 → Nat) (inbd : ∀ a, offd a + S4096x1024.size a ≤ S8192x1024.size a) (hd : offd = hOff c)
    (sL : DmaSem sig) (hsL : sL = locSem)
    (fd : Buf (Elt F) ((c : Thread nD τ).loc main_v1))
    {hsrc : (xinM).view.WordExact}
    {hdst : (outM.slice (Rect.unit (s := S8192x1024) offd S4096x1024.size inbd) (fun _ => rfl)).view.WordExact}
    {hsem : DmaTarget.Typed (nD := nD) (τ := τ) (p := .tc) .hbm (.dma sL) (.here (outM.slice (Rect.unit (s := S8192x1024) offd S4096x1024.size inbd) (fun _ => rfl)))}
    {α : Type} {Q : α → sProp 𝕄} {k : PUnit → Prog (TpuEff nD τ sig (Elt F) Λ₀ .tc) α} :
    iprop(records m K ∗ xinAt c fullShare.left (X m c) ∗ halfAt c fullShare fd ∗ dutyTok ER (dCell c locSem) 0 (0 : Fin 3))
      ⊢ iprop((cred (tallyAt (dCell c locSem) () NL) -∗ WP c (k ⟨⟩) Q)
          -∗ WP c (.op (.enqueueDma xinM (.here (outM.slice (Rect.unit (s := S8192x1024) offd S4096x1024.size inbd) (fun _ => rfl))) (.dma sL) hsrc hdst hsem) k) Q) := by
  subst hd hsL
  unfold xinAt halfAt
  iintro ⟨#HR, Hsrc, Hdst, Htok⟩ Hk
  iapply (Rounds.wp_copy_pointsTo 𝒱₀ ER (agRd m) (c : Thread nD τ) none
      (src := xinM) (dst := oH c) (q := fullShare.left) (fs := X m c) (fd := fd) (κ := K (c, some locSem)) (r := 0) (d := 0)
      (by rw [duties_dma]; exact Finset.mem_singleton_self _) () NL rfl (amount_loc m c 0)
      (by rw [payload_loc]; unfold locPay; rw [← land_loc m c fd]; exact BI.Entails.refl _)) $$ [Hsrc Hdst Htok]
  · isplitr; · iapply (inv_at m K (c, some locSem)); iexact HR
    isplitl [Hsrc]; · iexact Hsrc
    isplitl [Hdst]; · iexact Hdst
    isplitl [Htok]; · iexact Htok
    iapply (reached_at m K (c, some locSem)); iexact HR
  iexact Hk

/-! ## The waits on the own DMA cells -/

/-- A wait for the whole credit of the one duty of an own DMA cell `q`, after which the cell is closed: the payload,
    and the semaphore's counter back at zero. -/
theorem wp_dma_wait (K : CellIx → ℕ) (c : Dev nD) (q : DmaSem sig) (N : ℕ) (P : sProp 𝕄)
    (hexp : (agRd (F := F) m).expect (dCell c q) 0 = N)
    (hrest : bigSep ((agRd (F := F) m).duties (dCell c q) 0 \ ∅) (fun d => (agRd (F := F) m).payload (dCell c q) 0 d) = P)
    (O : CellTallies nD τ sig Unit) (hmw : (levAts Lv lv : sProp 𝕄) ⊢ MayWait (c : Thread nD τ) (.dma q) () O)
    (sm : DmaSem sig) (hsm : sm = q)
    {sp sp' : Space} {s s' : Shape} {e e' : EltTy}
    {src : Memref sig .tc sp' s' e'} {dst : Memref sig .tc sp s e} (hN : dst.view.dmaCredit = N)
    {hs : src.view.WordExact} {hd : dst.view.WordExact}
    {α : Type} {Q : α → sProp 𝕄} {k : PUnit → Prog (TpuEff nD τ sig (Elt F) Λ₀ .tc) α} :
    iprop(records m K ∗ cred (tallyAt (dCell c q) () N) ∗ ow c O ∗ levAts Lv lv ∗ atPos ER (dCell c q) 0 ∅ 0)
      ⊢ iprop(((ow c O ∗ semVal (dCell c q) 0 ∗ P) -∗ WP c (k ⟨⟩) Q)
          -∗ WP c (.op (.waitDma2 sm src dst hs hd) k) Q) := by
  subst hsm hN
  unfold ow
  iintro ⟨#HR, Hc, ⟨%Ws, HO⟩, #Hlev, Hat⟩ Hk
  iapply (Rounds.wp_wait_rest_token 𝒱₀ ER (agRd m) (c : Thread nD τ) none (κ := K (c, some sm))
      (wpE_waitDma2_eq 𝒱₀ (c : Thread nD τ) none Set.univ) (Set.mem_univ _) () (O := O) (W := Ws) (R := 0) (m := 0) (T := ∅)
      (by rw [Nat.zero_add, hexp])) $$ [Hc HO Hat]
  · isplitr; · iapply (inv_at m K (c, some sm)); iexact HR
    isplitl [Hc]; · iexact Hc
    isplitl [HO]; · iexact HO
    isplitr; · iapply hmw; iexact Hlev
    iexact Hat
  iintro ⟨HO, Hat, -, Hpay⟩
  ihave Hp := (Entails.of_eq hrest) $$ Hpay
  imod (Rounds.cell_close ER (agRd m) (Set.mem_univ (K (c, some sm))) (fun h => h) (R := 0 + 1) (duties_later m (dCell c sm))) $$ [Hat] with Hz
  · isplitr; · iapply (inv_at m K (c, some sm)); iexact HR
    iexact Hat
  iapply Hk
  isplitl [HO]; · iexists _; iexact HO
  isplitl [Hz]; · iexact Hz
  iexact Hp

end Cert.Kernel.AG

end
-- ==== Proof.KernelAG.Devs.lean ====
/-
  The kernel's device-id chains name the three neighbours.
-/
import proofs.«900674_g7700000000000675_dist_ag_v7x_xyz2x2x2_z_m4096_n1024_f32_1_alg».proof.Proof.KernelAG.Mesh

namespace Cert.Kernel.AG

open Cert.Kernel Cert.Kernel.Gen Idealize.ShloMosaic

theorem peer0_val : ∀ c : Dev nD, (peer 0 c).val = (4 * (c.val / 4) + 2 * ((c.val / 2) % 2) + 1) - (c.val % 2) := by decide
theorem peer1_val : ∀ c : Dev nD, (peer 1 c).val = (2 * ((c.val / 2) % 2) + (c.val % 2) + 4) - 4 * (c.val / 4) := by decide
theorem peer2_val : ∀ c : Dev nD, (peer 2 c).val = (4 * (c.val / 4) + (c.val % 2) + 2) - 2 * ((c.val / 2) % 2) := by decide

theorem dev1_eq (c : Dev nD) : (⟨k0_dev1 c, k0_dev1_lt c⟩ : Dev nD) = peer 0 c := Fin.ext ((k0_dev1_eq c).trans (peer0_val c).symm)
theorem dev4_eq (c : Dev nD) : (⟨k0_dev4 c, k0_dev4_lt c⟩ : Dev nD) = peer 0 c := Fin.ext ((k0_dev4_eq c).trans (peer0_val c).symm)
theorem dev5_eq (c : Dev nD) : (⟨k0_dev5 c, k0_dev5_lt c⟩ : Dev nD) = peer 0 c := Fin.ext ((k0_dev5_eq c).trans (peer0_val c).symm)
theorem dev6_eq (c : Dev nD) : (⟨k0_dev6 c, k0_dev6_lt c⟩ : Dev nD) = peer 0 c := Fin.ext ((k0_dev6_eq c).trans (peer0_val c).symm)
theorem dev7_eq (c : Dev nD) : (⟨k0_dev7 c, k0_dev7_lt c⟩ : Dev nD) = peer 0 c := Fin.ext ((k0_dev7_eq c).trans (peer0_val c).symm)
theorem dev8_eq (c : Dev nD) : (⟨k0_dev8 c, k0_dev8_lt c⟩ : Dev nD) = peer 0 c := Fin.ext ((k0_dev8_eq c).trans (peer0_val c).symm)
theorem dev9_eq (c : Dev nD) : (⟨k0_dev9 c, k0_dev9_lt c⟩ : Dev nD) = peer 0 c := Fin.ext ((k0_dev9_eq c).trans (peer0_val c).symm)
theorem dev10_eq (c : Dev nD) : (⟨k0_dev10 c, k0_dev10_lt c⟩ : Dev nD) = peer 0 c := Fin.ext ((k0_dev10_eq c).trans (peer0_val c).symm)
theorem dev11_eq (c : Dev nD) : (⟨k0_dev11 c, k0_dev11_lt c⟩ : Dev nD) = peer 0 c := Fin.ext ((k0_dev11_eq c).trans (peer0_val c).symm)
theorem dev12_eq (c : Dev nD) : (⟨k0_dev12 c, k0_dev12_lt c⟩ : Dev nD) = peer 0 c := Fin.ext ((k0_dev12_eq c).trans (peer0_val c).symm)
theorem dev13_eq (c : Dev nD) : (⟨k0_dev13 c, k0_dev13_lt c⟩ : Dev nD) = peer 0 c := Fin.ext ((k0_dev13_eq c).trans (peer0_val c).symm)
theorem dev2_eq (c : Dev nD) : (⟨k0_dev2 c, k0_dev2_lt c⟩ : Dev nD) = peer 1 c := Fin.ext ((k0_dev2_eq c).trans (peer1_val c).symm)
theorem dev14_eq (c : Dev nD) : (⟨k0_dev14 c, k0_dev14_lt c⟩ : Dev nD) = peer 1 c := Fin.ext ((k0_dev14_eq c).trans (peer1_val c).symm)
theorem dev16_eq (c : Dev nD) : (⟨k0_dev16 c, k0_dev16_lt c⟩ : Dev nD) = peer 1 c := Fin.ext ((k0_dev16_eq c).trans (peer1_val c).symm)
theorem dev18_eq (c : Dev nD) : (⟨k0_dev18 c, k0_dev18_lt c⟩ : Dev nD) = peer 1 c := Fin.ext ((k0_dev18_eq c).trans (peer1_val c).symm)
theorem dev20_eq (c : Dev nD) : (⟨k0_dev20 c, k0_dev20_lt c⟩ : Dev nD) = peer 1 c := Fin.ext ((k0_dev20_eq c).trans (peer1_val c).symm)
theorem dev22_eq (c : Dev nD) : (⟨k0_dev22 c, k0_dev22_lt c⟩ : Dev nD) = peer 1 c := Fin.ext ((k0_dev22_eq c).trans (peer1_val c).symm)
theorem dev24_eq (c : Dev nD) : (⟨k0_dev24 c, k0_dev24_lt c⟩ : Dev nD) = peer 1 c := Fin.ext ((k0_dev24_eq c).trans (peer1_val c).symm)
theorem dev26_eq (c : Dev nD) : (⟨k0_dev26 c, k0_dev26_lt c⟩ : Dev nD) = peer 1 c := Fin.ext ((k0_dev26_eq c).trans (peer1_val c).symm)
theorem dev28_eq (c : Dev nD) : (⟨k0_dev28 c, k0_dev28_lt c⟩ : Dev nD) = peer 1 c := Fin.ext ((k0_dev28_eq c).trans (peer1_val c).symm)
theorem dev30_eq (c : Dev nD) : (⟨k0_dev30 c, k0_dev30_lt c⟩ : Dev nD) = peer 1 c := Fin.ext ((k0_dev30_eq c).trans (peer1_val c).symm)
theorem dev31_eq (c : Dev nD) : (⟨k0_dev31 c, k0_dev31_lt c⟩ : Dev nD) = peer 1 c := Fin.ext ((k0_dev31_eq c).trans (peer1_val c).symm)
theorem dev32_eq (c : Dev nD) : (⟨k0_dev32 c, k0_dev32_lt c⟩ : Dev nD) = peer 1 c := Fin.ext ((k0_dev32_eq c).trans (peer1_val c).symm)
theorem dev3_eq (c : Dev nD) : (⟨k0_dev3 c, k0_dev3_lt c⟩ : Dev nD) = peer 2 c := Fin.ext ((k0_dev3_eq c).trans (peer2_val c).symm)
theorem dev15_eq (c : Dev nD) : (⟨k0_dev15 c, k0_dev15_lt c⟩ : Dev nD) = peer 2 c := Fin.ext ((k0_dev15_eq c).trans (peer2_val c).symm)
theorem dev17_eq (c : Dev nD) : (⟨k0_dev17 c, k0_dev17_lt c⟩ : Dev nD) = peer 2 c := Fin.ext ((k0_dev17_eq c).trans (peer2_val c).symm)
theorem dev19_eq (c : Dev nD) : (⟨k0_dev19 c, k0_dev19_lt c⟩ : Dev nD) = peer 2 c := Fin.ext ((k0_dev19_eq c).trans (peer2_val c).symm)
theorem dev21_eq (c : Dev nD) : (⟨k0_dev21 c, k0_dev21_lt c⟩ : Dev nD) = peer 2 c := Fin.ext ((k0_dev21_eq c).trans (peer2_val c).symm)
theorem dev23_eq (c : Dev nD) : (⟨k0_dev23 c, k0_dev23_lt c⟩ : Dev nD) = peer 2 c := Fin.ext ((k0_dev23_eq c).trans (peer2_val c).symm)
theorem dev25_eq (c : Dev nD) : (⟨k0_dev25 c, k0_dev25_lt c⟩ : Dev nD) = peer 2 c := Fin.ext ((k0_dev25_eq c).trans (peer2_val c).symm)
theorem dev27_eq (c : Dev nD) : (⟨k0_dev27 c, k0_dev27_lt c⟩ : Dev nD) = peer 2 c := Fin.ext ((k0_dev27_eq c).trans (peer2_val c).symm)
theorem dev29_eq (c : Dev nD) : (⟨k0_dev29 c, k0_dev29_lt c⟩ : Dev nD) = peer 2 c := Fin.ext ((k0_dev29_eq c).trans (peer2_val c).symm)
theorem dev33_eq (c : Dev nD) : (⟨k0_dev33 c, k0_dev33_lt c⟩ : Dev nD) = peer 2 c := Fin.ext ((k0_dev33_eq c).trans (peer2_val c).symm)
theorem dev34_eq (c : Dev nD) : (⟨k0_dev34 c, k0_dev34_lt c⟩ : Dev nD) = peer 2 c := Fin.ext ((k0_dev34_eq c).trans (peer2_val c).symm)
theorem dev35_eq (c : Dev nD) : (⟨k0_dev35 c, k0_dev35_lt c⟩ : Dev nD) = peer 2 c := Fin.ext ((k0_dev35_eq c).trans (peer2_val c).symm)

/-- The chunk a forwarding transfer reads is the chunk an earlier incoming transfer filled: the own quarter's chunk `k`
    (transfers `10 + k` and `21 + k`) came in by the `z` transfer `k`; transfers `18 + j` forward what the
    `y`-neighbour's transfers `21 + j` brought, transfers `29 + j` what the `x`-neighbour's `13 + j` brought. -/
theorem fwd_src_x : ∀ (c : Dev nD) (k : Fin 8), tileOf c ⟨10 + k.val, by omega⟩ = tileOf (peer 0 c) ⟨k.val, by omega⟩ := by decide
theorem fwd_src_y : ∀ (c : Dev nD) (k : Fin 8), tileOf c ⟨21 + k.val, by omega⟩ = tileOf (peer 0 c) ⟨k.val, by omega⟩ := by decide
theorem fwd_src_x' : ∀ (c : Dev nD) (j : Fin 3), tileOf c ⟨18 + j.val, by omega⟩ = tileOf (peer 2 c) ⟨21 + j.val, by omega⟩ := by decide
theorem fwd_src_y' : ∀ (c : Dev nD) (j : Fin 3), tileOf c ⟨29 + j.val, by omega⟩ = tileOf (peer 1 c) ⟨13 + j.val, by omega⟩ := by decide

end Cert.Kernel.AG
-- ==== Proof.KernelAG.Deal.lean ====
/-
  The arrays dealt into the pieces the protocol moves, and gathered again.
-/
import proofs.«900674_g7700000000000675_dist_ag_v7x_xyz2x2x2_z_m4096_n1024_f32_1_alg».proof.Proof.KernelAG.Tables
import proofs.«900674_g7700000000000675_dist_ag_v7x_xyz2x2x2_z_m4096_n1024_f32_1_alg».proof.Proof.KernelAG.Pieces
import proofs.«900674_g7700000000000675_dist_ag_v7x_xyz2x2x2_z_m4096_n1024_f32_1_alg».proof.Proof.KernelAG.Devs

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The transfer that fills a chunk -/

/-- The chunk of device `c`'s other half that its `i`-th incoming transfer fills. -/
def inTile (c : Dev nD) (i : Fin 32) : Fin 32 := tileOf (peer (ax i) c) i

/-- Every chunk is filled by exactly one incoming transfer. -/
def inTileEquiv (c : Dev nD) : Fin 32 ≃ Fin 32 :=
  Equiv.ofBijective (inTile c) ⟨fun i i' h => tileOf_in_inj c i i' h, fun j => filled c j⟩

theorem univ_eq_sends : (Finset.univ : Finset (Fin 32)) = sends 0 ∪ (sends 1 ∪ sends 2) := by decide
theorem sends_disj01 : Disjoint (sends 0) (sends 1 ∪ sends 2) := by decide
theorem sends_disj12 : Disjoint (sends 1) (sends 2) := by decide
theorem ax_of_mem {a : Fin 3} {i : Fin 32} (h : i ∈ sends a) : ax i = a := (Finset.mem_filter.mp h).2

omit [FloatOps F] in
/-- A family over the 32 transfers, by axis. -/
theorem bigSep_by_axis (Φ : Fin 32 → sProp 𝕄) :
    bigSep Finset.univ Φ = iprop(bigSep (sends 0) Φ ∗ bigSep (sends 1) Φ ∗ bigSep (sends 2) Φ) := by
  rw [univ_eq_sends, bigSep_union sends_disj01, bigSep_union sends_disj12]
  rfl

/-! ## The result array -/

omit [FloatOps F] in
/-- The chunks of the other half, at contents `f`, indexed by the incoming transfer that fills each. -/
theorem chunks_by_transfer (c : Dev nD) (q : PosShare TreeShare) (f : Buf (Elt F) ((c : Thread nD τ).loc main_v1)) :
    (bigSep Finset.univ fun j : Fin 32 => chunkAt (F := F) c j q f) = bigSep Finset.univ fun i : Fin 32 => chunkAt c (inTile c i) q f :=
  bigSep_univ_equiv (inTileEquiv c) fun j => chunkAt c j q f

omit [FloatOps F] in
/-- What device `c` hands its neighbour along `a` with its barrier signal: the chunks of its own result that neighbour fills. -/
theorem barPay_peer (c : Dev nD) (a : Fin 3) :
    barPay (F := F) m (peer a c) a = bigSep (sends a) fun i => chunkAt c (inTile c i) fullShare (V0 m c) := by
  unfold barPay
  rw [peer_peer]
  refine bigSep_congr fun i hi => ?_
  unfold inTile; rw [ax_of_mem hi]

/-- At entry: the result array whole, as launched, is the own half and what the three barrier signals hand over. -/
theorem out_deal (c : Dev nD) :
    ((((c : Thread nD τ).loc main_v1) ↦{fullShare} V0 m c : sProp 𝕄))
      ⊢ iprop(halfAt c fullShare (V0 m c) ∗ barPay m (peer 0 c) 0 ∗ barPay m (peer 1 c) 1 ∗ barPay m (peer 2 c) 2) := by
  rw [barPay_peer, barPay_peer, barPay_peer, ← bigSep_by_axis, ← chunks_by_transfer]
  exact (out_split' c fullShare (V0 m c)).1

/-- At exit: the own half and the 32 chunks the receive cells handed over, all holding the result's values, are the
    result array whole. -/
theorem out_gather (c : Dev nD) :
    iprop(halfAt c fullShare (W m c) ∗ bigSep Finset.univ fun i : Fin 32 => rcvPay m c i)
      ⊢ ((((c : Thread nD τ).loc main_v1) ↦{fullShare} W m c : sProp 𝕄)) := by
  have e : (bigSep Finset.univ fun i : Fin 32 => rcvPay (F := F) m c i) = bigSep Finset.univ fun j : Fin 32 => chunkAt c j fullShare (W m c) := by
    rw [chunks_by_transfer]; rfl
  rw [e]
  exact (out_split' c fullShare (W m c)).2

/-! ## The input block -/

/-- The chunks of the input block the ten `z` transfers read. -/
def xLent (c : Dev nD) : Finset (Fin 32) := (sends 0).image (tileOf c)

theorem tileOf_injOn_z (c : Dev nD) : Set.InjOn (tileOf c) (sends 0) := fun i hi i' hi' h =>
  tileOf_out_inj c i i' ((ax_of_mem hi).trans (ax_of_mem hi').symm) h

/-- The chunks of the input block no transfer reads, at the right half share. -/
def xinRest (c : Dev nD) : sProp 𝕄 := bigSep (Finset.univ \ xLent c) fun j => xchunkAt c j fullShare.right (X m c)

/-- The input block whole is its left half share whole (the local copy's source), the ten chunks the `z` transfers read
    at the right half share, and the other chunks at that share. -/
theorem xin_deal (c : Dev nD) :
    ((((c : Thread nD τ).loc main_arg0) ↦{fullShare} X m c : sProp 𝕄))
      ⊣⊢ iprop(xinAt c fullShare.left (X m c) ∗ (bigSep (sends 0) fun i => xchunkAt c (tileOf c i) fullShare.right (X m c)) ∗ xinRest m c) := by
  have h1 := pointsTo_share (ℓ := (c : Thread nD τ).loc main_arg0) (I := Finset.univ) (f := X m c) (PosShare.mem_left_op_right fullShare)
      (Ix := Unit) (Name := ℕ) (U := UU) (Lvl := ℕ)
  have h2 : ((((c : Thread nD τ).loc main_arg0) ↦{fullShare.right} X m c : sProp 𝕄))
      = iprop((bigSep (sends 0) fun i => xchunkAt c (tileOf c i) fullShare.right (X m c)) ∗ xinRest m c) := by
    rw [xin_split' c fullShare.right (X m c), bigSep_sdiff_split (Finset.subset_univ (xLent c))]
    unfold xLent xinRest
    rw [bigSep_image_of_injOn (tileOf_injOn_z c)]
    rfl
  rw [xinAt_eq, ← h2]
  exact h1

/-! ## Forwarding: a chunk that came in is the source of later transfers -/

omit [FloatOps F] in
theorem sndPay_z (c : Dev nD) (i : Fin 32) (h : i.val < 10) : sndPay (F := F) m c i = xchunkAt c (tileOf c i) fullShare.right (X m c) := if_pos h
omit [FloatOps F] in
theorem sndPay_f (c : Dev nD) (i : Fin 32) (h : ¬ i.val < 10) : sndPay (F := F) m c i = chunkAt c (tileOf c i) (shr i) (W m c) := if_neg h

theorem fwd_split_key : ∀ (c : Dev nD) (i : Fin 32) (h : i.val < 8),
    ax i = 0 ∧ tileOf c ⟨10 + i.val, by omega⟩ = tileOf (peer 0 c) i ∧ tileOf c ⟨21 + i.val, by omega⟩ = tileOf (peer 0 c) i
      ∧ shr ⟨10 + i.val, by omega⟩ = fullShare.left ∧ shr ⟨21 + i.val, by omega⟩ = fullShare.right := by decide
theorem fwd_one_key : ∀ (c : Dev nD) (i i' : Fin 32), ((18 ≤ i'.val ∧ i'.val < 21 ∧ i.val = i'.val + 3) ∨ (29 ≤ i'.val ∧ i.val + 16 = i'.val)) →
    tileOf c i' = tileOf (peer (ax i) c) i ∧ shr i' = fullShare := by decide

/-- The own quarter's chunk `k`, come in by the `z` transfer `i = k`, is read at a half share each by the transfers
    `ix = 10 + k` (to the `x`-neighbour) and `iy = 21 + k` (to the `y`-neighbour). -/
theorem fwd_split (c : Dev nD) (i ix iy : Fin 32) (hi : i.val < 8) (hx : ix.val = 10 + i.val) (hy : iy.val = 21 + i.val) :
    rcvPay (F := F) m c i
      ⊣⊢ iprop(chunkAt c (tileOf c ix) (shr ix) (W m c) ∗ chunkAt c (tileOf c iy) (shr iy) (W m c)) := by
  have b1 : 10 + i.val < 32 := Nat.lt_of_lt_of_le (Nat.add_lt_add_left hi 10) (by decide)
  have b2 : 21 + i.val < 32 := Nat.lt_of_lt_of_le (Nat.add_lt_add_left hi 21) (by decide)
  obtain rfl : ix = ⟨10 + i.val, b1⟩ := Fin.ext hx
  obtain rfl : iy = ⟨21 + i.val, b2⟩ := Fin.ext hy
  obtain ⟨h0, h1, h2, hl, hr⟩ := fwd_split_key c i hi
  unfold rcvPay
  rw [h0, h1, h2, hl, hr]
  unfold chunkAt
  exact pointsTo_share (PosShare.mem_left_op_right fullShare)

/-- What the `y`-neighbour's transfer `21 + j` brought is what transfer `18 + j` reads, whole; likewise what the
    `x`-neighbour's `13 + j` brought and transfer `29 + j`. -/
theorem fwd_one (c : Dev nD) (i i' : Fin 32)
    (h : (18 ≤ i'.val ∧ i'.val < 21 ∧ i.val = i'.val + 3) ∨ (29 ≤ i'.val ∧ i.val + 16 = i'.val)) :
    rcvPay (F := F) m c i = chunkAt c (tileOf c i') (shr i') (W m c) := by
  obtain ⟨h1, hs⟩ := fwd_one_key c i i' h
  unfold rcvPay; rw [h1, hs]

/-! ## Families written out -/

omit [FloatOps F] in
theorem explode32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl
omit [FloatOps F] in
theorem explode3 (Φ : Fin 3 → sProp 𝕄) : bigSep Finset.univ Φ = iprop(Φ 0 ∗ Φ 1 ∗ Φ 2) := by
  rw [bigSep_univ_eq_bigSepL [0, 1, 2] (by decide) (by decide)]
  rfl
omit [FloatOps F] in
theorem explodeZ (Φ : Fin 32 → sProp 𝕄) :
    bigSep (sends 0) Φ = iprop(Φ 0 ∗ Φ 1 ∗ Φ 2 ∗ Φ 3 ∗ Φ 4 ∗ Φ 5 ∗ Φ 6 ∗ Φ 7 ∗ Φ 8 ∗ Φ 9) := by
  rw [bigSep_eq_bigSepL_of_eq [0, 1, 2, 3, 4, 5, 6, 7, 8, 9] (by decide) (by decide)]
  rfl
omit [FloatOps F] in
theorem explodeX (Φ : Fin 32 → sProp 𝕄) :
    bigSep (sends 1) Φ = iprop(Φ 10 ∗ Φ 11 ∗ Φ 12 ∗ Φ 13 ∗ Φ 14 ∗ Φ 15 ∗ Φ 16 ∗ Φ 17 ∗ Φ 18 ∗ Φ 19 ∗ Φ 20) := by
  rw [bigSep_eq_bigSepL_of_eq [10, 11, 12, 13, 14, 15, 16, 17, 18, 19, 20] (by decide) (by decide)]
  rfl
omit [FloatOps F] in
theorem explodeY (Φ : Fin 32 → sProp 𝕄) :
    bigSep (sends 2) Φ = iprop(Φ 21 ∗ Φ 22 ∗ Φ 23 ∗ Φ 24 ∗ Φ 25 ∗ Φ 26 ∗ Φ 27 ∗ Φ 28 ∗ Φ 29 ∗ Φ 30 ∗ Φ 31) := by
  rw [bigSep_eq_bigSepL_of_eq [21, 22, 23, 24, 25, 26, 27, 28, 29, 30, 31] (by decide) (by decide)]
  rfl

/-! ## The 65 DMA semaphores by what they are for -/

theorem dma_univ : (Finset.univ : Finset (DmaSem sig)) = (Finset.univ.image sndSem ∪ Finset.univ.image rcvSem) ∪ {locSem} := by decide
theorem sndSem_inj : Function.Injective sndSem := by decide
theorem rcvSem_inj : Function.Injective rcvSem := by decide
theorem dma_disj1 : Disjoint ((Finset.univ : Finset (Fin 32)).image sndSem) (Finset.univ.image rcvSem) := by decide
theorem dma_disj2 : Disjoint ((Finset.univ : Finset (Fin 32)).image sndSem ∪ Finset.univ.image rcvSem) ({locSem} : Finset (DmaSem sig)) := by decide

omit [FloatOps F] in
/-- A family over the DMA semaphores is the family over the 32 send semaphores, over the 32 receive semaphores, and the
    local copy's. -/
theorem bigSep_by_role (Φ : DmaSem sig → sProp 𝕄) :
    bigSep Finset.univ Φ
      = iprop((bigSep Finset.univ fun i : Fin 32 => Φ (sndSem i)) ∗ (bigSep Finset.univ fun i : Fin 32 => Φ (rcvSem i)) ∗ Φ locSem) := by
  rw [dma_univ, bigSep_union dma_disj2, bigSep_union dma_disj1, bigSep_singleton,
    bigSep_image_of_injOn (fun a _ b _ h => sndSem_inj h), bigSep_image_of_injOn (fun a _ b _ h => rcvSem_inj h)]
  have h : (iprop(((bigSep Finset.univ fun i : Fin 32 => Φ (sndSem i)) ∗ (bigSep Finset.univ fun i : Fin 32 => Φ (rcvSem i))) ∗ Φ locSem) : sProp 𝕄)
      ⊣⊢ iprop((bigSep Finset.univ fun i : Fin 32 => Φ (sndSem i)) ∗ (bigSep Finset.univ fun i : Fin 32 => Φ (rcvSem i)) ∗ Φ locSem) := Laws.sep_assoc
  exact BI.equiv_iff.mp ⟨h.1, h.2⟩

end Cert.Kernel.AG

end
-- ==== Proof.KernelAG.Body.lean ====
/-
  One device's kernel body, stepped from its invariant before the point to its invariant after it.
-/
import proofs.«900674_g7700000000000675_dist_ag_v7x_xyz2x2x2_z_m4096_n1024_f32_1_alg».proof.Proof.KernelAG.Steps
import proofs.«900674_g7700000000000675_dist_ag_v7x_xyz2x2x2_z_m4096_n1024_f32_1_alg».proof.Proof.KernelAG.Deal
import proofs.«900674_g7700000000000675_dist_ag_v7x_xyz2x2x2_z_m4096_n1024_f32_1_alg».proof.Proof.KernelAG.Devs
import proofs.«900674_g7700000000000675_dist_ag_v7x_xyz2x2x2_z_m4096_n1024_f32_1_alg».proof.Proof.Gen.Kernel.Skeleton
import proofs.«900674_g7700000000000675_dist_ag_v7x_xyz2x2x2_z_m4096_n1024_f32_1_alg».proof.Proof.Gen.Kernel.Launch
import proofs.«900674_g7700000000000675_dist_ag_v7x_xyz2x2x2_z_m4096_n1024_f32_1_alg».proof.Proof.Gen.Kernel.Points

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Tactics

Hypotheses are named by transfer `i`: `Hxs i` the chunk of the input block a `z` transfer reads, `Hsrc i` the chunk of the
own result a forwarding transfer reads, `Hd i` its destination chunk (in the neighbour's result), `Hts i` / `Htr i` the
duty tokens of its send and receive cells, `Hcs i` the credit on the own send cell, `Hcr i` the credit on the own receive
cell of the incoming transfer `i`, `Has i` / `Har i` the positions at those cells, `Hzs i` / `Hzr i` their counters once
closed, `Hin i` the chunk the incoming transfer `i` filled, `Hret i` what transfer `i`'s send cell gave back. -/

open Lean in
/-- The hypothesis name `pre k`. -/
def hname (pre : String) (k : Nat) : Ident := mkIdent (.mkSimple s!"{pre}{k}")

set_option hygiene false in
open Lean in
/-- Name the conjuncts of `H` (a right-nested `∗` of `hi - lo` conjuncts) `pre lo … pre (hi - 1)`. -/
macro "inames " h:ident pre:str lo:num hi:num : tactic => do
  let mut ts : Array (TSyntax `tactic) := #[]
  for k in [lo.getNat : hi.getNat - 1] do
    ts := ts.push (← `(tactic| icases $h:ident with ⟨$(hname pre.getString k):ident, $h:ident⟩))
  ts := ts.push (← `(tactic| irename $h:ident => $(hname pre.getString (hi.getNat - 1)):ident))
  `(tactic| ($[$ts]*))

set_option hygiene false in
open Lean in
/-- Frame the hypotheses `pre lo … pre (hi - 1)` against the goal, one after the other. -/
macro "iframes " pre:str lo:num hi:num : tactic => do
  let mut ts : Array (TSyntax `tactic) := #[]
  for k in [lo.getNat : hi.getNat] do
    ts := ts.push (← `(tactic| iframe $(hname pre.getString k):ident))
  `(tactic| ($[$ts]*))

set_option hygiene false in
open Lean in
/-- The `z` transfer `i`, the `n`-th payment, its device chain `dv` and its offsets' closed forms. -/
macro "z_send " i:num " pay " n:num " dev " dv:term " soff " so:term " doff " dof:term : tactic => do
  let k := i.getNat
  `(tactic| (
    iapply (wp_zsend m K c ($i : Fin 32) rfl (by decide) _ $dv _ _ _ _ $so $dof _ _ rfl rfl (owedAfter c $n) (owedAfter c ($n + 1)) rfl _) $$ [HO $(hname "Hxs" k):ident $(hname "Hd" k):ident $(hname "Hts" k):ident $(hname "Htr" k):ident]
    · iframe HR HO $(hname "Hxs" k):ident $(hname "Hd" k):ident $(hname "Hts" k):ident $(hname "Htr" k):ident
    iintro ⟨$(hname "Hcs" k):ident, HO⟩))

set_option hygiene false in
open Lean in
/-- The forwarding transfer `i`, the `n`-th payment. -/
macro "f_send " i:num " pay " n:num " dev " dv:term " soff " so:term " doff " dof:term : tactic => do
  let k := i.getNat
  `(tactic| (
    iapply (wp_fsend m K c ($i : Fin 32) (by decide) (by decide) ($(quote (if k < 21 then 1 else 2)) : Fin 3) (by decide) _ $dv _ _ _ _ $so $dof _ _ rfl rfl (owedAfter c $n) (owedAfter c ($n + 1)) rfl _) $$ [HO $(hname "Hsrc" k):ident $(hname "Hd" k):ident $(hname "Hts" k):ident $(hname "Htr" k):ident]
    · iframe HR HO $(hname "Hsrc" k):ident $(hname "Hd" k):ident $(hname "Hts" k):ident $(hname "Htr" k):ident
    iintro ⟨$(hname "Hcs" k):ident, HO⟩))

set_option hygiene false in
open Lean in
/-- The wait on the receive cell of the incoming transfer `i`, after `n` payments (`n = 35`: nothing is owed). -/
macro "r_wait " i:num " after " n:num : tactic => do
  let k := i.getNat
  let mw ← if n.getNat == 35 then `(by rw [owedAfter_all, MayWait_zero]; iintro -; iempintro)
           else `(mayWait_rcv c ($i : Fin 32) $n (by decide) (by decide))
  `(tactic| (
    iapply (wp_dma_wait m K c (rcvSem ($i : Fin 32)) NC (rcvPay m c ($i : Fin 32)) (expect_rcv m c _) (rest_rcv m c _) (owedAfter c $n)
        $mw _ (by rfl) (hN := by rfl)) $$ [HO $(hname "Hcr" k):ident $(hname "Har" k):ident]
    · iframe HR Hlev HO $(hname "Hcr" k):ident $(hname "Har" k):ident
    iintro ⟨HO, $(hname "Hzr" k):ident, $(hname "Hin" k):ident⟩))

set_option hygiene false in
open Lean in
/-- The wait on the send cell of transfer `i` (nothing is owed any more). -/
macro "s_wait " i:num : tactic => do
  let k := i.getNat
  `(tactic| (
    iapply (wp_dma_wait m K c (sndSem ($i : Fin 32)) NC (sndPay m c ($i : Fin 32)) (expect_snd m c _) (rest_snd m c _) (owedAfter c 35)
        (by rw [owedAfter_all, MayWait_zero]; iintro -; iempintro) _ (by rfl) (hN := by rfl)) $$ [HO $(hname "Hcs" k):ident $(hname "Has" k):ident]
    · iframe HR Hlev HO $(hname "Hcs" k):ident $(hname "Has" k):ident
    iintro ⟨HO, $(hname "Hzs" k):ident, $(hname "Hret" k):ident⟩))

set_option hygiene false in
open Lean in
/-- The ten `z` transfers (payments 3 … 12): the own quarter's eight chunks, then chunks 6 and 7 of the diagonal quarter. -/
macro "z_sends" : tactic => do
  let mut ts : Array (TSyntax `tactic) := #[]
  for k in [0:10] do
    let dv := mkIdent (.mkSimple s!"dev{4 + k}_eq")
    let t ← if k < 8 then
        `(tactic| z_send $(quote k) pay $(quote (3 + k)) dev ($dv c) soff (off2_eq c $(quote k)) doff (off1_eq c $(quote k)))
      else
        `(tactic| z_send $(quote k) pay $(quote (3 + k)) dev ($dv c) soff (off4_eq c $(quote (k - 8))) doff (off3_eq c $(quote (k - 8))))
    ts := ts.push t
  `(tactic| ($[$ts]*))

set_option hygiene false in
open Lean in
/-- The own quarter's eight chunks: chunk `k` comes in from the `z`-neighbour (incoming transfer `k`), is cut into its
    two half shares, and goes on to the `x`-neighbour (transfer `10 + k`) and the `y`-neighbour (transfer `21 + k`). -/
macro "own_quarter" : tactic => do
  let mut ts : Array (TSyntax `tactic) := #[]
  for k in [0:8] do
    let dx := mkIdent (.mkSimple s!"dev{14 + 2 * k}_eq")
    let dy := mkIdent (.mkSimple s!"dev{15 + 2 * k}_eq")
    ts := ts.push (← `(tactic| r_wait $(quote k) after $(quote (13 + 2 * k))))
    ts := ts.push (← `(tactic| ihave Hsp := (fwd_split m c ($(quote k) : Fin 32) ($(quote (10 + k)) : Fin 32) ($(quote (21 + k)) : Fin 32) (by decide) (by decide) (by decide)).1 $$ $(hname "Hin" k):ident))
    ts := ts.push (← `(tactic| icases Hsp with ⟨$(hname "Hsrc" (10 + k)):ident, $(hname "Hsrc" (21 + k)):ident⟩))
    ts := ts.push (← `(tactic| f_send $(quote (10 + k)) pay $(quote (13 + 2 * k)) dev ($dx c) soff (off6_eq_x c $(quote k))
        doff ((off6_eq_x c $(quote k)).trans (oOff_plane c 1 (by decide) _).symm)))
    ts := ts.push (← `(tactic| f_send $(quote (21 + k)) pay $(quote (14 + 2 * k)) dev ($dy c) soff (off6_eq_y c $(quote k))
        doff ((off6_eq_y c $(quote k)).trans (oOff_plane c 2 (by decide) _).symm)))
  `(tactic| ($[$ts]*))

set_option hygiene false in
open Lean in
/-- Chunks 0 … 2 of the `y`-neighbour's quarter (incoming transfers `21 + j`) go on to the `x`-neighbour (transfers `18 + j`). -/
macro "y_to_x" : tactic => do
  let mut ts : Array (TSyntax `tactic) := #[]
  for j in [0:3] do
    let dv := mkIdent (.mkSimple s!"dev{30 + j}_eq")
    ts := ts.push (← `(tactic| r_wait $(quote (21 + j)) after $(quote (29 + j))))
    ts := ts.push (← `(tactic| ihave $(hname "Hsrc" (18 + j)):ident := (Entails.of_eq (fwd_one m c ($(quote (21 + j)) : Fin 32) ($(quote (18 + j)) : Fin 32) (by decide))) $$ $(hname "Hin" (21 + j)):ident))
    ts := ts.push (← `(tactic| f_send $(quote (18 + j)) pay $(quote (29 + j)) dev ($dv c) soff (off7_eq c $(quote j))
        doff ((off7_eq c $(quote j)).trans (oOff_plane c 1 (by decide) _).symm)))
  `(tactic| ($[$ts]*))

set_option hygiene false in
open Lean in
/-- Chunks 3 … 5 of the `x`-neighbour's quarter (incoming transfers `13 + j`) go on to the `y`-neighbour (transfers `29 + j`);
    before the first, the incoming transfers `10 … 12` are waited for too. -/
macro "x_to_y" : tactic => do
  let mut ts : Array (TSyntax `tactic) := #[]
  for i in [10:13] do
    ts := ts.push (← `(tactic| r_wait $(quote i) after 32))
  for j in [0:3] do
    let dv := mkIdent (.mkSimple s!"dev{33 + j}_eq")
    ts := ts.push (← `(tactic| r_wait $(quote (13 + j)) after $(quote (32 + j))))
    ts := ts.push (← `(tactic| ihave $(hname "Hsrc" (29 + j)):ident := (Entails.of_eq (fwd_one m c ($(quote (13 + j)) : Fin 32) ($(quote (29 + j)) : Fin 32) (by decide))) $$ $(hname "Hin" (13 + j)):ident))
    ts := ts.push (← `(tactic| f_send $(quote (29 + j)) pay $(quote (32 + j)) dev ($dv c) soff (off8_eq c $(quote j))
        doff ((off8_eq c $(quote j)).trans (oOff_plane c 2 (by decide) _).symm)))
  `(tactic| ($[$ts]*))

set_option hygiene false in
open Lean in
/-- The incoming transfers not yet waited for, in the body's order, once nothing is owed. -/
macro "last_receives" : tactic => do
  let mut ts : Array (TSyntax `tactic) := #[]
  for i in [8, 9, 16, 17, 24, 25, 26, 27, 28, 18, 29, 19, 30, 20, 31] do
    ts := ts.push (← `(tactic| r_wait $(quote i) after 35))
  `(tactic| ($[$ts]*))

set_option hygiene false in
open Lean in
/-- The 32 send cells, in order. -/
macro "send_waits" : tactic => do
  let mut ts : Array (TSyntax `tactic) := #[]
  for i in [0:32] do
    ts := ts.push (← `(tactic| s_wait $(quote i)))
  `(tactic| ($[$ts]*))

set_option hygiene false in
open Lean in
/-- What the `z` transfers' send cells gave back is the ten chunks of the input block, at the right half share. -/
macro "z_returns" : tactic => do
  let mut ts : Array (TSyntax `tactic) := #[]
  for k in [0:10] do
    ts := ts.push (← `(tactic| ihave $(hname "Hxs" k):ident := (Entails.of_eq (sndPay_z m c ($(quote k) : Fin 32) (by decide))) $$ $(hname "Hret" k):ident))
  `(tactic| ($[$ts]*))

set_option hygiene false in
open Lean in
/-- What the forwarding transfers' send cells gave back, put together into the chunks that had come in. -/
macro "f_returns" : tactic => do
  let mut ts : Array (TSyntax `tactic) := #[]
  for k in [0:8] do
    ts := ts.push (← `(tactic| ihave Hlft := (Entails.of_eq (sndPay_f m c ($(quote (10 + k)) : Fin 32) (by decide))) $$ $(hname "Hret" (10 + k)):ident))
    ts := ts.push (← `(tactic| ihave Hrgt := (Entails.of_eq (sndPay_f m c ($(quote (21 + k)) : Fin 32) (by decide))) $$ $(hname "Hret" (21 + k)):ident))
    ts := ts.push (← `(tactic| ihave $(hname "Hin" k):ident := (fwd_split m c ($(quote k) : Fin 32) ($(quote (10 + k)) : Fin 32) ($(quote (21 + k)) : Fin 32) (by decide) (by decide) (by decide)).2 $$ [Hlft Hrgt]))
    ts := ts.push (← `(tactic| · iframe Hlft Hrgt))
  for j in [0:3] do
    ts := ts.push (← `(tactic| ihave Hone := (Entails.of_eq (sndPay_f m c ($(quote (18 + j)) : Fin 32) (by decide))) $$ $(hname "Hret" (18 + j)):ident))
    ts := ts.push (← `(tactic| ihave $(hname "Hin" (21 + j)):ident := (Entails.of_eq (fwd_one m c ($(quote (21 + j)) : Fin 32) ($(quote (18 + j)) : Fin 32) (by decide)).symm) $$ Hone))
    ts := ts.push (← `(tactic| ihave Hone := (Entails.of_eq (sndPay_f m c ($(quote (29 + j)) : Fin 32) (by decide))) $$ $(hname "Hret" (29 + j)):ident))
    ts := ts.push (← `(tactic| ihave $(hname "Hin" (13 + j)):ident := (Entails.of_eq (fwd_one m c ($(quote (13 + j)) : Fin 32) ($(quote (29 + j)) : Fin 32) (by decide)).symm) $$ Hone))
  `(tactic| ($[$ts]*))

set_option maxHeartbeats 0 in
set_option maxRecDepth 65536 in
/-- The body from the invariant before the point to the invariant after it. -/
theorem sound_body (c : Dev nD) :
    iprop(Φ₀ m c ∗ (dats m 0 c).owesAt () t0_0.castSucc ∗ emp)
      ⊢ WP c (cc0_body (F := F) (Memref.whole main_arg0) (Memref.isWhole_whole _) (Memref.whole main_v1) (Memref.isWhole_whole _)
            cc0_scratch0 cc0_scratch1 cc0_scratch2 cc0_scratch3 cc0_scratch4 cc0_scratch5 cc0_scratch6)
          (fun _ => iprop(Φ₁ m c ∗ (dats m 0 c).owesAt () t0_0.succ ∗ emp)) := by
  -- the printed body as one sequence of memory operations
  simp only [cc0_body_eq_skeleton]; unfold cc0_body_skel
  simp only [k0_part33_eq_skeleton]; unfold k0_part33_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel
  simp only [semSignalWord, semWaitWord, Prog.lift, Prog.bind_op, Prog.bind_ret, Prog.pure_eq_ret, wp_deviceId]
  unfold Φ₀ start positions payToks launchCreds Dat.owesAt Pipeline.owesWithin
  rw [show (dats m 0 c).owed t0_0.castSucc = owedAfter c 0 from rfl]
  iintro ⟨⟨⟨⟨%K, #HR, ⟨HaB, HaD⟩, HtB, HtX, HtL⟩, ⟨HcB, HcR⟩, #Hlev⟩, Hx, Hout⟩, ⟨%W0, %hW0, HO0⟩, -⟩
  ihave HO : ow c (owedAfter c 0) $$ [HO0]
  · unfold ow; iexists W0; iexact HO0
  -- the ghost state, cell by cell
  ihave HaD := (Entails.of_eq (bigSep_by_role _)) $$ HaD
  icases HaD with ⟨HaS, HaR, HaL⟩
  ihave HaS := (Entails.of_eq (explode32 _)) $$ HaS
  inames HaS "Has" 0 32
  ihave HaR := (Entails.of_eq (explode32 _)) $$ HaR
  inames HaR "Har" 0 32
  ihave HtB := (Entails.of_eq (explode3 _)) $$ HtB
  icases HtB with ⟨HtB0, HtB1, HtB2⟩
  ihave HtX := (Entails.of_eq (bigSep_sep' _ _ _)) $$ HtX
  icases HtX with ⟨HtS, HtR⟩
  ihave HtS := (Entails.of_eq (explode32 _)) $$ HtS
  inames HtS "Hts" 0 32
  ihave HtR := (Entails.of_eq (explode32 _)) $$ HtR
  inames HtR "Htr" 0 32
  ihave HcR := (Entails.of_eq (explode32 _)) $$ HcR
  inames HcR "Hcr" 0 32
  -- the two arrays, in pieces
  ihave Hout := (out_deal m c) $$ Hout
  icases Hout with ⟨Hh, HbP0, HbP1, HbP2⟩
  ihave Hx := (xin_deal m c).1 $$ Hx
  icases Hx with ⟨HxL, HxZ, HxRest⟩
  ihave HxZ := (Entails.of_eq (explodeZ _)) $$ HxZ
  inames HxZ "Hxs" 0 10
  -- the entry handshake: a signal to each neighbour, with the chunks of the own result it will fill; then the wait
  iapply (wp_bar_signal m K c 0 _ (dev1_eq c) (owedAfter c 0) (owedAfter c 1) rfl) $$ [HO HtB0 HbP0]
  · iframe HR HO HtB0 HbP0
  iintro HO
  iapply (wp_bar_signal m K c 1 _ (dev2_eq c) (owedAfter c 1) (owedAfter c 2) rfl) $$ [HO HtB1 HbP1]
  · iframe HR HO HtB1 HbP1
  iintro HO
  iapply (wp_bar_signal m K c 2 _ (dev3_eq c) (owedAfter c 2) (owedAfter c 3) rfl) $$ [HO HtB2 HbP2]
  · iframe HR HO HtB2 HbP2
  iintro HO
  iapply (wp_bar_wait m K c) $$ [HO HcB HaB]
  · iframe HR Hlev HO HcB HaB
  iintro ⟨HO, HdZ, HdX, HdY⟩
  unfold barPay
  ihave HdZ := (Entails.of_eq (explodeZ _)) $$ HdZ
  inames HdZ "Hd" 0 10
  ihave HdX := (Entails.of_eq (explodeX _)) $$ HdX
  inames HdX "Hd" 10 21
  ihave HdY := (Entails.of_eq (explodeY _)) $$ HdY
  inames HdY "Hd" 21 32
  -- the transfers out of the input block, and the local copy
  z_sends
  iapply (wp_loc_copy m K c _ _ (off5_eq c) _ rfl (V0 m c)) $$ [HxL Hh HtL]
  · iframe HR HxL Hh HtL
  iintro HcL
  -- receiving and forwarding
  own_quarter
  y_to_x
  x_to_y
  last_receives
  -- the sources back, and the local copy done
  send_waits
  iapply (wp_dma_wait m K c locSem NL (locPay m c) (expect_loc m c) (rest_loc m c) (owedAfter c 35)
      (by rw [owedAfter_all, MayWait_zero]; iintro -; iempintro) _ (by rfl) (hN := by rfl)) $$ [HO HcL HaL]
  · iframe HR Hlev HO HcL HaL
  iintro ⟨HO, HzL, HpL⟩
  unfold locPay
  icases HpL with ⟨Hh, HxL⟩
  unfold WP
  rw [wp_ret]; imodintro
  -- the input block whole again
  z_returns
  ihave Hx : ((((c : Thread nD τ).loc main_arg0) ↦{fullShare} X m c : sProp 𝕄)) $$ [HxL Hxs0 Hxs1 Hxs2 Hxs3 Hxs4 Hxs5 Hxs6 Hxs7 Hxs8 Hxs9 HxRest]
  · iapply (xin_deal m c).2
    isplitl [HxL]; · iexact HxL
    isplitr [HxRest]
    · iapply (Entails.of_eq (explodeZ _).symm)
      iframes "Hxs" 0 10
    · iexact HxRest
  -- the result whole, holding its final values
  f_returns
  ihave Hout : ((((c : Thread nD τ).loc main_v1) ↦{fullShare} W m c : sProp 𝕄)) $$ [-Hx HO HzL Hzs0 Hzs1 Hzs2 Hzs3 Hzs4 Hzs5 Hzs6 Hzs7 Hzs8 Hzs9 Hzs10 Hzs11 Hzs12 Hzs13 Hzs14 Hzs15 Hzs16 Hzs17 Hzs18 Hzs19 Hzs20 Hzs21 Hzs22 Hzs23 Hzs24 Hzs25 Hzs26 Hzs27 Hzs28 Hzs29 Hzs30 Hzs31 Hzr0 Hzr1 Hzr2 Hzr3 Hzr4 Hzr5 Hzr6 Hzr7 Hzr8 Hzr9 Hzr10 Hzr11 Hzr12 Hzr13 Hzr14 Hzr15 Hzr16 Hzr17 Hzr18 Hzr19 Hzr20 Hzr21 Hzr22 Hzr23 Hzr24 Hzr25 Hzr26 Hzr27 Hzr28 Hzr29 Hzr30 Hzr31]
  · iapply (out_gather m c)
    isplitl [Hh]; · iexact Hh
    iapply (Entails.of_eq (explode32 _).symm)
    iframes "Hin" 0 32
  -- the invariant after the point
  unfold Φ₁
  rw [show (dats m 0 c).owed t0_0.succ = 0 from rfl]
  isplitr [HO]
  · isplitl [Hx]; · iexact Hx
    isplitl [Hout]; · iexact Hout
    iapply (Entails.of_eq (bigSep_by_role _).symm)
    isplitr [HzL Hzr0 Hzr1 Hzr2 Hzr3 Hzr4 Hzr5 Hzr6 Hzr7 Hzr8 Hzr9 Hzr10 Hzr11 Hzr12 Hzr13 Hzr14 Hzr15 Hzr16 Hzr17 Hzr18 Hzr19 Hzr20 Hzr21 Hzr22 Hzr23 Hzr24 Hzr25 Hzr26 Hzr27 Hzr28 Hzr29 Hzr30 Hzr31]
    · iapply (Entails.of_eq (explode32 _).symm)
      iframes "Hzs" 0 32
    isplitr [HzL]
    · iapply (Entails.of_eq (explode32 _).symm)
      iframes "Hzr" 0 32
    iexact HzL
  · isplitl [HO]
    · unfold ow
      icases HO with ⟨%W, HO⟩
      iexists W
      isplitr; · ipureintro; exact fun _ _ => Or.inl trivial
      rw [owedAfter_all]; iexact HO
    · iempintro

/-- The library's body obligation on device `c`. -/
theorem body_obligation (c : Dev nD) : BodyObligation (dats (F := F) m 0 c) (defs₀ (F := F)) 𝒱₀ () Set.univ := fun t => by
  rw [fin_N0 t]
  have hW : (Finset.univ : Finset (Fin cfg0.W)) = ∅ := rfl
  simp only [hW, bigSep_empty]
  show iprop(Φ₀ m c ∗ (dats m 0 c).owesAt () t0_0.castSucc ∗ emp)
    ⊢ WP c (cc0_body (F := F) (Memref.whole main_arg0) (Memref.isWhole_whole _) (Memref.whole main_v1) (Memref.isWhole_whole _)
          cc0_scratch0 cc0_scratch1 cc0_scratch2 cc0_scratch3 cc0_scratch4 cc0_scratch5 cc0_scratch6)
        (fun _ => iprop(Φ₁ m c ∗ (dats m 0 c).owesAt () t0_0.succ ∗ emp))
  exact sound_body m c

/-- info: 'Cert.Kernel.AG.body_obligation' depends on axioms: [propext, Classical.choice, Quot.sound] -/
#guard_msgs in #print axioms body_obligation

end Cert.Kernel.AG

end
-- ==== Proof.KernelAG.Launch.lean ====
/-
  The launch: the ghost state dealt to the eight devices, and the run of @main.

  The launch element funds one round cell per semaphore of the protocol — on every device the barrier cell and the 65
  DMA cells — and mints the duty tokens of round 0: three on each barrier cell, one on each DMA cell. Every cell's
  invariant is allocated under one update for all devices; the tokens are then dealt to the devices that PAY the
  duties: barrier duty `a` of a device to its neighbour along axis `a`, the receive duty of transfer `i` to the
  neighbour along the transfer's axis (both neighbour maps are involutions), the send duties and the local copy's duty
  to the owner. What each device owes, summed over the devices, is three units on every barrier cell and one chunk's
  credit on every receive cell: the credit each device is dealt.
-/
import proofs.«900674_g7700000000000675_dist_ag_v7x_xyz2x2x2_z_m4096_n1024_f32_1_alg».proof.Proof.KernelAG.Body
import proofs.«900674_g7700000000000675_dist_ag_v7x_xyz2x2x2_z_m4096_n1024_f32_1_alg».proof.Proof.Gen.Kernel.Frame

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

namespace Launch

/-- All 65 DMA semaphores are the kernel's own scoped scratch. -/
abbrev osem : DmaSem sig → SemLoc sig := fun q => .dma q

theorem ownSemFacts : Pipeline.OwnSemFacts cfg0.spec osem :=
  ⟨by decide, fun _ _ h => SemLoc.dma.inj h, fun _ w => w.elim0⟩

theorem share_eq (c : Dev nD) (w : Fin cfg0.W) : (dats (F := F) m 0 c).share w = fullShare := w.elim0

/-! ## The cells and the tokens minted -/

theorem kcell_injective : Function.Injective (kcell : CellIx → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := by
    cases k with
    | none => cases k' with
      | none => rfl
      | some q' => exact absurd h2 (fun h' => by cases h')
    | some q => cases k' with
      | none => exact absurd h2 (fun h' => by cases h')
      | some q' => exact congrArg some (SemLoc.dma.inj h2)
  subst h3; rfl

/-- Every cell of the protocol. -/
def agCells : Finset (GSem nD τ sig) := Finset.univ.map ⟨kcell, kcell_injective⟩

/-- A device's own cells' duty tokens as minted: (device, which duty) — its barrier's three, one of each DMA cell. -/
abbrev TokIx : Type := Dev nD × (Fin 3 ⊕ DmaSem sig)
abbrev tokOf (cj : TokIx) : GSem nD τ sig × ℕ × Fin 3 := match cj.2 with
  | .inl a => (barCell cj.1, 0, a)
  | .inr q => (dCell cj.1 q, 0, 0)

theorem tokOf_injective : Function.Injective tokOf := by
  rintro ⟨c, j⟩ ⟨c', j'⟩ h
  have h1 : c = c' := by
    have := congrArg (fun x : GSem nD τ sig × ℕ × Fin 3 => x.1.1.1) h
    cases j <;> cases j' <;> exact this
  subst h1
  have h3 : j = j' := by
    cases j with
    | inl a => cases j' with
      | inl a' => exact congrArg Sum.inl (congrArg (fun x : GSem nD τ sig × ℕ × Fin 3 => x.2.2) h)
      | inr q' => exact absurd (congrArg (fun x : GSem nD τ sig × ℕ × Fin 3 => x.1.2) h) (fun h' => by cases h')
    | inr q => cases j' with
      | inl a' => exact absurd (congrArg (fun x : GSem nD τ sig × ℕ × Fin 3 => x.1.2) h) (fun h' => by cases h')
      | inr q' => exact congrArg Sum.inr (SemLoc.dma.inj (congrArg (fun x : GSem nD τ sig × ℕ × Fin 3 => x.1.2) h))
  subst h3; rfl

def agToks : Finset (GSem nD τ sig × ℕ × Fin 3) := Finset.univ.map ⟨tokOf, tokOf_injective⟩

/-- The launch element: the pipeline library's (no staging cell) and the protocol's. -/
def u₀ : UU :=
  (initOf (Pipeline.cells cfgs cellOf_inj) (Pipeline.launchToks cfgs cellOf_inj), initOf agCells agToks)

/-- The duty tokens of device `c`'s own cells. -/
def toks (c : Dev nD) : sProp 𝕄 :=
  iprop((bigSep Finset.univ fun a : Fin 3 => dutyTok ER (barCell c) 0 a)
    ∗ bigSep Finset.univ fun q : DmaSem sig => dutyTok ER (dCell c q) 0 (0 : Fin 3))

/-- What the launch element deals device `c`. -/
def G (c : Dev nD) : sProp 𝕄 :=
  iprop((bigSep Finset.univ fun k : Option (DmaSem sig) => roundState ER (agRd m) (kcell (c, k)) 0)
    ∗ (bigSep Finset.univ fun k : Option (DmaSem sig) => iprop(atPos ER (kcell (c, k)) 0 ∅ 0 ∗ reached ER (kcell (c, k)) 0))
    ∗ toks c)

/-- What the global step makes of it. -/
def G' (c : Dev nD) : sProp 𝕄 := iprop(∃ K, iprop(records m K ∗ positions c ∗ payToks c))

/-- A family over a device's cells: the barrier cell's member and the DMA cells'. -/
theorem bigSep_cells {α : Type} [Fintype α] (Φ : Option α → sProp 𝕄) :
    bigSep Finset.univ Φ = iprop(Φ none ∗ bigSep Finset.univ fun a : α => Φ (some a)) := by
  rw [bigSep_univ_equiv ((Equiv.sumComm PUnit.{1} α).trans (Equiv.optionEquivSumPUnit.{0, 0} α).symm) Φ, bigSep_univ_sum,
    bigSep_univ_of_subsingleton PUnit.unit]
  rfl

theorem fund_ag : BI.own (ER (initOf agCells agToks)) ⊢ (|==> bigSep Finset.univ (G m) : sProp 𝕄) := by
  have hX (Φ : GSem nD τ sig → sProp 𝕄) :
      bigSep agCells Φ = bigSep Finset.univ fun c : Dev nD => bigSep Finset.univ fun k : Option (DmaSem sig) => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_univ_sum]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (DmaSem sig) => semVal (kcell (c, k)) 0 : sProp 𝕄) := by
  rw [unscopedSems0_eq, bigSep_cells]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option (DmaSem sig) => iprop(∃ κ : ℕ, cellInv ER (agRd m) κ (kcell (c, k))))
          ∗ (bigSep Finset.univ fun k : Option (DmaSem sig) => iprop(atPos ER (kcell (c, k)) 0 ∅ 0 ∗ reached ER (kcell (c, k)) 0))
          ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (DmaSem sig) => semVal (kcell (c, k)) 0)
        ∗ bigSep Finset.univ fun k : Option (DmaSem sig) => roundState ER (agRd m) (kcell (c, k)) 0)
      ⊢ (|={Set.univ}=> bigSep Finset.univ fun k : Option (DmaSem sig) => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c` besides the records: its positions, and the tokens of the duties IT pays. -/
def linear (c : Dev nD) : sProp 𝕄 := iprop(positions c ∗ payToks c)

theorem ghost_intro (K : CellIx → ℕ) (c : Dev nD) : iprop(records m K ∗ linear c) ⊢ G' m c := by
  unfold linear G'
  iintro ⟨#HR, Hp, Ht⟩
  iexists K
  isplitr; · iexact HR
  isplitl [Hp]; · iexact Hp
  iexact Ht

theorem positions_eq (c : Dev nD) :
    (bigSep Finset.univ fun k : Option (DmaSem sig) => (atPos ER (kcell (c, k)) 0 ∅ 0 : sProp 𝕄)) = positions c :=
  (bigSep_cells (fun k : Option (DmaSem sig) => (atPos ER (kcell (c, k)) 0 ∅ 0 : sProp 𝕄))).trans rfl

/-- A family over devices and an index, each member moved to the device an involution of the devices names. -/
theorem deal {A : Type} [Fintype A] (f : A → Dev nD → Dev nD) (hf : ∀ a c, f a (f a c) = c) (Φ : Dev nD → A → sProp 𝕄) :
    (bigSep Finset.univ fun c : Dev nD => bigSep Finset.univ fun a : A => Φ c a)
      = bigSep Finset.univ fun c : Dev nD => bigSep Finset.univ fun a : A => Φ (f a c) a := by
  rw [bigSep_univ_comm Φ, bigSep_univ_comm (fun c a => Φ (f a c) a)]
  exact bigSep_congr fun a _ => bigSep_univ_equiv (⟨f a, f a, hf a, hf a⟩ : Dev nD ≃ Dev nD) (fun c => Φ c a)

/-- The tokens dealt to their payers: barrier duty `a` to the neighbour along `a`, the receive duty of transfer `i` to the
    neighbour along its axis; the send duties and the local copy's stay. -/
theorem toks_around : (bigSep Finset.univ fun c : Dev nD => (toks c : sProp 𝕄)) ⊢ bigSep Finset.univ fun c : Dev nD => payToks c := by
  have hB := deal (F := F) (fun a : Fin 3 => peer a) peer_peer (fun c a => (dutyTok ER (barCell c) 0 a : sProp 𝕄))
  have hR := deal (F := F) (fun i : Fin 32 => peer (ax i)) (fun i => peer_peer (ax i)) (fun c i => (dutyTok ER (dCell c (rcvSem i)) 0 (0 : Fin 3) : sProp 𝕄))
  unfold toks payToks
  simp only [bigSep_by_role, bigSep_sep']
  rw [hB, hR]
  iintro ⟨H1, H2, H3, H4⟩
  isplitl [H1]; · iexact H1
  isplitl [H2 H3]
  · isplitl [H2]; · iexact H2
    iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option (DmaSem sig) => iprop(∃ κ : ℕ, cellInv ER (agRd m) κ (kcell (c, k))))
          ∗ (bigSep Finset.univ fun k : Option (DmaSem sig) => iprop(atPos ER (kcell (c, k)) 0 ∅ 0 ∗ reached ER (kcell (c, k)) 0))
          ∗ toks c) : sProp 𝕄)
      ⊢ bigSep Finset.univ (G' m) := by
  rw [bigSep_sep', bigSep_sep', ← bigSep_univ_prod (fun ck : CellIx => iprop(∃ κ : ℕ, cellInv ER (agRd m) κ (kcell ck))),
    bigSep_congr (s := Finset.univ) (fun (c : Dev nD) _ => bigSep_sep' Finset.univ (fun k : Option (DmaSem sig) => (atPos ER (kcell (c, k)) 0 ∅ 0 : sProp 𝕄)) (fun k => reached ER (kcell (c, k)) 0)),
    bigSep_sep', ← bigSep_univ_prod (fun ck : CellIx => (reached ER (kcell ck) 0 : sProp 𝕄))]
  iintro ⟨HI, ⟨Hat, #HR⟩, Htok⟩
  ihave HK := (BI.bigSep_exists_pi Finset.univ (fun (ck : CellIx) (κ : ℕ) => (cellInv ER (agRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Option (DmaSem sig) => (atPos ER (kcell (c, k)) 0 ∅ 0 : sProp 𝕄)) payToks).symm).trans
      (bigSep_mono fun c _ => show _ ⊢ linear c from Entails.of_eq (by unfold linear; rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed for a list of payments is the sum of the payments. -/
theorem owedL_eq_sum (l : List (GSem nD τ sig × ℕ)) :
    owedL l = (l.map fun p => (tallyAt p.1 () p.2 : CellTallies nD τ sig Unit)).sum := by
  induction l with
  | nil => rfl
  | cons p ps ih => rw [List.map_cons, List.sum_cons, ← ih, add_comm]; rfl

theorem payOrder_nodup : payOrder.Nodup := by decide
theorem payOrder_toFinset : payOrder.toFinset = Finset.univ := by decide

/-- What device `c` owes at launch: a unit to each neighbour's barrier cell, a chunk's credit to the receive cell of each
    of its transfers. -/
theorem O₀_eq (c : Dev nD) :
    O₀ c = (∑ a : Fin 3, (tallyAt (barCell (peer a c)) () 1 : CellTallies nD τ sig Unit))
      + ∑ i : Fin 32, (tallyAt (dCell (peer (ax i) c) (rcvSem i)) () NC : CellTallies nD τ sig Unit) := by
  unfold O₀ owedAfter pays
  rw [List.drop_zero, owedL_eq_sum]
  simp only [List.map_cons, List.sum_cons, List.map_map]
  rw [Fin.sum_univ_three, ← payOrder_toFinset, List.sum_toFinset _ payOrder_nodup]
  simp only [Function.comp_def, add_assoc]

/-- The credit the launch deals device `c` is its three barrier units and a chunk's credit on each receive cell. -/
theorem creds (c : Dev nD) : (Pipeline.launchCred O₀ c : sProp 𝕄) ⊢ launchCreds c := by
  have e : (O₀ : Dev nD → CellTallies nD τ sig Unit)
      = fun d => (∑ a : Fin 3, (tallyAt (barCell (peer a d)) () 1 : CellTallies nD τ sig Unit))
          + ∑ i : Fin 32, (tallyAt (dCell (peer (ax i) d) (rcvSem i)) () NC : CellTallies nD τ sig Unit) := funext O₀_eq
  rw [e, Pipeline.launchCred_add, Pipeline.launchCred_sum, Pipeline.launchCred_sum]
  unfold launchCreds
  refine BI.sep_mono ?_ ?_
  · refine (bigSep_mono fun a _ => Pipeline.launchCred_tallyAt (.reg barS) (peer a) (peer a) (peer_peer a) (peer_peer a) () 1 c).trans ?_
    have h3 : (tallyAt (barCell c) () 1 + (tallyAt (barCell c) () 1 + tallyAt (barCell c) () 1) : CellTallies nD τ sig Unit)
        = tallyAt (barCell c) () 3 := by simp only [tallyAt_add]
    rw [explode3, ← h3]
    exact (sep_mono_right (cred_add _ _).2).trans (cred_add _ _).2
  · exact bigSep_mono fun i _ => Pipeline.launchCred_tallyAt (.dma (rcvSem i)) (peer (ax i)) (peer (ax i)) (peer_peer _) (peer_peer _) () NC c

/-! ## The theorem's side conditions -/

/-- What a device hands back at the end: its input block as it was, its result at `W`. -/
def Yend (c : Dev nD) : sProp 𝕄 :=
  iprop((((c : Thread nD τ).loc main_arg0) ↦{fullShare} X m c) ∗ (((c : Thread nD τ).loc main_v1) ↦{fullShare} W m c))

theorem start_intro (c : Dev nD) :
    iprop(Pipeline.unscopedRestP Pipeline.Prefetch.none cfg0.spec c (fun b => m ((c : Thread nD τ).loc b)) ∗ levAts Lv lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨⟨Hx, Hv⟩, Hlev, Hcr, -, HG⟩
  ihave Hc := (creds (F := F) c) $$ Hcr
  imodintro
  unfold Φ₀ start G'
  isplitl
  · isplitl [HG Hc Hlev]
    · isplitl [HG]; · iexact HG
      isplitl [Hc]; · iexact Hc
      iexact Hlev
    isplitl [Hx]; · iexact Hx
    iexact Hv
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = Φ₁ m c from rfl, scopedRest0_eq]
  unfold Φ₁ Yend Pipeline.ownSems0
  iintro ⟨Hx, Hw, Hz⟩
  isplitl [Hx Hw]
  · isplitl [Hx]; · iexact Hx
    iexact Hw
  isplitl [Hz]; · iexact Hz
  iempintro

/-- No window: the pipeline waits on no staging cell. -/
theorem waits (c : Dev nD) : (levAts Lv lv : sProp 𝕄) ⊢ Pipeline.cellsWaits cfgs (dats m) () 0 c :=
  Pipeline.cellsWaits_intro cfgs (dats m) () 0 c fun w => w.elim0

end Launch

/-! ## The run -/

set_option maxRecDepth 8000 in
/-- At the compiled mesh of eight devices, for any float values, from any memory with zero counters: every weakly fair
    execution of @main terminates, and every final state has each device's result array at `W` and its input block unchanged. -/
theorem run_main : θ_run defs (onTc (τ := τ) (main (F := F))) ⟨m, fun _ => 0, ρ⟩ (fun r => ∀ c : Dev nD,
    r.2.mem ((c.tc : Thread nD τ).loc main_v1) = W m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ Launch.ownSemFacts (Pipeline.PreFacts.none _) EP defs₀ 𝒱₀ m ρ main
    (hmain := fun _ => rfl)
    (hbody := fun c => (body_obligation m c).loose) (hne := fun w => w.elim0) (harr := arr_whole0) (hstage := stage_whole0)
    (hshare := Launch.share_eq m) (hdistinct := winFacts0.arr_inj)
    (O₀ := O₀) (howed₀ := fun _ => rfl) (howedN := fun _ => rfl)
    (L := Lv) (lv := lv) (hL := Lv_of_ne) (hwaits := Launch.waits m)
    (G := Launch.G m) (G' := Launch.G' m) (u₀ := Launch.u₀)
    (hu₀ := by
      unfold Launch.u₀
      iintro Hu
      ihave H := (ownU_pair _ _) $$ Hu
      icases H with ⟨HP, HX⟩
      imod (Launch.fund_ag m) $$ HX with HG
      imodintro
      isplitl [HP] <;> iassumption)
    (hglob := Launch.glob m)
    (hA := fun _ w => w.elim0) (hpf := fun _ k => k.elim0)
    (X := Φ₀ m) (Y := Launch.Yend m) (Z := fun _ => iprop(emp))
    (hX := Launch.start_intro m ρ) (hin := Launch.phi0_intro m) (hout := Launch.phi1_exit m)
    (QY := fun c s => s.mem ((c.tc : Thread nD τ).loc main_v1) = W m c
      ∧ s.mem ((c.tc : Thread nD τ).loc main_arg0) = m ((c.tc : Thread nD τ).loc main_arg0))
    (hY := fun c s' => by
      unfold Launch.Yend
      iintro ⟨⟨Hx, Hw⟩, -, HSI⟩
      icombine HSI Hw gives %hw
      icombine HSI Hx gives %hx
      imodintro
      isplitr; · ipureintro; exact ⟨Buf.eq_of_forall_mem_univ hw, Buf.eq_of_forall_mem_univ hx⟩
      iexact HSI)
    (hQ := fun s h c => (h c).2.2)

/-- info: 'Cert.Kernel.AG.run_main' depends on axioms: [propext, Classical.choice, Quot.sound] -/
#guard_msgs in #print axioms run_main

end Cert.Kernel.AG

end
-- ==== Proof.KernelIdealAG.Value.lean ====
/-
  The value of the result under the claim's hypothesis.

  The claim reads each device's input block as a block of ONE whole array `v` of 8192 rows: the array is cut along the
  rows into two blocks of 4096 rows, and device `d` of the 2 × 2 × 2 mesh holds the block its `z` coordinate `d % 2`
  names (the columns are not cut). Row `r` of the whole array lies in block `r / 4096` at row `r % 4096`. So a row of
  device `c`'s result in its own half (`r / 4096 = c % 2`) holds, by `W`, row `r % 4096` of `c`'s own block, which is
  row `r` of `v`; and a row in the other half holds row `r % 4096` of the block of the chunk's origin, a device of the
  other `z` coordinate `1 - c % 2 = r / 4096`, which again is row `r` of `v`. Every device's result is the whole array.
-/
import proofs.«900674_g7700000000000675_dist_ag_v7x_xyz2x2x2_z_m4096_n1024_f32_1_alg».proof.Proof.KernelIdealAG.Region
import Idealize.ShloMosaic.Lib.Layout

noncomputable section

namespace Cert.KernelIdeal.AG

open Cert.KernelIdeal Cert.KernelIdeal.Gen
open Idealize.ShloMosaic Idealize.ShloMosaic.TcCoe
open Idealize.SL Idealize.SL.Sem

/-- The rows are cut along the mesh's last axis: device `d` holds the block its `z` coordinate names. -/
theorem meshBlock_rows : ∀ d : Dev nD, ((Layout.meshBlock [2, 2, 2] ![[2], []] d) 0).val = d.val % 2 := by decide

/-- The columns are not cut: one block. -/
theorem meshBlock_cols : ∀ d : Dev nD, ((Layout.meshBlock [2, 2, 2] ![[2], []] d) 1).val = 0 := by decide

/-- Row `r % 4096` of the block of a device whose `z` coordinate is `r / 4096` is row `r` of the whole array. -/
theorem whole_at {F : FTy → Type} (v : S8192x1024.Idx → Elt F .f32) (d : Dev nD) (i : S8192x1024.Idx)
    (hd : (i 0).val / 4096 = d.val % 2) :
    (Layout.blockN ⟨2, ![4096, 1024]⟩ ⟨2, ![8192, 1024]⟩ (Layout.meshBlock [2, 2, 2] ![[2], []] d) v) (lo i) = v i := by
  have hi : (i 0).val < 8192 := (i 0).isLt
  rw [Layout.blockN_apply]
  refine congrArg v ?_
  funext b
  apply Fin.ext
  match b with
  | ⟨0, _⟩ =>
    show ((Layout.meshBlock [2, 2, 2] ![[2], []] d) 0).val * 4096 + (i 0).val % 4096 = (i 0).val
    rw [meshBlock_rows d]; omega
  | ⟨1, _⟩ =>
    show ((Layout.meshBlock [2, 2, 2] ![[2], []] d) 1).val * 1024 + (i 1).val = (i 1).val
    rw [meshBlock_cols d]; omega

/-- When every device's input block is its block of one whole array `v`, what every device's result holds is `v`. -/
theorem W_eq_whole {F : FTy → Type} [FloatOps F] (m : (ℓ : Loc nD τ sig) → Buf (Elt F) ℓ)
    (v : S8192x1024.Idx → Elt F .f32)
    (h : ∀ c : Dev nD, m ((c.tc : Thread nD τ).loc main_arg0)
      = Layout.blockN ⟨2, ![4096, 1024]⟩ ⟨2, ![8192, 1024]⟩ (Layout.meshBlock [2, 2, 2] ![[2], []] c) v)
    (c : Dev nD) : W m c = v := by
  funext i
  have hi : (i 0).val < 8192 := (i 0).isLt
  have hX : ∀ (d : Dev nD) (j : S4096x1024.Idx), X m d j
      = (Layout.blockN ⟨2, ![4096, 1024]⟩ ⟨2, ![8192, 1024]⟩ (Layout.meshBlock [2, 2, 2] ![[2], []] d) v) j :=
    fun d j => congrFun (h d) j
  show (if (i 0).val / 4096 = c.val % 2 then X m c (lo i) else X m (origin c (chunkOf i)) (lo i)) = v i
  by_cases hz : (i 0).val / 4096 = c.val % 2
  · rw [if_pos hz]
    exact (hX c (lo i)).trans (whole_at v c i hz)
  · rw [if_neg hz]
    refine (hX (origin c (chunkOf i)) (lo i)).trans (whole_at v _ i ?_)
    have ho := origin_z_coord c (chunkOf i)
    omega

/-- info: 'Cert.KernelIdeal.AG.W_eq_whole' depends on axioms: [propext, Classical.choice, Quot.sound] -/
#guard_msgs in #print axioms W_eq_whole

end Cert.KernelIdeal.AG

end
-- ==== Proof.RefRun.lean ====
/-
  The reference's run.

  The reference is the identity on ONE device: its @main has no operation and returns its argument array. So every
  execution ends at once, and the one array holds at the end what it held at the start.
-/
import proofs.«900674_g7700000000000675_dist_ag_v7x_xyz2x2x2_z_m4096_n1024_f32_1_alg».proof.Proof.Gen.ReferenceIdeal
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo

/-- @main is the empty line of operations. -/
theorem main_eq {F : FTy → Type} [FloatOps F] (c : Dev nD) : main (F := F) c = seq [] := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of @main terminates, and
    the array ends holding what it held. -/
theorem run {F : FTy → Type} [FloatOps F] (m' : (ℓ : Loc nD τ sig) → Buf (Elt F) ℓ) (ρ' : Dev nD → PrngReg) :
    θ_run defs (onTc (τ := τ) (main (F := F))) ⟨m', fun _ => 0, ρ'⟩ fun r => ∀ c : Dev nD,
      r.2.mem ((c.tc : Thread nD τ).loc main_arg0) = m' ((c.tc : Thread nD τ).loc main_arg0) :=
  (θ_run defs _ _).mono (fun _ h c => h c main_arg0)
    (run_seq scopedRefs_eq scopedSems_eq defs main (fun _ => []) main_eq (fun _ => trivial) m' ρ'
      (fun _ _ hop => absurd hop List.not_mem_nil))

/-- info: 'Cert.ReferenceIdeal.RefRun.run' depends on axioms: [propext, Classical.choice, Quot.sound] -/
#guard_msgs in #print axioms run

end Cert.ReferenceIdeal.RefRun

end
-- ==== Proof.lean ====
/-
  The proof of `Cert.Claim`: an all-gather on the 2 × 2 × 2 mesh of eight devices, against the identity on one device.

  Each device starts with one half (4096 rows) of an array of 8192 rows, the half its `z` coordinate names, and ends with
  the whole array: its own half by a local copy, the other half in 32 chunks of 128 rows that arrive from its three
  neighbours. The run of @main (KernelIdealAG/Launch.lean, and the same text over the word-level program,
  KernelAG/Launch.lean) says that every weakly fair execution terminates with each device's result at `W` — its own
  block on its own half, blocks of devices of the other `z` coordinate on the other half — and its input block as it was;
  it holds at any float values. Its second half is the frame claim of both programs. The reference has no operation and
  ends as it started (RefRun.lean): its frame claim. The ideal pass rewrote no operation, so nothing is to be preserved.
  For the value claim, every device's input block is its block of the reference's array `v`; then `W` is `v` on every
  device (KernelIdealAG/Value.lean: row `r` of `v` is row `r % 4096` of the block of `z` coordinate `r / 4096`), and
  `v` is what the reference's array holds at the end.
-/
import proofs.«900674_g7700000000000675_dist_ag_v7x_xyz2x2x2_z_m4096_n1024_f32_1_alg».proof.Defs
import proofs.«900674_g7700000000000675_dist_ag_v7x_xyz2x2x2_z_m4096_n1024_f32_1_alg».proof.Proof.Gen.Kernel
import proofs.«900674_g7700000000000675_dist_ag_v7x_xyz2x2x2_z_m4096_n1024_f32_1_alg».proof.Proof.Gen.Kernel.Skeleton
import proofs.«900674_g7700000000000675_dist_ag_v7x_xyz2x2x2_z_m4096_n1024_f32_1_alg».proof.Proof.Gen.Kernel.Launch
import proofs.«900674_g7700000000000675_dist_ag_v7x_xyz2x2x2_z_m4096_n1024_f32_1_alg».proof.Proof.Gen.Kernel.Points
import proofs.«900674_g7700000000000675_dist_ag_v7x_xyz2x2x2_z_m4096_n1024_f32_1_alg».proof.Proof.Gen.Kernel.Frame
import proofs.«900674_g7700000000000675_dist_ag_v7x_xyz2x2x2_z_m4096_n1024_f32_1_alg».proof.Proof.Gen.KernelIdeal
import proofs.«900674_g7700000000000675_dist_ag_v7x_xyz2x2x2_z_m4096_n1024_f32_1_alg».proof.Proof.Gen.KernelIdeal.Skeleton
import proofs.«900674_g7700000000000675_dist_ag_v7x_xyz2x2x2_z_m4096_n1024_f32_1_alg».proof.Proof.Gen.KernelIdeal.Launch
import proofs.«900674_g7700000000000675_dist_ag_v7x_xyz2x2x2_z_m4096_n1024_f32_1_alg».proof.Proof.Gen.KernelIdeal.Points
import proofs.«900674_g7700000000000675_dist_ag_v7x_xyz2x2x2_z_m4096_n1024_f32_1_alg».proof.Proof.Gen.KernelIdeal.Frame
import proofs.«900674_g7700000000000675_dist_ag_v7x_xyz2x2x2_z_m4096_n1024_f32_1_alg».proof.Proof.Gen.ReferenceIdeal
import proofs.«900674_g7700000000000675_dist_ag_v7x_xyz2x2x2_z_m4096_n1024_f32_1_alg».proof.Proof.Gen.Pre_finite_inputs_Kernel
import proofs.«900674_g7700000000000675_dist_ag_v7x_xyz2x2x2_z_m4096_n1024_f32_1_alg».proof.Proof.Gen.Pre_finite_inputs_ReferenceIdeal
import proofs.«900674_g7700000000000675_dist_ag_v7x_xyz2x2x2_z_m4096_n1024_f32_1_alg».proof.Proof.KernelIdealAG.Launch
import proofs.«900674_g7700000000000675_dist_ag_v7x_xyz2x2x2_z_m4096_n1024_f32_1_alg».proof.Proof.KernelAG.Launch
import proofs.«900674_g7700000000000675_dist_ag_v7x_xyz2x2x2_z_m4096_n1024_f32_1_alg».proof.Proof.KernelIdealAG.Value
import proofs.«900674_g7700000000000675_dist_ag_v7x_xyz2x2x2_z_m4096_n1024_f32_1_alg».proof.Proof.RefRun
import Idealize.ShloMosaic.Adequacy
import Idealize.ShloMosaic.Init

noncomputable section

namespace Cert.Proof

open Idealize.ShloMosaic Idealize.SL.Sem

/-- The word-level program runs and leaves every device's input block as it was: the second half of its run. -/
theorem frame_Kernel : Cert.frame_Kernel := fun m g _ =>
  (θ_run (Cert.Kernel.defs (F := Bits)) _ _).mono (fun _ h c => (h c).2) (Cert.Kernel.AG.run_main (F := Bits) m g)

/-- The same of the program read at the ideal instance. -/
theorem frame_KernelIdeal : Cert.frame_KernelIdeal := fun m g _ =>
  (θ_run (Cert.KernelIdeal.defs (F := Ideal)) _ _).mono (fun _ h c => (h c).2) (Cert.KernelIdeal.AG.run_main (F := Ideal) m g)

/-- The reference runs and its array ends as it started. -/
theorem frame_ReferenceIdeal : Cert.frame_ReferenceIdeal := fun m g _ => Cert.ReferenceIdeal.RefRun.run (F := Ideal) m g

/-- Every device's result ends at `W`, which is the reference's array `v` when the input blocks are the blocks of `v`;
    the reference's array ends at `v`, as it started. -/
theorem algebraic : Cert.algebraic_KernelIdeal_ReferenceIdeal := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · exact (θ_run (Cert.KernelIdeal.defs (F := Ideal)) _ _).mono
      (fun _ h c => ⟨(h c).1.trans (Cert.KernelIdeal.AG.W_eq_whole m _ hagree c), (h c).2⟩)
      (Cert.KernelIdeal.AG.run_main (F := Ideal) m g)
  · exact (θ_run (Cert.ReferenceIdeal.defs (F := Ideal)) _ _).mono (fun _ h => ⟨h 0, h 0⟩)
      (Cert.ReferenceIdeal.RefRun.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

/-- info: 'Cert.Proof.claim' depends on axioms: [propext, Classical.choice, Quot.sound] -/
#guard_msgs in #print axioms claim

end Cert.Proof

end
